-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x1600000 : Shape := ⟨2, ![2, 1600000]⟩
abbrev S_ : Shape := ⟨0, ![]⟩
abbrev S1x1600000 : Shape := ⟨2, ![1, 1600000]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  slices_S2x1600000_S1x1600000_1_0 : S2x1600000.Slices ![1, 0] S1x1600000
  bcast_S_S1x1600000 : S_.BroadcastsInDim S1x1600000 (![] : Fin 0 → Fin S1x1600000.rank)
  reducesTo_S1x1600000_S_d0_1 : S1x1600000.ReducesTo [0, 1] S_

variable [Facts]

def fn {F : FTy → Type} [FloatOps F] (main_arg0 : FVec F S50000x32 .f32) (main_arg1 : IVec S2x1600000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : IVec S1x1600000 32 := (extractStridedSlice S1x1600000 ![1, 0] · slices_S2x1600000_S1x1600000_1_0) main_arg1
  let main_c_0 : IVec S_ 32 := constantI S_ 32 0#32
  let main_v5 : IVec S1x1600000 32 := broadcastInDim S1x1600000 ![] bcast_S_S1x1600000 main_c_0
  let main_v6 : IVec S1x1600000 1 := cmpi .sge main_v4 main_v5
  let main_v7 : IVec S1x1600000 32 := (extractStridedSlice S1x1600000 ![1, 0] · slices_S2x1600000_S1x1600000_1_0) main_arg1
  let main_c_1 : IVec S_ 32 := constantI S_ 32 50000#32
  let main_v8 : IVec S1x1600000 32 := broadcastInDim S1x1600000 ![] bcast_S_S1x1600000 main_c_1
  let main_v9 : IVec S1x1600000 1 := cmpi .slt main_v7 main_v8
  let main_v10 : IVec S1x1600000 1 := andi main_v6 main_v9
  let main_c_2 : IVec S_ 1 := constantI S_ 1 1#1
  let main_v11 : IVec S_ 1 := (fun x v => Host.reduce IntOp.andi x v reducesTo_S1x1600000_S_d0_1 h_S_) main_v10 main_c_2
  let main_v12 : IVec S_ 1 := andi main_v3 main_v11
  main_v12
-- ==== Kernel.lean ====
abbrev S50000x32 : Shape := ⟨2, ![50000, 32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S2x1x800000 : Shape := ⟨3, ![2, 1, 800000]⟩
abbrev S2x800000x1 : Shape := ⟨3, ![2, 800000, 1]⟩
abbrev S2x50000x32 : Shape := ⟨3, ![2, 50000, 32]⟩
abbrev S1x1x256 : Shape := ⟨3, ![1, 1, 256]⟩
abbrev S1x256x1 : Shape := ⟨3, ![1, 256, 1]⟩
abbrev S1x50000x32 : Shape := ⟨3, ![1, 50000, 32]⟩
abbrev S256x32 : Shape := ⟨2, ![256, 32]⟩
abbrev S256x1 : Shape := ⟨2, ![256, 1]⟩
abbrev S1x256 : Shape := ⟨2, ![1, 256]⟩
abbrev S256x2000 : Shape := ⟨2, ![256, 2000]⟩
abbrev S2000x32 : Shape := ⟨2, ![2000, 32]⟩
abbrev S2000x256 : Shape := ⟨2, ![2000, 256]⟩
abbrev S1x2000x32 : Shape := ⟨3, ![1, 2000, 32]⟩

abbrev nBuf : Space → Nat
  | .hbm => 51
  | .vmem => 14
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S50000, .f32⟩
  | .hbm, ⟨10, _⟩ => ⟨S1600000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S50000x1, .f32⟩
  | .hbm, ⟨16, _⟩ => ⟨S2x1x800000, .i32⟩
  | .hbm, ⟨17, _⟩ => ⟨S2x800000x1, .i32⟩
  | .hbm, ⟨18, _⟩ => ⟨S50000x32, .bf16⟩
  | .hbm, ⟨19, _⟩ => ⟨S2x50000x32, .f32⟩
  | .hbm, ⟨20, _⟩ => ⟨S1x50000x32, .f32⟩
  | .hbm, ⟨21, _⟩ => ⟨S50000x32, .f32⟩
  | .hbm, ⟨22, _⟩ => ⟨S1x50000x32, .f32⟩
  | .hbm, ⟨23, _⟩ => ⟨S50000x32, .f32⟩
  | .hbm, ⟨24, _⟩ => ⟨S50000x32, .f32⟩
  | .hbm, ⟨25, _⟩ => ⟨S50000x32, .f32⟩
  | .hbm, ⟨26, _⟩ => ⟨S50000x32, .f32⟩
  | .hbm, ⟨27, _⟩ => ⟨S50000x32, .f32⟩
  | .hbm, ⟨28, _⟩ => ⟨S50000x32, .f32⟩
  | .hbm, ⟨29, _⟩ => ⟨S50000x32, .bf16⟩
  | .hbm, ⟨30, _⟩ => ⟨S2x50000x32, .f32⟩
  | .hbm, ⟨31, _⟩ => ⟨S1x50000x32, .f32⟩
  | .hbm, ⟨32, _⟩ => ⟨S50000x32, .f32⟩
  | .hbm, ⟨33, _⟩ => ⟨S1x50000x32, .f32⟩
  | .hbm, ⟨34, _⟩ => ⟨S50000x32, .f32⟩
  | .hbm, ⟨35, _⟩ => ⟨S50000x32, .f32⟩
  | .hbm, ⟨36, _⟩ => ⟨S50000x32, .f32⟩
  | .hbm, ⟨37, _⟩ => ⟨S50000x32, .f32⟩
  | .hbm, ⟨38, _⟩ => ⟨S_, .f32⟩
  | .hbm, ⟨39, _⟩ => ⟨S50000x32, .f32⟩
  | .hbm, ⟨40, _⟩ => ⟨S50000x32, .f32⟩
  | .hbm, ⟨41, _⟩ => ⟨S50000x32, .f32⟩
  | .hbm, ⟨42, _⟩ => ⟨S_, .f32⟩
  | .hbm, ⟨43, _⟩ => ⟨S50000x32, .f32⟩
  | .hbm, ⟨44, _⟩ => ⟨S50000x32, .f32⟩
  | .hbm, ⟨45, _⟩ => ⟨S50000x32, .f32⟩
  | .hbm, ⟨46, _⟩ => ⟨S50000x32, .f32⟩
  | .hbm, ⟨47, _⟩ => ⟨S_, .f32⟩
  | .hbm, ⟨48, _⟩ => ⟨S50000x32, .f32⟩
  | .hbm, ⟨49, _⟩ => ⟨S50000x32, .i1⟩
  | .hbm, ⟨50, _⟩ => ⟨S50000x32, .f32⟩
  | .local _ .vmem, ⟨0, _⟩ => ⟨S1x1x256, .i32⟩
  | .local _ .vmem, ⟨1, _⟩ => ⟨S1x1x256, .i32⟩
  | .local _ .vmem, ⟨2, _⟩ => ⟨S1x256x1, .i32⟩
  | .local _ .vmem, ⟨3, _⟩ => ⟨S1x256x1, .i32⟩
  | .local _ .vmem, ⟨4, _⟩ => ⟨S50000x32, .bf16⟩
  | .local _ .vmem, ⟨5, _⟩ => ⟨S1x50000x32, .f32⟩
  | .local _ .vmem, ⟨6, _⟩ => ⟨S256x32, .f32⟩
  | .local _ .vmem, ⟨7, _⟩ => ⟨S1x1x256, .i32⟩
  | .local _ .vmem, ⟨8, _⟩ => ⟨S1x1x256, .i32⟩
  | .local _ .vmem, ⟨9, _⟩ => ⟨S1x256x1, .i32⟩
  | .local _ .vmem, ⟨10, _⟩ => ⟨S1x256x1, .i32⟩
  | .local _ .vmem, ⟨11, _⟩ => ⟨S50000x32, .bf16⟩
  | .local _ .vmem, ⟨12, _⟩ => ⟨S1x50000x32, .f32⟩
  | .local _ .vmem, ⟨13, _⟩ => ⟨S256x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_v39 : Ref sig .tc := ⟨.hbm, 49, rfl⟩
abbrev main_v40 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨2, ![2, 3125], ![false, false]⟩

@[reducible] def k0_t1_loop : Scf.Loop 32 :=
  let c0_i32_8 : BitVec 32 := 0#32
  let c25_i32 : BitVec 32 := 25#32
  let v11 : BitVec 32 := Scalar.addi c0_i32_8 c25_i32
  let c1_i32 : BitVec 32 := 1#32
  ⟨c0_i32_8, v11, c1_i32⟩
def k0_mult1 (k0_t1 : Fin k0_t1_loop.trips) : BitVec 32 :=
  let c0_i32_17 : BitVec 32 := 0#32
  let c0_i32_8 : BitVec 32 := 0#32
  let c1_i32 : BitVec 32 := 1#32
  let arg7 : BitVec 32 := Scf.iv c0_i32_8 c1_i32 k0_t1
  let c1_i32_16 : BitVec 32 := 1#32
  let v15 : BitVec 32 := Scalar.muli arg7 c1_i32_16
  let v16 : BitVec 32 := Scalar.addi c0_i32_17 v15
  let c2000_i32 : BitVec 32 := 2000#32
  let v17 : BitVec 32 := Scalar.muli v16 c2000_i32
  v17
def k0_off1 (k0_t1 : Fin k0_t1_loop.trips) : Fin 2 → Nat :=
  let c0_i32_17 : BitVec 32 := 0#32
  let c0_i32_8 : BitVec 32 := 0#32
  let c1_i32 : BitVec 32 := 1#32
  let arg7 : BitVec 32 := Scf.iv c0_i32_8 c1_i32 k0_t1
  let c1_i32_16 : BitVec 32 := 1#32
  let v15 : BitVec 32 := Scalar.muli arg7 c1_i32_16
  let v16 : BitVec 32 := Scalar.addi c0_i32_17 v15
  let c2000_i32 : BitVec 32 := 2000#32
  let v17 : BitVec 32 := Scalar.muli v16 c2000_i32
  let v18 : BitVec 32 := v17
  let v27 : Index := Scalar.indexCast v18
  let c0_18 : Index := 0#32
  ![v27.toNat, 0]
@[reducible] def k0_t2_loop : Scf.Loop 32 :=
  let c0_i32_12 : BitVec 32 := 0#32
  let c25_i32_13 : BitVec 32 := 25#32
  let v14 : BitVec 32 := Scalar.addi c0_i32_12 c25_i32_13
  let c1_i32_14 : BitVec 32 := 1#32
  ⟨c0_i32_12, v14, c1_i32_14⟩
def k0_mult2 (k0_t2 : Fin k0_t2_loop.trips) : BitVec 32 :=
  let c0_i32_17 : BitVec 32 := 0#32
  let c0_i32_12 : BitVec 32 := 0#32
  let c1_i32_14 : BitVec 32 := 1#32
  let arg7 : BitVec 32 := Scf.iv c0_i32_12 c1_i32_14 k0_t2
  let c1_i32_16 : BitVec 32 := 1#32
  let v15 : BitVec 32 := Scalar.muli arg7 c1_i32_16
  let v16 : BitVec 32 := Scalar.addi c0_i32_17 v15
  let c2000_i32 : BitVec 32 := 2000#32
  let v17 : BitVec 32 := Scalar.muli v16 c2000_i32
  v17
def k0_off2 (k0_t2 : Fin k0_t2_loop.trips) : Fin 3 → Nat :=
  let c0_19 : Index := 0#32
  let c0_i32_17 : BitVec 32 := 0#32
  let c0_i32_12 : BitVec 32 := 0#32
  let c1_i32_14 : BitVec 32 := 1#32
  let arg7 : BitVec 32 := Scf.iv c0_i32_12 c1_i32_14 k0_t2
  let c1_i32_16 : BitVec 32 := 1#32
  let v15 : BitVec 32 := Scalar.muli arg7 c1_i32_16
  let v16 : BitVec 32 := Scalar.addi c0_i32_17 v15
  let c2000_i32 : BitVec 32 := 2000#32
  let v17 : BitVec 32 := Scalar.muli v16 c2000_i32
  let v18 : BitVec 32 := v17
  let v28 : Index := Scalar.indexCast v18
  let c0_20 : Index := 0#32
  ![0, v28.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S50000x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x50000x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev grid1 : Pipeline.Grid := ⟨2, ![2, 3125], ![false, false]⟩

@[reducible] def k1_t1_loop : Scf.Loop 32 :=
  let c0_i32_8 : BitVec 32 := 0#32
  let c25_i32 : BitVec 32 := 25#32
  let v11 : BitVec 32 := Scalar.addi c0_i32_8 c25_i32
  let c1_i32 : BitVec 32 := 1#32
  ⟨c0_i32_8, v11, c1_i32⟩
def k1_mult1 (k1_t1 : Fin k1_t1_loop.trips) : BitVec 32 :=
  let c0_i32_17 : BitVec 32 := 0#32
  let c0_i32_8 : BitVec 32 := 0#32
  let c1_i32 : BitVec 32 := 1#32
  let arg7 : BitVec 32 := Scf.iv c0_i32_8 c1_i32 k1_t1
  let c1_i32_16 : BitVec 32 := 1#32
  let v15 : BitVec 32 := Scalar.muli arg7 c1_i32_16
  let v16 : BitVec 32 := Scalar.addi c0_i32_17 v15
  let c2000_i32 : BitVec 32 := 2000#32
  let v17 : BitVec 32 := Scalar.muli v16 c2000_i32
  v17
def k1_off1 (k1_t1 : Fin k1_t1_loop.trips) : Fin 2 → Nat :=
  let c0_i32_17 : BitVec 32 := 0#32
  let c0_i32_8 : BitVec 32 := 0#32
  let c1_i32 : BitVec 32 := 1#32
  let arg7 : BitVec 32 := Scf.iv c0_i32_8 c1_i32 k1_t1
  let c1_i32_16 : BitVec 32 := 1#32
  let v15 : BitVec 32 := Scalar.muli arg7 c1_i32_16
  let v16 : BitVec 32 := Scalar.addi c0_i32_17 v15
  let c2000_i32 : BitVec 32 := 2000#32
  let v17 : BitVec 32 := Scalar.muli v16 c2000_i32
  let v18 : BitVec 32 := v17
  let v27 : Index := Scalar.indexCast v18
  let c0_18 : Index := 0#32
  ![v27.toNat, 0]
@[reducible] def k1_t2_loop : Scf.Loop 32 :=
  let c0_i32_12 : BitVec 32 := 0#32
  let c25_i32_13 : BitVec 32 := 25#32
  let v14 : BitVec 32 := Scalar.addi c0_i32_12 c25_i32_13
  let c1_i32_14 : BitVec 32 := 1#32
  ⟨c0_i32_12, v14, c1_i32_14⟩
def k1_mult2 (k1_t2 : Fin k1_t2_loop.trips) : BitVec 32 :=
  let c0_i32_17 : BitVec 32 := 0#32
  let c0_i32_12 : BitVec 32 := 0#32
  let c1_i32_14 : BitVec 32 := 1#32
  let arg7 : BitVec 32 := Scf.iv c0_i32_12 c1_i32_14 k1_t2
  let c1_i32_16 : BitVec 32 := 1#32
  let v15 : BitVec 32 := Scalar.muli arg7 c1_i32_16
  let v16 : BitVec 32 := Scalar.addi c0_i32_17 v15
  let c2000_i32 : BitVec 32 := 2000#32
  let v17 : BitVec 32 := Scalar.muli v16 c2000_i32
  v17
def k1_off2 (k1_t2 : Fin k1_t2_loop.trips) : Fin 3 → Nat :=
  let c0_19 : Index := 0#32
  let c0_i32_17 : BitVec 32 := 0#32
  let c0_i32_12 : BitVec 32 := 0#32
  let c1_i32_14 : BitVec 32 := 1#32
  let arg7 : BitVec 32 := Scf.iv c0_i32_12 c1_i32_14 k1_t2
  let c1_i32_16 : BitVec 32 := 1#32
  let v15 : BitVec 32 := Scalar.muli arg7 c1_i32_16
  let v16 : BitVec 32 := Scalar.addi c0_i32_17 v15
  let c2000_i32 : BitVec 32 := 2000#32
  let v17 : BitVec 32 := Scalar.muli v16 c2000_i32
  let v18 : BitVec 32 := v17
  let v28 : Index := Scalar.indexCast v18
  let c0_20 : Index := 0#32
  ![0, v28.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S50000x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x50000x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  shapeCasts_S1600000_S2x1x800000 : S1600000.ShapeCasts S2x1x800000
  shapeCasts_S1600000_S2x800000x1 : S1600000.ShapeCasts S2x800000x1
  bitsLt_bf16_f32 : FTy.bits .bf16 < FTy.bits .f32
  inb_S1x50000x32_S1x50000x32_0_0_0 : ∀ a, (![0, 0, 0] : Fin 3 → Nat) a + S1x50000x32.size a ≤ S1x50000x32.size a
  h_S1x50000x32 : 0 < S1x50000x32.numel
  shapeCasts_S1x50000x32_S50000x32 : S1x50000x32.ShapeCasts S50000x32
  shapeCasts_S50000x32_S1x50000x32 : S50000x32.ShapeCasts S1x50000x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  iota_S256x2000_d1_w32 : S256x2000.Iotas .tc 32 [1]
  broadcasts_S256x1_S256x2000 : S256x1.Broadcasts S256x2000
  natLt_1_32 : 1 < 32
  h_S2000x32 : 0 < S2000x32.numel
  shapeCasts_S2000x32_S2000x32 : S2000x32.ShapeCasts S2000x32
  iota_S2000x256_d0_w32 : S2000x256.Iotas .tc 32 [0]
  broadcasts_S1x256_S2000x256 : S1x256.Broadcasts S2000x256
  h_S1x2000x32 : 0 < S1x2000x32.numel
  shapeCasts_S1x2000x32_S2000x32 : S1x2000x32.ShapeCasts S2000x32
  shapeCasts_S2000x32_S1x2000x32 : S2000x32.ShapeCasts S1x2000x32
  slices_S2x50000x32_S1x50000x32_0_0_0 : S2x50000x32.Slices ![0, 0, 0] S1x50000x32
  slices_S2x50000x32_S1x50000x32_1_0_0 : S2x50000x32.Slices ![1, 0, 0] S1x50000x32
  bcast_S50000x1_S50000x32_0_1 : S50000x1.BroadcastsInDim S50000x32 (![0, 1] : Fin 2 → Fin S50000x32.rank)
  bcast_S_S50000x32 : S_.BroadcastsInDim S50000x32 (![] : Fin 0 → Fin S50000x32.rank)
  scatter_S50000_S1600000x1_S1600000_n_0_0_1_wf : ScatterDims.WF S50000 S1600000x1 S1600000 [] [0] [0] 1
  dot_S256x2000_S2000x32_S256x32_1_0_0_1_n_n_wf : DotDims.WF S256x2000 S2000x32 S256x32 [1] [0] [0] [1] [] []
  dot_S2000x256_S256x32_S2000x32_1_0_0_1_n_n_wf : DotDims.WF S2000x256 S256x32 S2000x32 [1] [0] [0] [1] [] []
  hrank0 : 0 < grid0.rank
  k0_t1_ok : k0_t1_loop.OK
  k0_mult1_dvd : ∀ k0_t1 : Fin k0_t1_loop.trips, 2000 ∣ (k0_mult1 k0_t1).toNat
  k0_off1_inb : ∀ k0_t1 : Fin k0_t1_loop.trips, ∀ a, (k0_off1 k0_t1) a + S2000x32.size a ≤ S50000x32.size a
  k0_t2_ok : k0_t2_loop.OK
  k0_mult2_dvd : ∀ k0_t2 : Fin k0_t2_loop.trips, 2000 ∣ (k0_mult2 k0_t2).toNat
  k0_off2_inb : ∀ k0_t2 : Fin k0_t2_loop.trips, ∀ a, (k0_off2 k0_t2) a + S1x2000x32.size a ≤ S1x50000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256.size a ≤ S2x1x800000.size a
  hwx0_0 : ∀ i : grid0.Coords, EltTy.bits .i32 = 32 ∨ (Rect.block (s := S2x1x800000) S1x1x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S2x800000x1.size a
  hwx0_1 : ∀ i : grid0.Coords, EltTy.bits .i32 = 32 ∨ (Rect.block (s := S2x800000x1) S1x256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50000x32.size a ≤ S50000x32.size a
  hwx0_2 : ∀ i : grid0.Coords, EltTy.bits .bf16 = 32 ∨ (Rect.block (s := S50000x32) S50000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x50000x32.size a ≤ S2x50000x32.size a
  hwx0_3 : ∀ i : grid0.Coords, EltTy.bits .f32 = 32 ∨ (Rect.block (s := S2x50000x32) S1x50000x32.size (cc0_transform_3 i) (hinb0_3 i)).WholeWords (EltTy.packing .f32)
  hrank1 : 0 < grid1.rank
  k1_t1_ok : k1_t1_loop.OK
  k1_mult1_dvd : ∀ k1_t1 : Fin k1_t1_loop.trips, 2000 ∣ (k1_mult1 k1_t1).toNat
  k1_off1_inb : ∀ k1_t1 : Fin k1_t1_loop.trips, ∀ a, (k1_off1 k1_t1) a + S2000x32.size a ≤ S50000x32.size a
  k1_t2_ok : k1_t2_loop.OK
  k1_mult2_dvd : ∀ k1_t2 : Fin k1_t2_loop.trips, 2000 ∣ (k1_mult2 k1_t2).toNat
  k1_off2_inb : ∀ k1_t2 : Fin k1_t2_loop.trips, ∀ a, (k1_off2 k1_t2) a + S1x2000x32.size a ≤ S1x50000x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x256.size a ≤ S2x1x800000.size a
  hwx1_0 : ∀ i : grid1.Coords, EltTy.bits .i32 = 32 ∨ (Rect.block (s := S2x1x800000) S1x1x256.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S2x800000x1.size a
  hwx1_1 : ∀ i : grid1.Coords, EltTy.bits .i32 = 32 ∨ (Rect.block (s := S2x800000x1) S1x256x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50000x32.size a ≤ S50000x32.size a
  hwx1_2 : ∀ i : grid1.Coords, EltTy.bits .bf16 = 32 ∨ (Rect.block (s := S50000x32) S50000x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x50000x32.size a ≤ S2x50000x32.size a
  hwx1_3 : ∀ i : grid1.Coords, EltTy.bits .f32 = 32 ∨ (Rect.block (s := S2x50000x32) S1x50000x32.size (cc1_transform_3 i) (hinb1_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S256x2000_S2000x32_S256x32_1_0_0_1_n_n : DotDims S256x2000 S2000x32 S256x32 where
  lhsContracting := [1]
  rhsContracting := [0]
  lhsNonContracting := [0]
  rhsNonContracting := [1]
  lhsBatch := []
  rhsBatch := []
  wf := dot_S256x2000_S2000x32_S256x32_1_0_0_1_n_n_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf

abbrev win0_0 : Pipeline.Window sig grid0 :=
  Pipeline.Window.ofSpec (Memref.whole main_v11) S1x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S50000x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x50000x32.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1x1x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S50000x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x50000x32.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x32 : Shape := ⟨2, ![50000, 32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x32 : Shape := ⟨2, ![1600000, 32]⟩

abbrev nBuf : Space → Nat
  | .hbm => 61
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S50000, .f32⟩
  | .hbm, ⟨10, _⟩ => ⟨S1600000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S50000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x32, .f32⟩
  | .hbm, ⟨25, _⟩ => ⟨S_, .f32⟩
  | .hbm, ⟨26, _⟩ => ⟨S50000x32, .f32⟩
  | .hbm, ⟨27, _⟩ => ⟨S1600000x1, .i32⟩
  | .hbm, ⟨28, _⟩ => ⟨S50000x32, .f32⟩
  | .hbm, ⟨29, _⟩ => ⟨S50000x32, .f32⟩
  | .hbm, ⟨30, _⟩ => ⟨S50000x32, .f32⟩
  | .hbm, ⟨31, _⟩ => ⟨S50000x32, .f32⟩
  | .hbm, ⟨32, _⟩ => ⟨S50000x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x32, .f32⟩
  | .hbm, ⟨42, _⟩ => ⟨S_, .f32⟩
  | .hbm, ⟨43, _⟩ => ⟨S50000x32, .f32⟩
  | .hbm, ⟨44, _⟩ => ⟨S1600000x1, .i32⟩
  | .hbm, ⟨45, _⟩ => ⟨S50000x32, .f32⟩
  | .hbm, ⟨46, _⟩ => ⟨S50000x32, .f32⟩
  | .hbm, ⟨47, _⟩ => ⟨S50000x32, .f32⟩
  | .hbm, ⟨48, _⟩ => ⟨S_, .f32⟩
  | .hbm, ⟨49, _⟩ => ⟨S50000x32, .f32⟩
  | .hbm, ⟨50, _⟩ => ⟨S50000x32, .f32⟩
  | .hbm, ⟨51, _⟩ => ⟨S50000x32, .f32⟩
  | .hbm, ⟨52, _⟩ => ⟨S_, .f32⟩
  | .hbm, ⟨53, _⟩ => ⟨S50000x32, .f32⟩
  | .hbm, ⟨54, _⟩ => ⟨S50000x32, .f32⟩
  | .hbm, ⟨55, _⟩ => ⟨S50000x32, .f32⟩
  | .hbm, ⟨56, _⟩ => ⟨S50000x32, .f32⟩
  | .hbm, ⟨57, _⟩ => ⟨S_, .f32⟩
  | .hbm, ⟨58, _⟩ => ⟨S50000x32, .f32⟩
  | .hbm, ⟨59, _⟩ => ⟨S50000x32, .i1⟩
  | .hbm, ⟨60, _⟩ => ⟨S50000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call0_v0 : Ref sig .tc := ⟨.hbm, 56, rfl⟩
abbrev main_call0_cst : Ref sig .tc := ⟨.hbm, 57, rfl⟩
abbrev main_call0_v1 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  scatter_S50000_S1600000x1_S1600000_n_0_0_1_wf : ScatterDims.WF S50000 S1600000x1 S1600000 [] [0] [0] 1
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

class Facts : Prop extends Facts₀ where

variable [Facts]
-- ==== Proof.Step0.lean ====
/-
  What one grid point of the first segment-sum launch leaves in its output block, as a pure function of the
  point's input blocks and of the block's previous contents.

  The body first clears a 256 x 32 accumulator, then walks the 50000 source rows in 25 chunks of 2000: chunk k
  adds, to the accumulator, the product of the one-hot matrix "edge p's source word is node 2000k + j" with the
  chunk of the source table. Then it walks the output rows in the same 25 chunks: chunk k of the output block
  becomes itself plus the product of the one-hot matrix "edge p's target word is node 2000k + j" with the
  accumulator. At the first point of each half the output block is zeroed first.

  Every store of the first walk covers the whole accumulator, so after n chunks the accumulator holds the n-fold
  nest of the chunk update (`gath`). The stores of the second walk are pairwise disjoint row bands, so band k of
  the block ends at the band update of what the band held before (`out_B_apply`, `out_A_apply`).
-/
import proofs.«407926_j28819230556490_3_alg».proof.Proof.Gen.KernelIdeal.Frame
import Idealize.ShloMosaic.Lib.Pipeline.Value
import Idealize.ShloMosaic.Lib.Tactic

set_option maxRecDepth 16384

noncomputable section

namespace Cert.KernelIdeal.Step0

open Cert.KernelIdeal Cert.KernelIdeal.Gen
open Idealize.ShloMosaic Idealize.ShloMosaic.TcCoe Idealize.ShloMosaic.Tactic Idealize.SL.Sem

variable {F : FTy → Type} [FloatOps F]

theorem trips1 : k0_t1_loop.trips = 25 := by decide
theorem trips2 : k0_t2_loop.trips = 25 := by decide

theorem hz2 : (![0, 0] : Fin 2 → Nat) = fun _ => 0 := funext fun a => by fin_cases a <;> rfl
theorem hz3 : (![0, 0, 0] : Fin 3 → Nat) = fun _ => 0 := funext fun a => by fin_cases a <;> rfl

/-- Chunk `k` of the source table: rows 2000k .. 2000k + 1999. -/
abbrev srcRect (k : Fin k0_t1_loop.trips) : Rect S50000x32 := Rect.unit (k0_off1 k) S2000x32.size (k0_off1_inb k)
/-- Band `k` of the output block: rows 2000k .. 2000k + 1999. -/
abbrev outRect (k : Fin k0_t2_loop.trips) : Rect S1x50000x32 := Rect.unit (k0_off2 k) S1x2000x32.size (k0_off2_inb k)

/-- The accumulator after `n` chunks of the first walk: cleared, then updated chunk by chunk. -/
def gath (x1 : Vec F S1x256x1 .i32) (x2 : Vec F S50000x32 .bf16) : ℕ → Vec F S256x32 .f32
  | 0 => k0_pay2
  | k + 1 => if h : k < k0_t1_loop.trips then k0_pay3 x1 ⟨k, h⟩ (View.ld x2 (srcRect ⟨k, h⟩)) (gath x1 x2 k) else gath x1 x2 k

/-! ## The first walk: every store covers the accumulator -/

section Walk1

variable (𝒱 : Variants) (bd : Option 𝒱.V) (c : Dev nD) (i : grid0.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole)
  (v7 : Vec F S1x256x1 .i32) (X : BufTy.Contents (Elt F) arg4.view.ty) (G : BufTy.Contents (Elt F) arg6.view.ty)

/-- One trip stores one piece: the whole accumulator, at the chunk update of what it held. -/
theorem tripL1_eq (k : Fin k0_t1_loop.trips) (f : BufTy.Contents (Elt F) arg6.view.ty) :
    tripL_k0_t1 (F := F) 𝒱 c bd i arg2 harg2 arg3 harg3 arg4 harg4 arg5 harg5 arg6 harg6 v7 X k f
      = [⟨Rect.unit ![0, 0] S256x32.size inb_S256x32_S256x32_0_0,
          k0_pay3 v7 k (View.readAt (Elt F) arg4.view (srcRect k).toLoadRect X)
            (View.readAt (Elt F) arg6.view (Rect.unit ![0, 0] S256x32.size inb_S256x32_S256x32_0_0).toLoadRect f)⟩] := by
  unfold tripL_k0_t1 trip_k0_t1
  rfl

/-- What the accumulator reads after `n` trips, from contents `G`. -/
def acc1 : ℕ → Vec F S256x32 .f32
  | 0 => arg6.view.read (Elt F) G
  | k + 1 => if h : k < k0_t1_loop.trips then
      k0_pay3 v7 ⟨k, h⟩ (View.ld (arg4.view.read (Elt F) X) (srcRect ⟨k, h⟩)) (acc1 k) else acc1 k

theorem read_pb1 : ∀ n : ℕ, n ≤ k0_t1_loop.trips →
    arg6.view.read (Elt F) (arg6.view.writes (Elt F) G
      (pb_k0_t1 (F := F) 𝒱 c bd i arg2 harg2 arg3 harg3 arg4 harg4 arg5 harg5 arg6 harg6 v7 X G n))
      = acc1 (F := F) arg4 arg6 v7 X G n
  | 0, _ => rfl
  | k + 1, hk => by
    have hk' : k < k0_t1_loop.trips := hk
    have ih := read_pb1 k (Nat.le_of_succ_le hk)
    have hs := pb_k0_t1_succ (F := F) 𝒱 c bd i arg2 harg2 arg3 harg3 arg4 harg4 arg5 harg5 arg6 harg6 v7 X G ⟨k, hk'⟩
    dsimp only at hs
    rw [hs, tripL1_eq, List.singleton_append,
      View.read_writes_eq_canon _ _ _ (fun y => ⟨_, List.mem_cons_self, View.mem_set_unit_zero hz2 inb_S256x32_S256x32_0_0 y⟩),
      View.canon_cons_unit_zero (S := S256x32) hz2]
    rw [acc1, dif_pos hk', View.readAt_eq_ld, View.readAt_eq_ld, View.ld_unit_zero (S := S256x32) hz2, ih]

end Walk1

/-- From the cleared accumulator the walk's fold is `gath`. -/
theorem acc1_eq_gath (arg4 : Memref sig .tc .vmem S50000x32 .bf16) (arg6 : Memref sig .tc .vmem S256x32 .f32)
    (x1 : Vec F S1x256x1 .i32) (X : BufTy.Contents (Elt F) arg4.view.ty) (G : BufTy.Contents (Elt F) arg6.view.ty)
    (hG : arg6.view.read (Elt F) G = k0_pay2) (x2 : Vec F S50000x32 .bf16) (hX : arg4.view.read (Elt F) X = x2) :
    ∀ n, acc1 (F := F) arg4 arg6 x1 X G n = gath x1 x2 n
  | 0 => hG
  | k + 1 => by
    rw [acc1, gath, acc1_eq_gath arg4 arg6 x1 X G hG x2 hX k, hX]

/-! ## The second walk: the stores are disjoint row bands -/

section Walk2

variable (𝒱 : Variants) (bd : Option 𝒱.V) (c : Dev nD) (i : grid0.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole)
  (v9 : Vec F S1x1x256 .i32) (v12 : Vec F S256x32 .f32) (G : BufTy.Contents (Elt F) arg5.view.ty)

/-- One trip stores one piece: band `k`, at the band update of what the band held. -/
theorem tripL2_eq (k : Fin k0_t2_loop.trips) (f : BufTy.Contents (Elt F) arg5.view.ty) :
    tripL_k0_t2 (F := F) 𝒱 c bd i arg2 harg2 arg3 harg3 arg4 harg4 arg5 harg5 arg6 harg6 v9 v12 k f
      = [⟨outRect k, k0_pay4 v9 v12 k (View.readAt (Elt F) arg5.view (outRect k).toLoadRect f)⟩] := by
  unfold tripL_k0_t2 trip_k0_t2
  rfl

/-- Row coordinate of a band's element: 2000k + its row inside the band. -/
theorem outRect_emb_row (k : Fin k0_t2_loop.trips) (x : (outRect k).shape.Idx) :
    (((outRect k).emb x) 1).val = 2000 * k.val + (x 1).val := by
  have e : k0_off2 k 1 = 2000 * k.val := by rw [k0_off2_eq]; rfl
  rw [Rect.emb_apply]
  show k0_off2 k 1 + 1 * (x 1).val = _
  rw [e, Nat.one_mul]

/-- Membership in a band is a condition on the row coordinate alone. -/
theorem mem_outRect (k : Fin k0_t2_loop.trips) (y : S1x50000x32.Idx) :
    y ∈ (outRect k).set ↔ 2000 * k.val ≤ (y 1).val ∧ (y 1).val < 2000 * k.val + 2000 := by
  rw [Rect.mem_set_unit]
  have e := k0_off2_eq k
  constructor
  · intro h
    have h1 := h 1
    rw [e] at h1
    exact h1
  · intro h a
    rw [e]
    have h0 : (y 0).val < 1 := (y 0).isLt
    have h2 : (y 2).val < 32 := (y 2).isLt
    match a with
    | ⟨0, _⟩ => exact ⟨Nat.zero_le _, by show (y 0).val < 0 + 1; omega⟩
    | ⟨1, _⟩ => exact h
    | ⟨2, _⟩ => exact ⟨Nat.zero_le _, by show (y 2).val < 0 + 32; omega⟩

/-- After `n` trips: band `k < n` holds its update of what `G` held there, and every row from 2000n on is untouched. -/
theorem read_pb2 : ∀ n : ℕ, n ≤ k0_t2_loop.trips →
    (∀ (k : Fin k0_t2_loop.trips), k.val < n → ∀ x : (outRect k).shape.Idx,
      arg5.view.read (Elt F) (arg5.view.writes (Elt F) G
        (pb_k0_t2 (F := F) 𝒱 c bd i arg2 harg2 arg3 harg3 arg4 harg4 arg5 harg5 arg6 harg6 v9 v12 G n)) ((outRect k).emb x)
        = k0_pay4 v9 v12 k (View.ld (arg5.view.read (Elt F) G) (outRect k)) x)
    ∧ (∀ y : S1x50000x32.Idx, 2000 * n ≤ (y 1).val →
      arg5.view.read (Elt F) (arg5.view.writes (Elt F) G
        (pb_k0_t2 (F := F) 𝒱 c bd i arg2 harg2 arg3 harg3 arg4 harg4 arg5 harg5 arg6 harg6 v9 v12 G n)) y
        = arg5.view.read (Elt F) G y)
  | 0, _ => ⟨fun k hk => absurd hk (Nat.not_lt_zero _), fun y _ => rfl⟩
  | n + 1, hn => by
    have hn' : n < k0_t2_loop.trips := hn
    obtain ⟨ih1, ih2⟩ := read_pb2 n (Nat.le_of_succ_le hn)
    have hs := pb_k0_t2_succ (F := F) 𝒱 c bd i arg2 harg2 arg3 harg3 arg4 harg4 arg5 harg5 arg6 harg6 v9 v12 G ⟨n, hn'⟩
    dsimp only at hs
    -- what trip n loads from its band is what G held there: the earlier bands lie below row 2000n
    have hload : View.readAt (Elt F) arg5.view (outRect ⟨n, hn'⟩).toLoadRect (arg5.view.writes (Elt F) G
        (pb_k0_t2 (F := F) 𝒱 c bd i arg2 harg2 arg3 harg3 arg4 harg4 arg5 harg5 arg6 harg6 v9 v12 G n))
        = View.ld (arg5.view.read (Elt F) G) (outRect ⟨n, hn'⟩) := by
      funext x
      rw [View.readAt_apply]
      refine ih2 _ ?_
      have := outRect_emb_row ⟨n, hn'⟩ x
      show 2000 * n ≤ (((outRect ⟨n, hn'⟩).emb x) 1).val
      rw [this]; exact Nat.le_add_right _ _
    rw [hs, tripL2_eq, List.singleton_append, hload]
    refine ⟨fun k hk x => ?_, fun y hy => ?_⟩
    · by_cases hkn : k.val = n
      · obtain rfl : k = ⟨n, hn'⟩ := Fin.ext hkn
        exact View.read_writes_cons_emb _ _ _ _ _ x
      · have hk' : k.val < n := by omega
        rw [View.writes_cons, View.read_slice_write_of_not_mem _ _ _ _ (by
          rw [Rect.map_emb_univ, mem_outRect]
          have := outRect_emb_row k x
          have hx : (x 1).val < 2000 := (x 1).isLt
          show ¬(2000 * n ≤ (((outRect k).emb x) 1).val ∧ _)
          rw [this]; omega)]
        exact ih1 k hk' x
    · rw [View.writes_cons, View.read_slice_write_of_not_mem _ _ _ _ (by
        rw [Rect.map_emb_univ, mem_outRect]
        show ¬(2000 * n ≤ (y 1).val ∧ (y 1).val < 2000 * n + 2000)
        omega)]
      exact ih2 y (by omega)

end Walk2

/-! ## The two cases of a grid point -/

theorem readWhole1 (arg3 : Memref sig .tc .vmem S1x256x1 .i32) (harg3 : arg3.IsWhole) (x1 : Vec F S1x256x1 .i32) :
    View.readAt (Elt F) arg3.view (Rect.unit ![0, 0, 0] S1x256x1.size inb_S1x256x1_S1x256x1_0_0_0).toLoadRect (harg3.unread x1) = x1 := by
  rw [View.readAt_eq_ld, harg3.read_unread, View.ld_unit_zero (S := S1x256x1) hz3]

theorem readWhole0 (arg2 : Memref sig .tc .vmem S1x1x256 .i32) (harg2 : arg2.IsWhole) (x0 : Vec F S1x1x256 .i32) :
    View.readAt (Elt F) arg2.view (Rect.unit ![0, 0, 0] S1x1x256.size inb_S1x1x256_S1x1x256_0_0_0).toLoadRect (harg2.unread x0) = x0 := by
  rw [View.readAt_eq_ld, harg2.read_unread, View.ld_unit_zero (S := S1x1x256) hz3]

/-- The accumulator the second walk reads, in the case that keeps the block: `gath` after all chunks. -/
theorem v12_B (c : Dev nD) (i : grid0.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (x1 : Vec F S1x256x1 .i32) (x2 : Vec F S50000x32 .bf16) :
    kernelRun0_B.sl.v12 c i arg2 harg2 arg3 harg3 arg4 harg4 arg5 harg5 arg6 harg6 x1 x2 = gath x1 x2 k0_t1_loop.trips := by
  unfold kernelRun0_B.sl.v12
  sl_unfold_words
  rw [View.writes_append, View.readAt_eq_ld, View.ld_unit_zero (S := S256x32) hz2, readWhole1,
    read_pb1 _ _ _ _ _ _ _ _ _ _ _ _ _ _ _ _ _ _ (Nat.le_refl _)]
  exact acc1_eq_gath arg4 arg6 x1 _ _
    (by rw [View.read_writes_eq_canon _ _ _ (fun y => ⟨_, List.mem_singleton_self _, View.mem_set_unit_zero hz2 inb_S256x32_S256x32_0_0 y⟩),
          View.canon_unit_zero hz2]) x2 (harg4.read_unread x2) _

/-- The same in the case that zeroes the block first. -/
theorem v12_A (c : Dev nD) (i : grid0.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (x1 : Vec F S1x256x1 .i32) (x2 : Vec F S50000x32 .bf16) :
    kernelRun0_A.sl.v12 c i arg2 harg2 arg3 harg3 arg4 harg4 arg5 harg5 arg6 harg6 x1 x2 = gath x1 x2 k0_t1_loop.trips := by
  unfold kernelRun0_A.sl.v12
  sl_unfold_words
  rw [View.writes_append, View.readAt_eq_ld, View.ld_unit_zero (S := S256x32) hz2, readWhole1,
    read_pb1 _ _ _ _ _ _ _ _ _ _ _ _ _ _ _ _ _ _ (Nat.le_refl _)]
  exact acc1_eq_gath arg4 arg6 x1 _ _
    (by rw [View.read_writes_eq_canon _ _ _ (fun y => ⟨_, List.mem_singleton_self _, View.mem_set_unit_zero hz2 inb_S256x32_S256x32_0_0 y⟩),
          View.canon_unit_zero hz2]) x2 (harg4.read_unread x2) _

/-- A point that keeps the block (every point but the first of a half): band `k` ends at its update of the band's
    previous contents. -/
theorem out_B_apply (c : Dev nD) (i : grid0.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (hc0 : ¬cond0_0 i)
    (x0 : Vec F S1x1x256 .i32) (x1 : Vec F S1x256x1 .i32) (x2 : Vec F S50000x32 .bf16) (xo3 : Vec F S1x50000x32 .f32)
    (k : Fin k0_t2_loop.trips) (x : (outRect k).shape.Idx) :
    out0_B_3 c i arg2 harg2 arg3 harg3 arg4 harg4 arg5 harg5 arg6 harg6 hc0 x0 x1 x2 xo3 ((outRect k).emb x)
      = k0_pay4 x0 (gath x1 x2 k0_t1_loop.trips) k (View.ld xo3 (outRect k)) x := by
  unfold out0_B_3
  rw [View.read_writes_apply_eq VO0_3 _ arg5.view (harg5.unread xo3) _ _
    (cover0_B_3 c i arg2 harg2 arg3 harg3 arg4 harg4 arg5 harg5 arg6 harg6 hc0 x0 x1 x2 xo3 _)]
  unfold kernelRun0_B
  dsimp only
  rw [readWhole0, v12_B]
  have h := (read_pb2 (F := F) Variants.none none c i arg2 harg2 arg3 harg3 arg4 harg4 arg5 harg5 arg6 harg6 x0 (gath x1 x2 k0_t1_loop.trips) (harg5.unread xo3)
    _ (Nat.le_refl _)).1 k k.isLt x
  rw [harg5.read_unread] at h
  exact h

/-- The first point of a half: the block is zeroed, then band `k` ends at its update of zeros. -/
theorem out_A_apply (c : Dev nD) (i : grid0.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (hc0 : cond0_0 i)
    (x0 : Vec F S1x1x256 .i32) (x1 : Vec F S1x256x1 .i32) (x2 : Vec F S50000x32 .bf16)
    (k : Fin k0_t2_loop.trips) (x : (outRect k).shape.Idx) :
    out0_A_3 c i arg2 harg2 arg3 harg3 arg4 harg4 arg5 harg5 arg6 harg6 hc0 x0 x1 x2 ((outRect k).emb x)
      = k0_pay4 x0 (gath x1 x2 k0_t1_loop.trips) k (View.ld k0_pay1 (outRect k)) x := by
  unfold out0_A_3
  rw [View.read_writes_apply_eq VO0_3 _ arg5.view arg5.view.junk _ _
    (cover0_A_3 c i arg2 harg2 arg3 harg3 arg4 harg4 arg5 harg5 arg6 harg6 hc0 x0 x1 x2 _)]
  unfold kernelRun0_A
  dsimp only
  rw [readWhole0, v12_A]
  unfold kernelRun0_A.sl.H3_1
  rw [View.writes_append]
  have h := (read_pb2 (F := F) Variants.none none c i arg2 harg2 arg3 harg3 arg4 harg4 arg5 harg5 arg6 harg6 x0 (gath x1 x2 k0_t1_loop.trips)
    (arg5.view.writes (Elt F) arg5.view.junk [⟨Rect.unit ![0, 0, 0] S1x50000x32.size inb_S1x50000x32_S1x50000x32_0_0_0, k0_pay1⟩])
    _ (Nat.le_refl _)).1 k k.isLt x
  rw [View.read_writes_eq_canon _ _ _ (fun y => ⟨_, List.mem_singleton_self _, View.mem_set_unit_zero hz3 inb_S1x50000x32_S1x50000x32_0_0_0 y⟩),
    View.canon_unit_zero hz3] at h
  exact h

end Cert.KernelIdeal.Step0

end
-- ==== Proof.Algebra.lean ====
/-
  Sums against word-equality indicators, on the extended reals.

  A row lookup written as a product with a one-hot row, and a scatter written as a product with a one-hot
  column, are sums of indicator terms. On the extended reals `0 · x = 0` and `1 · x = x` for every `x`, the
  infinities included, and addition is commutative and associative, so none of the identities below needs
  a finiteness hypothesis: a left-nested chain of additions is a sum; a sum over blocks of positions is the
  sum over all positions; a sum against the indicator of one node, taken chunk by chunk over the nodes, is
  the entry at that node (zero when no node carries the word); and a sum against the indicator "this
  edge's target word is node n" is the sum over the edges whose target is n.
-/
import Mathlib.Data.EReal.Operations
import Mathlib.Algebra.BigOperators.Group.Finset.Basic
import Mathlib.Algebra.BigOperators.Fin
import Mathlib.Algebra.BigOperators.Intervals

noncomputable section

namespace Cert.NbrNorm

open Finset

/-- The indicator "the two words are equal" as an extended real: 1 or 0. -/
def hot (a b : BitVec 32) : EReal := if a = b then 1 else 0

/-- A word is the word of a small number exactly when it reads, signed, as that number. -/
theorem ofNat_eq_iff_toInt (n : ℕ) (hn : n < 2 ^ 31) (w : BitVec 32) : BitVec.ofNat 32 n = w ↔ w.toInt = (n : ℤ) := by
  constructor
  · rintro rfl
    rw [BitVec.toInt_eq_toNat_cond]
    simp only [BitVec.toNat_ofNat]
    have : n % 2 ^ 32 = n := Nat.mod_eq_of_lt (by omega)
    rw [this]
    split <;> omega
  · intro h
    apply BitVec.eq_of_toNat_eq
    rw [BitVec.toInt_eq_toNat_cond] at h
    simp only [BitVec.toNat_ofNat]
    have hw := w.isLt
    split at h <;> omega

/-- A left-nested chain of additions from `z`. -/
def chain (z : EReal) (f : ℕ → EReal) : ℕ → EReal
  | 0 => z
  | k + 1 => chain z f k + f k

/-- The chain is `z` plus the sum of the terms added. -/
theorem chain_eq_sum (z : EReal) (f : ℕ → EReal) (k : ℕ) : chain z f k = z + ∑ i ∈ range k, f i := by
  induction k with
  | zero => simp [chain]
  | succ k ih => rw [chain, ih, Finset.sum_range_succ, add_assoc]

/-- A sum over `m` blocks of `n` positions is the sum over all `m · n` positions. -/
theorem sum_blocks {M : Type} [AddCommMonoid M] (m n : ℕ) (g : Fin (m * n) → M) :
    (∑ a : Fin m, ∑ b : Fin n, g ⟨n * a.val + b.val, by
        have ha := a.isLt; have hb := b.isLt
        calc n * a.val + b.val < n * a.val + n := by omega
          _ = n * (a.val + 1) := by ring
          _ ≤ n * m := Nat.mul_le_mul_left n (by omega)
          _ = m * n := Nat.mul_comm n m⟩) = ∑ e : Fin (m * n), g e := by
  rw [← Equiv.sum_comp finProdFinEquiv g, Fintype.sum_prod_type]
  refine Finset.sum_congr rfl (fun a _ => Finset.sum_congr rfl (fun b _ => ?_))
  congr 1
  apply Fin.ext
  simp [finProdFinEquiv]
  ring

/-- The one-hot row lookup, chunk by chunk: summing, over 25 chunks of 2000 nodes, the indicator "node
    2000k + j carries the word `w`" times the node's entry gives the entry at the node `w` names, when it
    names one. -/
theorem sum_hot_chunks (w : BitVec 32) (hw : w.toNat < 50000) (X : Fin 50000 → EReal) :
    (∑ k : Fin 25, ∑ j : Fin 2000, hot (BitVec.ofNat 32 (2000 * k.val + j.val)) w
        * X ⟨2000 * k.val + j.val, by have := k.isLt; have := j.isLt; omega⟩) = X ⟨w.toNat, hw⟩ := by
  have hk0 : w.toNat / 2000 < 25 := by omega
  have hj0 : w.toNat % 2000 < 2000 := Nat.mod_lt _ (by norm_num)
  have key : ∀ (k : Fin 25) (j : Fin 2000), BitVec.ofNat 32 (2000 * k.val + j.val) = w ↔ 2000 * k.val + j.val = w.toNat := by
    intro k j
    have := k.isLt; have := j.isLt
    constructor
    · rintro rfl
      simp only [BitVec.toNat_ofNat]
      omega
    · intro h
      apply BitVec.eq_of_toNat_eq
      simp only [BitVec.toNat_ofNat]
      omega
  rw [Finset.sum_eq_single (⟨w.toNat / 2000, hk0⟩ : Fin 25)]
  · rw [Finset.sum_eq_single (⟨w.toNat % 2000, hj0⟩ : Fin 2000)]
    · have e : 2000 * (w.toNat / 2000) + w.toNat % 2000 = w.toNat := Nat.div_add_mod _ _
      unfold hot
      rw [if_pos ((key ⟨_, hk0⟩ ⟨_, hj0⟩).mpr e), one_mul]
      congr 1
      exact Fin.ext e
    · intro j _ hj
      unfold hot
      rw [if_neg, zero_mul]
      intro h
      have := (key ⟨_, hk0⟩ j).mp h
      apply hj
      apply Fin.ext
      show j.val = w.toNat % 2000
      have hjl := j.isLt
      simp only at this
      omega
    · intro h; exact absurd (Finset.mem_univ _) h
  · intro k _ hk
    apply Finset.sum_eq_zero
    intro j _
    unfold hot
    rw [if_neg, zero_mul]
    intro h
    have := (key k j).mp h
    apply hk
    apply Fin.ext
    show k.val = w.toNat / 2000
    have hjl := j.isLt
    omega
  · intro h; exact absurd (Finset.mem_univ _) h

/-- The one-hot scatter: the sum over all edges of the indicator "edge `e`'s target word is node `n`" times
    the edge's value is the sum of the values over the edges whose target word reads, signed, as `n`. -/
theorem sum_hot_filter {E : ℕ} (n : ℕ) (hn : n < 2 ^ 31) (I : Fin E → BitVec 32) (Y : Fin E → EReal) :
    (∑ e : Fin E, hot (BitVec.ofNat 32 n) (I e) * Y e)
      = ∑ e ∈ Finset.univ.filter (fun e : Fin E => (I e).toInt = (n : ℤ)), Y e := by
  rw [Finset.sum_filter]
  refine Finset.sum_congr rfl (fun e _ => ?_)
  unfold hot
  by_cases h : BitVec.ofNat 32 n = I e
  · rw [if_pos h, if_pos ((ofNat_eq_iff_toInt n hn (I e)).mp h), one_mul]
  · rw [if_neg h, if_neg (fun h' => h ((ofNat_eq_iff_toInt n hn (I e)).mpr h')), zero_mul]

end Cert.NbrNorm

end
-- ==== Proof.Pay.lean ====
/-
  The kernel body's four pure payloads, read at an index, on the extended reals.

  Two payloads fill with the zero constant. The other two add, to an accumulator, a matrix product whose left factor is
  a one-hot matrix: the comparison "position plus the trip's offset equals the stored word", converted to a float, so
  its entry is the indicator `hot`. Into a zero accumulator the matrix unit's product is the plain sum over the
  contracted axis, a format change is the identity, and a shape cast or broadcast only re-indexes; so each payload at an
  index is the accumulator there plus a sum of indicator-weighted entries. The second launch's payloads are the same
  terms as the first's.
-/
import proofs.«407926_j28819230556490_3_alg».proof.Proof.Gen.KernelIdeal.Skeleton
import proofs.«407926_j28819230556490_3_alg».proof.Proof.Algebra
import Idealize.ShloMosaic.Lib.ValueIdx
import Idealize.ShloMosaic.Lib.Pipeline.Value
import Idealize.ShloMosaic.Lib.ValueLayout
import Idealize.ShloMosaic.PureOps.Ideal.Laws
noncomputable section
namespace Cert.KernelIdeal.Pay
open Cert.KernelIdeal Cert.KernelIdeal.Gen Idealize.ShloMosaic Idealize.ShloMosaic.ValueIdx Cert.NbrNorm

/-! ## Words -/

/-- The one-bit comparison "equal", widened to 32 bits and read as a signed integer, is the indicator of equality. -/
theorem sitofp_extui_cmpi_eq (a b : BitVec 32) :
    (FloatOps.sitofp (F := Ideal) FTy.f32 ((IntOp.cmpi .eq a b).setWidth 32) : Ideal .f32) = hot a b := by
  show (((((IntOp.cmpi .eq a b).setWidth 32).toInt : ℤ) : ℝ) : EReal) = hot a b
  unfold hot IntOp.cmpi
  by_cases h : a = b
  · subst h
    rw [if_pos rfl]
    simp
  · rw [if_neg h]
    have hb : (a == b) = false := by simpa using h
    simp [hb]

/-- The word of trip `k`'s offset `2000 k` plus the word of a position `j` below 2000 is the word of `2000 k + j`. -/
theorem word_add (k j : ℕ) (hk : k < 25) (hj : j < 2000) :
    IntOp.addi (BitVec.ofNat 32 j) (Scalar.muli (Scalar.addi 0#32 (Scalar.muli (Scf.iv 0#32 1#32 k) 1#32)) 2000#32)
      = BitVec.ofNat 32 (2000 * k + j) := by
  unfold IntOp.addi Scalar.muli Scalar.addi IntOp.muli IntOp.addi Scf.iv
  apply BitVec.eq_of_toNat_eq
  simp only [BitVec.toNat_add, BitVec.toNat_mul, BitVec.toNat_ofNat, Nat.reducePow]
  omega

theorem trips1 : k0_t1_loop.trips = 25 := by decide
theorem trips2 : k0_t2_loop.trips = 25 := by decide

/-! ## The two zero fills -/

theorem pay1_apply (y : S1x50000x32.Idx) : k0_pay1 (F := Ideal) y = 0 := by
  unfold k0_pay1
  show Ideal.ofBits .f32 0x00000000#32 = 0
  exact Ideal.ofBits_zero_f32

theorem pay2_apply (y : S256x32.Idx) : k0_pay2 (F := Ideal) y = 0 := by
  unfold k0_pay2
  show Ideal.ofBits .f32 0x00000000#32 = 0
  exact Ideal.ofBits_zero_f32

/-! ## The one-hot factors -/

/-- The comparison of two word vectors, widened, converted and narrowed, reads at an index the indicator that the two
    words there are equal. -/
theorem onehot_apply {s : Shape} (a b : IVec s 32) (h1 : 1 < 32) (h2 : FTy.bits .bf16 < FTy.bits .f32) (i : s.Idx) :
    (truncf .bf16 (sitofp (F := Ideal) .f32 (extui 32 (cmpi .eq a b) h1)) h2 : FVec Ideal s .bf16) i = hot (a i) (b i) :=
  sitofp_extui_cmpi_eq (a i) (b i)

/-- The position along axis 1 of a 256 × 2000 vector. -/
theorem iota_cols (h : S256x2000.Iotas .tc 32 [1]) (p : Fin 256) (j : Fin 2000) :
    iota .tc S256x2000 32 [1] h (ix2 p j) = BitVec.ofNat 32 j.val := by
  show BitVec.ofNat 32 (0 * 2000 + j.val) = _
  rw [Nat.zero_mul, Nat.zero_add]

/-- The position along axis 0 of a 2000 × 256 vector. -/
theorem iota_rows (h : S2000x256.Iotas .tc 32 [0]) (j : Fin 2000) (p : Fin 256) :
    iota .tc S2000x256 32 [0] h (ix2 j p) = BitVec.ofNat 32 j.val := by
  show BitVec.ofNat 32 (0 * 2000 + j.val) = _
  rw [Nat.zero_mul, Nat.zero_add]

/-- A 1 × 256 × 1 vector as a column, broadcast over 2000 columns, reads its row's entry. -/
theorem col_bcast (v7 : IVec S1x256x1 32) (h1 : S1x256x1.ShapeCasts S256x1) (h2 : S256x1.Broadcasts S256x2000)
    (p : Fin 256) (j : Fin 2000) :
    broadcastTo S256x2000 (shapeCast S256x1 v7 h1) h2 (ix2 p j) = v7 (ix3 (0 : Fin 1) p (0 : Fin 1)) := by
  refine (broadcastTo_apply _ h2 (ix2 p j) (ix2 p (0 : Fin 1)) fun ax => ?_).trans ?_
  · match ax with
    | ⟨0, _⟩ => rfl
    | ⟨1, _⟩ => rfl
  · refine shapeCast_apply v7 h1 _ _ ?_
    rw [Shape.rowMajor_val_three, Shape.rowMajor_val_two]
    show (0 * 256 + p.val) * 1 + 0 = p.val * 1 + 0
    omega

/-- A 1 × 1 × 256 vector as a row, broadcast over 2000 rows, reads its column's entry. -/
theorem row_bcast (v9 : IVec S1x1x256 32) (h1 : S1x1x256.ShapeCasts S1x256) (h2 : S1x256.Broadcasts S2000x256)
    (j : Fin 2000) (p : Fin 256) :
    broadcastTo S2000x256 (shapeCast S1x256 v9 h1) h2 (ix2 j p) = v9 (ix3 (0 : Fin 1) (0 : Fin 1) p) := by
  refine (broadcastTo_apply _ h2 (ix2 j p) (ix2 (0 : Fin 1) p) fun ax => ?_).trans ?_
  · match ax with
    | ⟨0, _⟩ => rfl
    | ⟨1, _⟩ => rfl
  · refine shapeCast_apply v9 h1 _ _ ?_
    rw [Shape.rowMajor_val_three, Shape.rowMajor_val_two]
    show (0 * 1 + 0) * 256 + p.val = 0 * 256 + p.val
    omega

/-! ## The two matrix products into a zero accumulator -/

theorem lhsA_0 (j : S256x32.Idx) (k : dot_S256x2000_S2000x32_S256x32_1_0_0_1_n_n.contr.Idx) :
    (dot_S256x2000_S2000x32_S256x32_1_0_0_1_n_n.lhsIdx j k 0 : ℕ) = j 0 := by
  simp [DotDims.lhsIdx, dot_S256x2000_S2000x32_S256x32_1_0_0_1_n_n]; rfl
theorem lhsA_1 (j : S256x32.Idx) (k : dot_S256x2000_S2000x32_S256x32_1_0_0_1_n_n.contr.Idx) :
    (dot_S256x2000_S2000x32_S256x32_1_0_0_1_n_n.lhsIdx j k 1 : ℕ) = k ⟨0, by decide⟩ :=
  DotDims.lhsIdx_val_of_single _ rfl j k
theorem rhsA_0 (j : S256x32.Idx) (k : dot_S256x2000_S2000x32_S256x32_1_0_0_1_n_n.contr.Idx) :
    (dot_S256x2000_S2000x32_S256x32_1_0_0_1_n_n.rhsIdx j k 0 : ℕ) = k ⟨0, by decide⟩ :=
  DotDims.rhsIdx_val_of_single _ rfl j k
theorem rhsA_1 (j : S256x32.Idx) (k : dot_S256x2000_S2000x32_S256x32_1_0_0_1_n_n.contr.Idx) :
    (dot_S256x2000_S2000x32_S256x32_1_0_0_1_n_n.rhsIdx j k 1 : ℕ) = j 1 := by
  simp [DotDims.rhsIdx, dot_S256x2000_S2000x32_S256x32_1_0_0_1_n_n]; rfl

/-- The first product at `(p, d)`: the sum over the 2000 contracted positions. -/
theorem matmulA_apply (lhs : FVec Ideal S256x2000 .bf16) (rhs : FVec Ideal S2000x32 .bf16) (p : Fin 256) (d : Fin 32) :
    FloatOps.matmul dot_S256x2000_S2000x32_S256x32_1_0_0_1_n_n none lhs rhs (constant (F := Ideal) S256x32 .f32 0x00000000#32) (ix2 p d)
      = ∑ j : Fin 2000, lhs (ix2 p j) * rhs (ix2 j d) := by
  refine (Ideal.matmul_constant_zero_apply _ none lhs rhs (ix2 p d)).trans ?_
  rw [← Equiv.sum_comp (contrEquiv1 dot_S256x2000_S2000x32_S256x32_1_0_0_1_n_n 2000 rfl rfl).symm]
  refine Finset.sum_congr rfl fun j _ => ?_
  have hk := contrEquiv1_symm_val dot_S256x2000_S2000x32_S256x32_1_0_0_1_n_n 2000 rfl rfl j
  have hl : dot_S256x2000_S2000x32_S256x32_1_0_0_1_n_n.lhsIdx (ix2 p d)
      ((contrEquiv1 dot_S256x2000_S2000x32_S256x32_1_0_0_1_n_n 2000 rfl rfl).symm j) = ix2 p j := by
    funext a
    apply Fin.ext
    match a with
    | ⟨0, _⟩ => exact lhsA_0 _ _
    | ⟨1, _⟩ => exact (lhsA_1 _ _).trans hk
  have hr : dot_S256x2000_S2000x32_S256x32_1_0_0_1_n_n.rhsIdx (ix2 p d)
      ((contrEquiv1 dot_S256x2000_S2000x32_S256x32_1_0_0_1_n_n 2000 rfl rfl).symm j) = ix2 j d := by
    funext a
    apply Fin.ext
    match a with
    | ⟨0, _⟩ => exact (rhsA_0 _ _).trans hk
    | ⟨1, _⟩ => exact rhsA_1 _ _
  rw [hl, hr]

theorem lhsB_0 (j : S2000x32.Idx) (k : dot_S2000x256_S256x32_S2000x32_1_0_0_1_n_n.contr.Idx) :
    (dot_S2000x256_S256x32_S2000x32_1_0_0_1_n_n.lhsIdx j k 0 : ℕ) = j 0 := by
  simp [DotDims.lhsIdx, dot_S2000x256_S256x32_S2000x32_1_0_0_1_n_n]; rfl
theorem lhsB_1 (j : S2000x32.Idx) (k : dot_S2000x256_S256x32_S2000x32_1_0_0_1_n_n.contr.Idx) :
    (dot_S2000x256_S256x32_S2000x32_1_0_0_1_n_n.lhsIdx j k 1 : ℕ) = k ⟨0, by decide⟩ :=
  DotDims.lhsIdx_val_of_single _ rfl j k
theorem rhsB_0 (j : S2000x32.Idx) (k : dot_S2000x256_S256x32_S2000x32_1_0_0_1_n_n.contr.Idx) :
    (dot_S2000x256_S256x32_S2000x32_1_0_0_1_n_n.rhsIdx j k 0 : ℕ) = k ⟨0, by decide⟩ :=
  DotDims.rhsIdx_val_of_single _ rfl j k
theorem rhsB_1 (j : S2000x32.Idx) (k : dot_S2000x256_S256x32_S2000x32_1_0_0_1_n_n.contr.Idx) :
    (dot_S2000x256_S256x32_S2000x32_1_0_0_1_n_n.rhsIdx j k 1 : ℕ) = j 1 := by
  simp [DotDims.rhsIdx, dot_S2000x256_S256x32_S2000x32_1_0_0_1_n_n]; rfl

/-- The second product at `(j, d)`: the sum over the 256 contracted positions. -/
theorem matmulB_apply (lhs : FVec Ideal S2000x256 .bf16) (rhs : FVec Ideal S256x32 .bf16) (j : Fin 2000) (d : Fin 32) :
    FloatOps.matmul dot_S2000x256_S256x32_S2000x32_1_0_0_1_n_n none lhs rhs (constant (F := Ideal) S2000x32 .f32 0x00000000#32) (ix2 j d)
      = ∑ p : Fin 256, lhs (ix2 j p) * rhs (ix2 p d) := by
  refine (Ideal.matmul_constant_zero_apply _ none lhs rhs (ix2 j d)).trans ?_
  rw [← Equiv.sum_comp (contrEquiv1 dot_S2000x256_S256x32_S2000x32_1_0_0_1_n_n 256 rfl rfl).symm]
  refine Finset.sum_congr rfl fun p _ => ?_
  have hk := contrEquiv1_symm_val dot_S2000x256_S256x32_S2000x32_1_0_0_1_n_n 256 rfl rfl p
  have hl : dot_S2000x256_S256x32_S2000x32_1_0_0_1_n_n.lhsIdx (ix2 j d)
      ((contrEquiv1 dot_S2000x256_S256x32_S2000x32_1_0_0_1_n_n 256 rfl rfl).symm p) = ix2 j p := by
    funext a
    apply Fin.ext
    match a with
    | ⟨0, _⟩ => exact lhsB_0 _ _
    | ⟨1, _⟩ => exact (lhsB_1 _ _).trans hk
  have hr : dot_S2000x256_S256x32_S2000x32_1_0_0_1_n_n.rhsIdx (ix2 j d)
      ((contrEquiv1 dot_S2000x256_S256x32_S2000x32_1_0_0_1_n_n 256 rfl rfl).symm p) = ix2 p d := by
    funext a
    apply Fin.ext
    match a with
    | ⟨0, _⟩ => exact (rhsB_0 _ _).trans hk
    | ⟨1, _⟩ => exact rhsB_1 _ _
  rw [hl, hr]

/-! ## The two accumulating payloads -/

/-- The word at `(p, j)` of "position along axis 1 plus a broadcast word". -/
theorem word_cols (h : S256x2000.Iotas .tc 32 [1]) (W : BitVec 32) (p : Fin 256) (j : Fin 2000) :
    addi (iota .tc S256x2000 32 [1] h) (broadcast S256x2000 W) (ix2 p j) = IntOp.addi (BitVec.ofNat 32 j.val) W := by
  show IntOp.addi (iota .tc S256x2000 32 [1] h (ix2 p j)) W = _
  rw [iota_cols]

/-- The word at `(j, p)` of "position along axis 0 plus a broadcast word". -/
theorem word_rows (h : S2000x256.Iotas .tc 32 [0]) (W : BitVec 32) (j : Fin 2000) (p : Fin 256) :
    addi (iota .tc S2000x256 32 [0] h) (broadcast S2000x256 W) (ix2 j p) = IntOp.addi (BitVec.ofNat 32 j.val) W := by
  show IntOp.addi (iota .tc S2000x256 32 [0] h (ix2 j p)) W = _
  rw [iota_rows]

/-- Trip `k` of the first loop adds to the 256 × 32 accumulator, at `(p, d)`, the entries `(j, d)` of the loaded
    2000-row block weighted by the indicator that node `2000 k + j` carries row `p`'s word. -/
theorem pay3_apply (v7 : Vec Ideal S1x256x1 .i32) (k : Fin k0_t1_loop.trips) (v28 : Vec Ideal S2000x32 .bf16) (v30 : Vec Ideal S256x32 .f32) (p : Fin 256) (d : Fin 32) :
    k0_pay3 (F := Ideal) v7 k v28 v30 (ix2 p d) = v30 (ix2 p d) + ∑ j : Fin 2000, hot (BitVec.ofNat 32 (2000 * k.val + j.val)) (v7 (ix3 (0 : Fin 1) p (0 : Fin 1))) * v28 (ix2 j d) := by
  have hk : k.val < 25 := lt_of_lt_of_eq k.isLt trips1
  unfold k0_pay3
  simp only [shapeCast_self, matmul]
  rw [addf_apply, matmulA_apply]
  refine congrArg (v30 (ix2 p d) + ·) (Finset.sum_congr rfl fun j _ => ?_)
  rw [onehot_apply, col_bcast, word_cols, word_add k.val j.val hk j.isLt]

/-- Trip `k` of the second loop adds to rows `2000 k .. 2000 k + 1999` of the output, at `(j, d)`, the entries `(p, d)`
    of the 256 × 32 block weighted by the indicator that node `2000 k + j` carries column `p`'s word. -/
theorem pay4_apply (v9 : Vec Ideal S1x1x256 .i32) (v12 : Vec Ideal S256x32 .f32) (k : Fin k0_t2_loop.trips) (v29 : Vec Ideal S1x2000x32 .f32) (j : Fin 2000) (d : Fin 32) :
    k0_pay4 (F := Ideal) v9 v12 k v29 (ix3 (0 : Fin 1) j d) = v29 (ix3 (0 : Fin 1) j d) + ∑ p : Fin 256, hot (BitVec.ofNat 32 (2000 * k.val + j.val)) (v9 (ix3 (0 : Fin 1) (0 : Fin 1) p)) * v12 (ix2 p d) := by
  have hk : k.val < 25 := lt_of_lt_of_eq k.isLt trips2
  unfold k0_pay4
  simp only [matmul]
  rw [shapeCast_ab_1ab_apply, addf_apply, shapeCast_1ab_ab_apply, matmulB_apply]
  refine congrArg (v29 (ix3 (0 : Fin 1) j d) + ·) (Finset.sum_congr rfl fun p _ => ?_)
  rw [onehot_apply, row_bcast, word_rows, word_add k.val j.val hk j.isLt, truncf_apply]

/-! ## The second launch's payloads are the first's -/

theorem pay1_apply' (y : S1x50000x32.Idx) : k1_pay1 (F := Ideal) y = 0 := pay1_apply y
theorem pay2_apply' (y : S256x32.Idx) : k1_pay2 (F := Ideal) y = 0 := pay2_apply y
theorem pay3_apply' (v7 : Vec Ideal S1x256x1 .i32) (k : Fin k1_t1_loop.trips) (v28 : Vec Ideal S2000x32 .bf16) (v30 : Vec Ideal S256x32 .f32) (p : Fin 256) (d : Fin 32) :
    k1_pay3 (F := Ideal) v7 k v28 v30 (ix2 p d) = v30 (ix2 p d) + ∑ j : Fin 2000, hot (BitVec.ofNat 32 (2000 * k.val + j.val)) (v7 (ix3 (0 : Fin 1) p (0 : Fin 1))) * v28 (ix2 j d) :=
  pay3_apply v7 k v28 v30 p d
theorem pay4_apply' (v9 : Vec Ideal S1x1x256 .i32) (v12 : Vec Ideal S256x32 .f32) (k : Fin k1_t2_loop.trips) (v29 : Vec Ideal S1x2000x32 .f32) (j : Fin 2000) (d : Fin 32) :
    k1_pay4 (F := Ideal) v9 v12 k v29 (ix3 (0 : Fin 1) j d) = v29 (ix3 (0 : Fin 1) j d) + ∑ p : Fin 256, hot (BitVec.ofNat 32 (2000 * k.val + j.val)) (v9 (ix3 (0 : Fin 1) (0 : Fin 1) p)) * v12 (ix2 p d) :=
  pay4_apply v9 v12 k v29 j d

end Cert.KernelIdeal.Pay
-- ==== Proof.Points0.lean ====
/-
  The first segment-sum launch, point by point, and what its result array holds at the end.

  The grid is 2 halves of 3125 edge blocks. At the point (h, b) the body reads the 256 target words and the 256
  source words of block b of half h and the whole source table, and adds to row n of the half's output block the
  sum over the block's edges p of [target word of p is node n] times the source-table row the source word of p
  names; the first point of a half starts from zeros. So after point (h, b) the block holds, at (n, d), the sum
  over the blocks b' ≤ b of those terms, and the half's block is written back once, after its last point: the
  result array holds at (h, n, d) the sum over all 3125 blocks of half h.

  The gathered row is a sum over the 50000 nodes, 25 chunks of 2000, of [node is the source word] times the
  node's row: when the source word names a node that is the node's row (no finiteness is needed: 0 · x = 0 and
  1 · x = x on the extended reals).
-/
import proofs.«407926_j28819230556490_3_alg».proof.Proof.Step0
import proofs.«407926_j28819230556490_3_alg».proof.Proof.Pay
import proofs.«407926_j28819230556490_3_alg».proof.Proof.Algebra
import Idealize.ShloMosaic.Lib.Pipeline.Value
import Idealize.ShloMosaic.Lib.ValueIdx

set_option maxRecDepth 16384

noncomputable section

namespace Cert.KernelIdeal.Points0

open Cert.KernelIdeal Cert.KernelIdeal.Gen Cert.KernelIdeal.Step0 Cert.KernelIdeal.Pay Cert.NbrNorm
open Idealize.ShloMosaic Idealize.ShloMosaic.TcCoe Idealize.ShloMosaic.ValueIdx Idealize.SL.Sem
open Idealize.ShloMosaic.Pipeline (Dat)

/-- The row of the source table a source word names: the word read signed and clamped into the table. -/
def srcRow (w : BitVec 32) : Fin 50000 := ⟨min w.toInt.toNat 49999, by omega⟩

/-- A source word in range reads the same signed and unsigned, and names its own row. -/
theorem srcRow_of_inRange (w : BitVec 32) (hw : 0 ≤ w.toInt ∧ w.toInt < 50000) :
    ∃ h : w.toNat < 50000, (⟨w.toNat, h⟩ : Fin 50000) = srcRow w := by
  have e : w.toInt = (w.toNat : ℤ) := by
    have h1 := hw.1
    rw [BitVec.toInt_eq_toNat_cond] at h1 ⊢
    have := w.isLt
    split at h1 <;> rename_i hc
    · rw [if_pos hc]
    · omega
  have hlt : w.toNat < 50000 := by omega
  refine ⟨hlt, Fin.ext ?_⟩
  show w.toNat = min w.toInt.toNat 49999
  rw [e]; simp only [Int.toNat_natCast]; omega

/-! ## One point's update at an index -/

section Step

variable (x0 : Vec Ideal S1x1x256 .i32) (x1 : Vec Ideal S1x256x1 .i32) (x2 : Vec Ideal S50000x32 .bf16)

theorem srcRect_idx (k : Fin k0_t1_loop.trips) (j : Fin 2000) (d : Fin 32) (h : 2000 * k.val + j.val < 50000) :
    (srcRect k).idx (ix2 j d) = ix2 (⟨2000 * k.val + j.val, h⟩ : Fin 50000) d := by
  have e0 : k0_off1 k 0 = 2000 * k.val := by rw [k0_off1_eq]; rfl
  have e1 : k0_off1 k 1 = 0 := by rw [k0_off1_eq]; rfl
  funext a
  apply Fin.ext
  rw [LoadRect.idx_apply]
  match a with
  | ⟨0, _⟩ => show k0_off1 k 0 + 1 * j.val = 2000 * k.val + j.val; rw [e0]; omega
  | ⟨1, _⟩ => show k0_off1 k 1 + 1 * d.val = d.val; rw [e1]; omega

theorem outRect_idx (k : Fin k0_t2_loop.trips) (j : Fin 2000) (d : Fin 32) (h : 2000 * k.val + j.val < 50000) :
    (outRect k).idx (ix3 (0 : Fin 1) j d) = ix3 (0 : Fin 1) (⟨2000 * k.val + j.val, h⟩ : Fin 50000) d := by
  have e0 : k0_off2 k 0 = 0 := by rw [k0_off2_eq]; rfl
  have e1 : k0_off2 k 1 = 2000 * k.val := by rw [k0_off2_eq]; rfl
  have e2 : k0_off2 k 2 = 0 := by rw [k0_off2_eq]; rfl
  funext a
  apply Fin.ext
  rw [LoadRect.idx_apply]
  match a with
  | ⟨0, _⟩ => show k0_off2 k 0 + 1 * 0 = 0; rw [e0]
  | ⟨1, _⟩ => show k0_off2 k 1 + 1 * j.val = 2000 * k.val + j.val; rw [e1]; omega
  | ⟨2, _⟩ => show k0_off2 k 2 + 1 * d.val = d.val; rw [e2]; omega

/-- The accumulator after `n` chunks, at (p, d): the sum over the chunks' nodes of the indicator times the node's row. -/
theorem gath_apply (p : Fin 256) (d : Fin 32) : ∀ n : ℕ, n ≤ k0_t1_loop.trips →
    gath x1 x2 n (ix2 p d) = ∑ k ∈ Finset.range n, ∑ j : Fin 2000,
      hot (BitVec.ofNat 32 (2000 * k + j.val)) (x1 (ix3 (0 : Fin 1) p (0 : Fin 1)))
        * (if h : 2000 * k + j.val < 50000 then x2 (ix2 (⟨2000 * k + j.val, h⟩ : Fin 50000) d) else 0)
  | 0, _ => by rw [gath, Finset.sum_range_zero]; exact pay2_apply _
  | k + 1, hk => by
    have hk' : k < k0_t1_loop.trips := hk
    have h25 : k < 25 := by rw [← Step0.trips1]; exact hk'
    rw [gath, dif_pos hk', Finset.sum_range_succ, ← gath_apply p d k (Nat.le_of_succ_le hk)]
    refine (pay3_apply x1 ⟨k, hk'⟩ (View.ld x2 (srcRect ⟨k, hk'⟩)) (gath x1 x2 k) p d).trans ?_
    congr 1
    refine Finset.sum_congr rfl (fun j _ => ?_)
    have hj : j.val < 2000 := j.isLt
    have hb : 2000 * k + j.val < 50000 := by omega
    rw [dif_pos hb]
    congr 1
    show x2 ((srcRect ⟨k, hk'⟩).idx (ix2 j d)) = _
    rw [srcRect_idx ⟨k, hk'⟩ j d hb]

/-- After all chunks the accumulator holds, at (p, d), the row the source word of edge p names. -/
theorem gath_full (p : Fin 256) (d : Fin 32)
    (hw : 0 ≤ (x1 (ix3 (0 : Fin 1) p (0 : Fin 1))).toInt ∧ (x1 (ix3 (0 : Fin 1) p (0 : Fin 1))).toInt < 50000) :
    gath x1 x2 k0_t1_loop.trips (ix2 p d) = x2 (ix2 (srcRow (x1 (ix3 (0 : Fin 1) p (0 : Fin 1)))) d) := by
  obtain ⟨hlt, hrow⟩ := srcRow_of_inRange _ hw
  rw [gath_apply x1 x2 p d _ (Nat.le_refl _), Step0.trips1, Finset.sum_range (n := 25), ← hrow]
  rw [← sum_hot_chunks (x1 (ix3 (0 : Fin 1) p (0 : Fin 1))) hlt (fun r => x2 (ix2 r d))]
  refine Finset.sum_congr rfl (fun k _ => Finset.sum_congr rfl (fun j _ => ?_))
  have hk : k.val < 25 := k.isLt
  have hj : j.val < 2000 := j.isLt
  rw [dif_pos (by omega)]

/-- A row index as (band, row inside the band). -/
theorem row_split (n : Fin 50000) : ∃ (k : Fin k0_t2_loop.trips) (j : Fin 2000) (h : 2000 * k.val + j.val < 50000),
    (⟨2000 * k.val + j.val, h⟩ : Fin 50000) = n := by
  have hn := n.isLt
  refine ⟨⟨n.val / 2000, by rw [Step0.trips2]; omega⟩, ⟨n.val % 2000, Nat.mod_lt _ (by norm_num)⟩, ?_, ?_⟩
  · show 2000 * (n.val / 2000) + n.val % 2000 < 50000
    rw [Nat.div_add_mod]; exact hn
  · apply Fin.ext
    show 2000 * (n.val / 2000) + n.val % 2000 = n.val
    exact Nat.div_add_mod _ _

variable (hJ : ∀ p : Fin 256, 0 ≤ (x1 (ix3 (0 : Fin 1) p (0 : Fin 1))).toInt ∧ (x1 (ix3 (0 : Fin 1) p (0 : Fin 1))).toInt < 50000)
include hJ

/-- One band update at an index: what the band held plus the block's contribution to row 2000k + j. -/
theorem band_apply (xo : Vec Ideal S1x50000x32 .f32) (k : Fin k0_t2_loop.trips) (j : Fin 2000) (d : Fin 32)
    (h : 2000 * k.val + j.val < 50000) :
    k0_pay4 x0 (gath x1 x2 k0_t1_loop.trips) k (View.ld xo (outRect k)) (ix3 (0 : Fin 1) j d)
      = xo (ix3 (0 : Fin 1) (⟨2000 * k.val + j.val, h⟩ : Fin 50000) d)
        + ∑ p : Fin 256, hot (BitVec.ofNat 32 (2000 * k.val + j.val)) (x0 (ix3 (0 : Fin 1) (0 : Fin 1) p))
            * x2 (ix2 (srcRow (x1 (ix3 (0 : Fin 1) p (0 : Fin 1)))) d) := by
  refine (pay4_apply x0 (gath x1 x2 k0_t1_loop.trips) k (View.ld xo (outRect k)) j d).trans ?_
  congr 1
  · show xo ((outRect k).idx (ix3 (0 : Fin 1) j d)) = _
    rw [outRect_idx k j d h]
  · refine Finset.sum_congr rfl (fun p _ => ?_)
    rw [gath_full x1 x2 p d (hJ p)]

/-- A point that keeps the block, at (n, d). -/
theorem outB_at (c : Dev nD) (i : grid0.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (hc0 : ¬cond0_0 i) (xo : Vec Ideal S1x50000x32 .f32) (n : Fin 50000) (d : Fin 32) :
    out0_B_3 (F := Ideal) c i arg2 harg2 arg3 harg3 arg4 harg4 arg5 harg5 arg6 harg6 hc0 x0 x1 x2 xo (ix3 (0 : Fin 1) n d)
      = xo (ix3 (0 : Fin 1) n d)
        + ∑ p : Fin 256, hot (BitVec.ofNat 32 n.val) (x0 (ix3 (0 : Fin 1) (0 : Fin 1) p))
            * x2 (ix2 (srcRow (x1 (ix3 (0 : Fin 1) p (0 : Fin 1)))) d) := by
  obtain ⟨k, j, h, rfl⟩ := row_split n
  have e : ix3 (0 : Fin 1) (⟨2000 * k.val + j.val, h⟩ : Fin 50000) d = (outRect k).emb (ix3 (0 : Fin 1) j d) :=
    (outRect_idx k j d h).symm
  rw [e, out_B_apply, ← e]
  exact band_apply x0 x1 x2 hJ xo k j d h

/-- The first point of a half, at (n, d): the same from zeros. -/
theorem outA_at (c : Dev nD) (i : grid0.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (hc0 : cond0_0 i) (n : Fin 50000) (d : Fin 32) :
    out0_A_3 (F := Ideal) c i arg2 harg2 arg3 harg3 arg4 harg4 arg5 harg5 arg6 harg6 hc0 x0 x1 x2 (ix3 (0 : Fin 1) n d)
      = ∑ p : Fin 256, hot (BitVec.ofNat 32 n.val) (x0 (ix3 (0 : Fin 1) (0 : Fin 1) p))
            * x2 (ix2 (srcRow (x1 (ix3 (0 : Fin 1) p (0 : Fin 1)))) d) := by
  obtain ⟨k, j, h, rfl⟩ := row_split n
  have e : ix3 (0 : Fin 1) (⟨2000 * k.val + j.val, h⟩ : Fin 50000) d = (outRect k).emb (ix3 (0 : Fin 1) j d) :=
    (outRect_idx k j d h).symm
  rw [e, out_A_apply]
  refine (band_apply x0 x1 x2 hJ (k0_pay1 (F := Ideal)) k j d h).trans ?_
  rw [pay1_apply, zero_add]

end Step

/-! ## The points of the grid -/

section Points

variable (V : (c : Dev nD) → (b : Ref sig .tc) → Buf (Elt Ideal) ((c : Thread nD τ).loc b))

/-- The launch's arrays as the region finds them: target words [2, 1, 800000], source words [2, 800000, 1], the
    source table [50000, 32]. -/
abbrev A0 (c : Dev nD) : IVec S2x1x800000 32 := V c (Pipeline.arrRef spec0 0)
abbrev A1 (c : Dev nD) : IVec S2x800000x1 32 := V c (Pipeline.arrRef spec0 1)
abbrev A2 (c : Dev nD) : FVec Ideal S50000x32 .bf16 := V c (Pipeline.arrRef spec0 2)

/-- The input blocks at a point, at their literal types. -/
abbrev blk0 (c : Dev nD) (t : Fin cfg0.N) : Vec Ideal S1x1x256 .i32 := iblk0 V c 0 t
abbrev blk1 (c : Dev nD) (t : Fin cfg0.N) : Vec Ideal S1x256x1 .i32 := iblk0 V c 1 t
abbrev blk2 (c : Dev nD) (t : Fin cfg0.N) : Vec Ideal S50000x32 .bf16 := iblk0 V c 2 t

/-- The block indices at a point: half `t / 3125`, edge block `t % 3125`. -/
theorem idx0 : ∀ t : Fin cfg0.N, win0_0.index t 0 = t.val / 3125 ∧ win0_0.index t 1 = 0 ∧ win0_0.index t 2 = t.val % 3125 :=
  (by decide +kernel : ∀ t : Fin grid0.N, win0_0.index t 0 = t.val / 3125 ∧ win0_0.index t 1 = 0 ∧ win0_0.index t 2 = t.val % 3125)
theorem idx1 : ∀ t : Fin cfg0.N, win0_1.index t 0 = t.val / 3125 ∧ win0_1.index t 1 = t.val % 3125 ∧ win0_1.index t 2 = 0 :=
  (by decide +kernel : ∀ t : Fin grid0.N, win0_1.index t 0 = t.val / 3125 ∧ win0_1.index t 1 = t.val % 3125 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val / 3125 ∧ win0_3.index t 1 = 0 ∧ win0_3.index t 2 = 0 :=
  (by decide +kernel : ∀ t : Fin grid0.N, win0_3.index t 0 = t.val / 3125 ∧ win0_3.index t 1 = 0 ∧ win0_3.index t 2 = 0)

theorem N6250 : cfg0.N = 6250 := N_0

/-- Edge p of the point's target block is edge 256 b + p of half h. -/
theorem blk0_apply (c : Dev nD) (t : Fin cfg0.N) (p : Fin 256) (hh : t.val / 3125 < 2) (he : 256 * (t.val % 3125) + p.val < 800000) :
    blk0 V c t (ix3 (0 : Fin 1) (0 : Fin 1) p)
      = A0 V c (ix3 (⟨t.val / 3125, hh⟩ : Fin 2) (0 : Fin 1) (⟨256 * (t.val % 3125) + p.val, he⟩ : Fin 800000)) := by
  obtain ⟨i0, i1, i2⟩ := idx0 t
  unfold blk0 iblk0
  rw [View.read_apply]
  show V c (Pipeline.arrRef spec0 0) _ = V c (Pipeline.arrRef spec0 0) _
  congr 1
  funext a
  apply Fin.ext
  match a with
  | ⟨0, _⟩ => show win0_0.index t 0 * 1 + 1 * 0 = t.val / 3125; rw [i0]; omega
  | ⟨1, _⟩ => show win0_0.index t 1 * 1 + 1 * 0 = 0; rw [i1]
  | ⟨2, _⟩ => show win0_0.index t 2 * 256 + 1 * p.val = 256 * (t.val % 3125) + p.val; rw [i2]; omega

theorem blk1_apply (c : Dev nD) (t : Fin cfg0.N) (p : Fin 256) (hh : t.val / 3125 < 2) (he : 256 * (t.val % 3125) + p.val < 800000) :
    blk1 V c t (ix3 (0 : Fin 1) p (0 : Fin 1))
      = A1 V c (ix3 (⟨t.val / 3125, hh⟩ : Fin 2) (⟨256 * (t.val % 3125) + p.val, he⟩ : Fin 800000) (0 : Fin 1)) := by
  obtain ⟨i0, i1, i2⟩ := idx1 t
  unfold blk1 iblk0
  rw [View.read_apply]
  show V c (Pipeline.arrRef spec0 1) _ = V c (Pipeline.arrRef spec0 1) _
  congr 1
  funext a
  apply Fin.ext
  match a with
  | ⟨0, _⟩ => show win0_1.index t 0 * 1 + 1 * 0 = t.val / 3125; rw [i0]; omega
  | ⟨1, _⟩ => show win0_1.index t 1 * 256 + 1 * p.val = 256 * (t.val % 3125) + p.val; rw [i1]; omega
  | ⟨2, _⟩ => show win0_1.index t 2 * 1 + 1 * 0 = 0; rw [i2]

theorem blk2_apply (c : Dev nD) (t : Fin cfg0.N) (r : Fin 50000) (d : Fin 32) :
    blk2 V c t (ix2 r d) = A2 V c (ix2 r d) := by
  obtain ⟨i0, i1⟩ := idx2 t
  unfold blk2 iblk0
  rw [View.read_apply]
  show V c (Pipeline.arrRef spec0 2) _ = V c (Pipeline.arrRef spec0 2) _
  congr 1
  funext a
  apply Fin.ext
  match a with
  | ⟨0, _⟩ => show win0_2.index t 0 * 50000 + 1 * r.val = r.val; rw [i0]; omega
  | ⟨1, _⟩ => show win0_2.index t 1 * 32 + 1 * d.val = d.val; rw [i1]; omega

variable (c : Dev nD)
  (hJ : ∀ (h : Fin 2) (e : Fin 800000), 0 ≤ (A1 V c (ix3 h e (0 : Fin 1))).toInt ∧ (A1 V c (ix3 h e (0 : Fin 1))).toInt < 50000)

/-- Edge block `b` of half `h`: its contribution to row `n`, column `d`. -/
def term (h b : ℕ) (n : Fin 50000) (d : Fin 32) : EReal :=
  if hb : h < 2 ∧ b < 3125 then
    ∑ p : Fin 256, hot (BitVec.ofNat 32 n.val) (A0 V c (ix3 (⟨h, hb.1⟩ : Fin 2) (0 : Fin 1) (⟨256 * b + p.val, by have := p.isLt; omega⟩ : Fin 800000)))
      * A2 V c (ix2 (srcRow (A1 V c (ix3 (⟨h, hb.1⟩ : Fin 2) (⟨256 * b + p.val, by have := p.isLt; omega⟩ : Fin 800000) (0 : Fin 1)))) d)
  else 0

include hJ in
/-- What a point adds at (n, d) is its edge block's term. -/
theorem point_term (t : Fin cfg0.N) (n : Fin 50000) (d : Fin 32) (hh : t.val / 3125 < 2) :
    (∑ p : Fin 256, hot (BitVec.ofNat 32 n.val) (blk0 V c t (ix3 (0 : Fin 1) (0 : Fin 1) p))
        * blk2 V c t (ix2 (srcRow (blk1 V c t (ix3 (0 : Fin 1) p (0 : Fin 1)))) d))
      = term V c (t.val / 3125) (t.val % 3125) n d := by
  have hb : t.val % 3125 < 3125 := Nat.mod_lt _ (by norm_num)
  rw [term, dif_pos ⟨hh, hb⟩]
  refine Finset.sum_congr rfl (fun p _ => ?_)
  have hp : p.val < 256 := p.isLt
  rw [blk0_apply V c t p hh (by omega), blk1_apply V c t p hh (by omega), blk2_apply]

include hJ in
/-- The source words of a point's block are in range. -/
theorem blk1_inRange (t : Fin cfg0.N) (p : Fin 256) :
    0 ≤ (blk1 V c t (ix3 (0 : Fin 1) p (0 : Fin 1))).toInt ∧ (blk1 V c t (ix3 (0 : Fin 1) p (0 : Fin 1))).toInt < 50000 := by
  have hN : t.val < 6250 := lt_of_lt_of_eq t.isLt N6250
  have hp : p.val < 256 := p.isLt
  rw [blk1_apply V c t p (by omega) (by omega)]
  exact hJ _ _

include hJ in
/-- After point `n` the output block holds, at (r, d), the terms of the half's edge blocks up to the point's. -/
theorem outs_eq : ∀ (n : ℕ) (hn : n < cfg0.N) (r : Fin 50000) (d : Fin 32),
    outsAt0 V c n hn (ix3 (0 : Fin 1) r d)
      = ∑ b ∈ Finset.range (n % 3125 + 1), term V c (n / 3125) b r d
  | 0, hn, r, d => by
    rw [outsAt0_A V c ⟨0, hn⟩ rfl]
    rw [outA_at (blk0 V c ⟨0, hn⟩) (blk1 V c ⟨0, hn⟩) (blk2 V c ⟨0, hn⟩) (blk1_inRange V c hJ ⟨0, hn⟩)]
    rw [point_term V c hJ ⟨0, hn⟩ r d (by norm_num), Finset.sum_range_one]
    rfl
  | n + 1, hn, r, d => by
    have hN : n + 1 < 6250 := lt_of_lt_of_eq hn N6250
    by_cases h0 : (n + 1) % 3125 = 0
    · rw [outsAt0_A V c ⟨n + 1, hn⟩ h0]
      rw [outA_at (blk0 V c ⟨n + 1, hn⟩) (blk1 V c ⟨n + 1, hn⟩) (blk2 V c ⟨n + 1, hn⟩) (blk1_inRange V c hJ ⟨n + 1, hn⟩)]
      rw [point_term V c hJ ⟨n + 1, hn⟩ r d (by show (n + 1) / 3125 < 2; omega)]
      show term V c ((n + 1) / 3125) ((n + 1) % 3125) r d = _
      rw [h0, Finset.sum_range_one]
    · rw [outsAt0_B V c ⟨n + 1, hn⟩ h0]
      rw [outB_at (blk0 V c ⟨n + 1, hn⟩) (blk1 V c ⟨n + 1, hn⟩) (blk2 V c ⟨n + 1, hn⟩) (blk1_inRange V c hJ ⟨n + 1, hn⟩)]
      rw [point_term V c hJ ⟨n + 1, hn⟩ r d (by show (n + 1) / 3125 < 2; omega)]
      have ih := outs_eq n (Nat.lt_of_succ_lt hn) r d
      show outsAt0 V c (n + 1 - 1) _ (ix3 (0 : Fin 1) r d) + term V c ((n + 1) / 3125) ((n + 1) % 3125) r d = _
      simp only [Nat.add_sub_cancel]
      rw [ih]
      have e1 : (n + 1) % 3125 = n % 3125 + 1 := by omega
      have e2 : (n + 1) / 3125 = n / 3125 := by omega
      rw [e1, e2, Finset.sum_range_succ (fun b => term V c (n / 3125) b r d) (n % 3125 + 1)]

include hJ in
/-- The same at any index of the block. -/
theorem outs_at (t : Fin cfg0.N) (z : S1x50000x32.Idx) :
    outsAt0 V c t.val t.isLt z
      = ∑ b ∈ Finset.range (t.val % 3125 + 1), term V c (t.val / 3125) b ⟨(z 1).val, (z 1).isLt⟩ ⟨(z 2).val, (z 2).isLt⟩ := by
  have e : z = ix3 (0 : Fin 1) (⟨(z 1).val, (z 1).isLt⟩ : Fin 50000) (⟨(z 2).val, (z 2).isLt⟩ : Fin 32) := by
    funext a
    apply Fin.ext
    match a with
    | ⟨0, _⟩ => show (z 0).val = 0; have : (z 0).val < 1 := (z 0).isLt; omega
    | ⟨1, _⟩ => rfl
    | ⟨2, _⟩ => rfl
  exact (congrArg (outsAt0 V c t.val t.isLt) e).trans (outs_eq V c hJ t.val t.isLt _ _)

end Points

/-! ## The result array -/

section Final

variable (V : (c : Dev nD) → (b : Ref sig .tc) → Buf (Elt Ideal) ((c : Thread nD τ).loc b)) (c : Dev nD)
  (hJ : ∀ (h : Fin 2) (e : Fin 800000), 0 ≤ (A1 V c (ix3 h e (0 : Fin 1))).toInt ∧ (A1 V c (ix3 h e (0 : Fin 1))).toInt < 50000)

/-- What the result array ends holding: at (h, n, d) the terms of all 3125 edge blocks of half h. -/
def Gfun (h : ℕ) (n : Fin 50000) (d : Fin 32) : EReal := ∑ b ∈ Finset.range 3125, term V c h b n d

def G : Buf (Elt Ideal) ((c : Thread nD τ).loc main_v14) :=
  fun i => Gfun V c (i 0).val ⟨(i 1).val, (i 1).isLt⟩ ⟨(i 2).val, (i 2).isLt⟩

include hJ in
/-- The write-back after the last point of a half writes the half's block of `G`. -/
theorem flushed_eq (t : Fin cfg0.N) (hf : (cfg0.win 3).flush t = true) :
    (dat0 V c).flushed 3 t = ((cfg0.win 3).blk t).view.read (Elt Ideal) (G V c) := by
  have h3124 : t.val % 3125 = 3124 := (flush0_3 t).mp hf
  have hN : t.val < 6250 := lt_of_lt_of_eq t.isLt N6250
  obtain ⟨i0, i1, i2⟩ := idx3 t
  funext y
  show (cfg0.win 3).cut (cfg0.grid.coords t) ((dat0 V c).after 3 t) y = _
  rw [after0_3, View.read_apply]
  show outsAt0 V c t.val t.isLt ((cfg0.win 3).xinj (cfg0.grid.coords t) y) = G V c (((cfg0.win 3).blk t).view.emb y)
  rw [outs_at V c hJ t _, h3124]
  unfold G Gfun
  refine Finset.sum_congr rfl (fun b _ => ?_)
  congr 1
  · show t.val / 3125 = win0_3.index t 0 * 1 + 1 * (y 0).val
    have : (y 0).val < 1 := (y 0).isLt
    rw [i0]; omega
  · apply Fin.ext
    show (y 1).val = win0_3.index t 1 * 50000 + 1 * (y 1).val
    rw [i1]; omega
  · apply Fin.ext
    show (y 2).val = win0_3.index t 2 * 32 + 1 * (y 2).val
    rw [i2]; omega

/-- The two write-backs cover the result array: half h is written after point 3125 h + 3124. -/
theorem cover (i : ((cfg0.win 3).arr.view.loc (c.tc : Thread nD τ)).2.ty.Idx) :
    ∃ t : Fin cfg0.N, (cfg0.win 3).flush t = true ∧ i ∈ ((cfg0.win 3).blk t).view.set := by
  have h0 : (i 0).val < 2 := (i 0).isLt
  have h1 : (i 1).val < 50000 := (i 1).isLt
  have h2 : (i 2).val < 32 := (i 2).isLt
  have ht : 3125 * (i 0).val + 3124 < cfg0.N := by rw [N6250]; omega
  refine ⟨⟨3125 * (i 0).val + 3124, ht⟩, (flush0_3 _).mpr (by show (3125 * (i 0).val + 3124) % 3125 = 3124; omega), ?_⟩
  obtain ⟨i0, i1, i2⟩ := idx3 ⟨3125 * (i 0).val + 3124, ht⟩
  show i ∈ ((View.whole main_v14).slice (win0_3.rect ⟨3125 * (i 0).val + 3124, ht⟩)).set
  rw [View.set_slice_whole, Rect.mem_set_unit]
  intro a
  match a with
  | ⟨0, _⟩ =>
    show win0_3.index _ 0 * 1 ≤ (i 0).val ∧ (i 0).val < win0_3.index _ 0 * 1 + 1
    rw [i0]; dsimp only; omega
  | ⟨1, _⟩ =>
    show win0_3.index _ 1 * 50000 ≤ (i 1).val ∧ (i 1).val < win0_3.index _ 1 * 50000 + 50000
    rw [i1]; omega
  | ⟨2, _⟩ =>
    show win0_3.index _ 2 * 32 ≤ (i 2).val ∧ (i 2).val < win0_3.index _ 2 * 32 + 32
    rw [i2]; omega

include hJ in
/-- THE LAUNCH'S VALUE: the result array holds, at (h, n, d), the sum over the 800000 edges of half h of
    [target word is node n] times the source-table row the edge's source word names, at column d. -/
theorem region_value (h : Fin 2) (n : Fin 50000) (d : Fin 32) :
    (dat0 V c).arrAt 3 cfg0.N (ix3 h n d)
      = ∑ e : Fin 800000, hot (BitVec.ofNat 32 n.val) (A0 V c (ix3 h (0 : Fin 1) e))
          * A2 V c (ix2 (srcRow (A1 V c (ix3 h e (0 : Fin 1)))) d) := by
  rw [(dat0 V c).arrAt_eq_of_cover 3 (G V c) (flushed_eq V c hJ) (cover c)]
  show Gfun V c h.val n d = _
  unfold Gfun
  rw [Finset.sum_range (n := 3125)]
  have hh : h.val < 2 := h.isLt
  have step : ∀ b : Fin 3125, term V c h.val b.val n d
      = ∑ p : Fin 256, (fun e : Fin (3125 * 256) => hot (BitVec.ofNat 32 n.val) (A0 V c (ix3 h (0 : Fin 1) (⟨e.val, e.isLt⟩ : Fin 800000)))
          * A2 V c (ix2 (srcRow (A1 V c (ix3 h (⟨e.val, e.isLt⟩ : Fin 800000) (0 : Fin 1)))) d))
          ⟨256 * b.val + p.val, by have := b.isLt; have := p.isLt; omega⟩ := by
    intro b
    rw [term, dif_pos ⟨hh, b.isLt⟩]
  rw [Finset.sum_congr rfl (fun b _ => step b)]
  have hsum := sum_blocks (M := EReal) 3125 256 (fun e : Fin (3125 * 256) =>
    hot (BitVec.ofNat 32 n.val) (A0 V c (ix3 h (0 : Fin 1) (⟨e.val, e.isLt⟩ : Fin 800000)))
      * A2 V c (ix2 (srcRow (A1 V c (ix3 h (⟨e.val, e.isLt⟩ : Fin 800000) (0 : Fin 1)))) d))
  exact hsum.trans (Fintype.sum_equiv (finCongr (by norm_num)) _ _ (fun e => rfl))

end Final

end Cert.KernelIdeal.Points0

end
-- ==== Proof.Step1.lean ====
/-
  What one grid point of the second segment-sum launch leaves in its output block, as a pure function of the
  point's input blocks and of the block's previous contents.

  The body first clears a 256 x 32 accumulator, then walks the 50000 source rows in 25 chunks of 2000: chunk k
  adds, to the accumulator, the product of the one-hot matrix "edge p's source word is node 2000k + j" with the
  chunk of the source table. Then it walks the output rows in the same 25 chunks: chunk k of the output block
  becomes itself plus the product of the one-hot matrix "edge p's target word is node 2000k + j" with the
  accumulator. At the first point of each half the output block is zeroed first.

  Every store of the first walk covers the whole accumulator, so after n chunks the accumulator holds the n-fold
  nest of the chunk update (`gath`). The stores of the second walk are pairwise disjoint row bands, so band k of
  the block ends at the band update of what the band held before (`out_B_apply`, `out_A_apply`).
-/
import proofs.«407926_j28819230556490_3_alg».proof.Proof.Gen.KernelIdeal.Frame
import Idealize.ShloMosaic.Lib.Pipeline.Value
import Idealize.ShloMosaic.Lib.Tactic

set_option maxRecDepth 16384

noncomputable section

namespace Cert.KernelIdeal.Step1

open Cert.KernelIdeal Cert.KernelIdeal.Gen
open Idealize.ShloMosaic Idealize.ShloMosaic.TcCoe Idealize.ShloMosaic.Tactic Idealize.SL.Sem

variable {F : FTy → Type} [FloatOps F]

theorem trips1 : k1_t1_loop.trips = 25 := by decide
theorem trips2 : k1_t2_loop.trips = 25 := by decide

theorem hz2 : (![0, 0] : Fin 2 → Nat) = fun _ => 0 := funext fun a => by fin_cases a <;> rfl
theorem hz3 : (![0, 0, 0] : Fin 3 → Nat) = fun _ => 0 := funext fun a => by fin_cases a <;> rfl

/-- Chunk `k` of the source table: rows 2000k .. 2000k + 1999. -/
abbrev srcRect (k : Fin k1_t1_loop.trips) : Rect S50000x32 := Rect.unit (k1_off1 k) S2000x32.size (k1_off1_inb k)
/-- Band `k` of the output block: rows 2000k .. 2000k + 1999. -/
abbrev outRect (k : Fin k1_t2_loop.trips) : Rect S1x50000x32 := Rect.unit (k1_off2 k) S1x2000x32.size (k1_off2_inb k)

/-- The accumulator after `n` chunks of the first walk: cleared, then updated chunk by chunk. -/
def gath (x1 : Vec F S1x256x1 .i32) (x2 : Vec F S50000x32 .bf16) : ℕ → Vec F S256x32 .f32
  | 0 => k1_pay2
  | k + 1 => if h : k < k1_t1_loop.trips then k1_pay3 x1 ⟨k, h⟩ (View.ld x2 (srcRect ⟨k, h⟩)) (gath x1 x2 k) else gath x1 x2 k

/-! ## The first walk: every store covers the accumulator -/

section Walk1

variable (𝒱 : Variants) (bd : Option 𝒱.V) (c : Dev nD) (i : grid1.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole)
  (v7 : Vec F S1x256x1 .i32) (X : BufTy.Contents (Elt F) arg4.view.ty) (G : BufTy.Contents (Elt F) arg6.view.ty)

/-- One trip stores one piece: the whole accumulator, at the chunk update of what it held. -/
theorem tripL1_eq (k : Fin k1_t1_loop.trips) (f : BufTy.Contents (Elt F) arg6.view.ty) :
    tripL_k1_t1 (F := F) 𝒱 c bd i arg2 harg2 arg3 harg3 arg4 harg4 arg5 harg5 arg6 harg6 v7 X k f
      = [⟨Rect.unit ![0, 0] S256x32.size inb_S256x32_S256x32_0_0,
          k1_pay3 v7 k (View.readAt (Elt F) arg4.view (srcRect k).toLoadRect X)
            (View.readAt (Elt F) arg6.view (Rect.unit ![0, 0] S256x32.size inb_S256x32_S256x32_0_0).toLoadRect f)⟩] := by
  unfold tripL_k1_t1 trip_k1_t1
  rfl

/-- What the accumulator reads after `n` trips, from contents `G`. -/
def acc1 : ℕ → Vec F S256x32 .f32
  | 0 => arg6.view.read (Elt F) G
  | k + 1 => if h : k < k1_t1_loop.trips then
      k1_pay3 v7 ⟨k, h⟩ (View.ld (arg4.view.read (Elt F) X) (srcRect ⟨k, h⟩)) (acc1 k) else acc1 k

theorem read_pb1 : ∀ n : ℕ, n ≤ k1_t1_loop.trips →
    arg6.view.read (Elt F) (arg6.view.writes (Elt F) G
      (pb_k1_t1 (F := F) 𝒱 c bd i arg2 harg2 arg3 harg3 arg4 harg4 arg5 harg5 arg6 harg6 v7 X G n))
      = acc1 (F := F) arg4 arg6 v7 X G n
  | 0, _ => rfl
  | k + 1, hk => by
    have hk' : k < k1_t1_loop.trips := hk
    have ih := read_pb1 k (Nat.le_of_succ_le hk)
    have hs := pb_k1_t1_succ (F := F) 𝒱 c bd i arg2 harg2 arg3 harg3 arg4 harg4 arg5 harg5 arg6 harg6 v7 X G ⟨k, hk'⟩
    dsimp only at hs
    rw [hs, tripL1_eq, List.singleton_append,
      View.read_writes_eq_canon _ _ _ (fun y => ⟨_, List.mem_cons_self, View.mem_set_unit_zero hz2 inb_S256x32_S256x32_0_0 y⟩),
      View.canon_cons_unit_zero (S := S256x32) hz2]
    rw [acc1, dif_pos hk', View.readAt_eq_ld, View.readAt_eq_ld, View.ld_unit_zero (S := S256x32) hz2, ih]

end Walk1

/-- From the cleared accumulator the walk's fold is `gath`. -/
theorem acc1_eq_gath (arg4 : Memref sig .tc .vmem S50000x32 .bf16) (arg6 : Memref sig .tc .vmem S256x32 .f32)
    (x1 : Vec F S1x256x1 .i32) (X : BufTy.Contents (Elt F) arg4.view.ty) (G : BufTy.Contents (Elt F) arg6.view.ty)
    (hG : arg6.view.read (Elt F) G = k1_pay2) (x2 : Vec F S50000x32 .bf16) (hX : arg4.view.read (Elt F) X = x2) :
    ∀ n, acc1 (F := F) arg4 arg6 x1 X G n = gath x1 x2 n
  | 0 => hG
  | k + 1 => by
    rw [acc1, gath, acc1_eq_gath arg4 arg6 x1 X G hG x2 hX k, hX]

/-! ## The second walk: the stores are disjoint row bands -/

section Walk2

variable (𝒱 : Variants) (bd : Option 𝒱.V) (c : Dev nD) (i : grid1.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole)
  (v9 : Vec F S1x1x256 .i32) (v12 : Vec F S256x32 .f32) (G : BufTy.Contents (Elt F) arg5.view.ty)

/-- One trip stores one piece: band `k`, at the band update of what the band held. -/
theorem tripL2_eq (k : Fin k1_t2_loop.trips) (f : BufTy.Contents (Elt F) arg5.view.ty) :
    tripL_k1_t2 (F := F) 𝒱 c bd i arg2 harg2 arg3 harg3 arg4 harg4 arg5 harg5 arg6 harg6 v9 v12 k f
      = [⟨outRect k, k1_pay4 v9 v12 k (View.readAt (Elt F) arg5.view (outRect k).toLoadRect f)⟩] := by
  unfold tripL_k1_t2 trip_k1_t2
  rfl

/-- Row coordinate of a band's element: 2000k + its row inside the band. -/
theorem outRect_emb_row (k : Fin k1_t2_loop.trips) (x : (outRect k).shape.Idx) :
    (((outRect k).emb x) 1).val = 2000 * k.val + (x 1).val := by
  have e : k1_off2 k 1 = 2000 * k.val := by rw [k1_off2_eq]; rfl
  rw [Rect.emb_apply]
  show k1_off2 k 1 + 1 * (x 1).val = _
  rw [e, Nat.one_mul]

/-- Membership in a band is a condition on the row coordinate alone. -/
theorem mem_outRect (k : Fin k1_t2_loop.trips) (y : S1x50000x32.Idx) :
    y ∈ (outRect k).set ↔ 2000 * k.val ≤ (y 1).val ∧ (y 1).val < 2000 * k.val + 2000 := by
  rw [Rect.mem_set_unit]
  have e := k1_off2_eq k
  constructor
  · intro h
    have h1 := h 1
    rw [e] at h1
    exact h1
  · intro h a
    rw [e]
    have h0 : (y 0).val < 1 := (y 0).isLt
    have h2 : (y 2).val < 32 := (y 2).isLt
    match a with
    | ⟨0, _⟩ => exact ⟨Nat.zero_le _, by show (y 0).val < 0 + 1; omega⟩
    | ⟨1, _⟩ => exact h
    | ⟨2, _⟩ => exact ⟨Nat.zero_le _, by show (y 2).val < 0 + 32; omega⟩

/-- After `n` trips: band `k < n` holds its update of what `G` held there, and every row from 2000n on is untouched. -/
theorem read_pb2 : ∀ n : ℕ, n ≤ k1_t2_loop.trips →
    (∀ (k : Fin k1_t2_loop.trips), k.val < n → ∀ x : (outRect k).shape.Idx,
      arg5.view.read (Elt F) (arg5.view.writes (Elt F) G
        (pb_k1_t2 (F := F) 𝒱 c bd i arg2 harg2 arg3 harg3 arg4 harg4 arg5 harg5 arg6 harg6 v9 v12 G n)) ((outRect k).emb x)
        = k1_pay4 v9 v12 k (View.ld (arg5.view.read (Elt F) G) (outRect k)) x)
    ∧ (∀ y : S1x50000x32.Idx, 2000 * n ≤ (y 1).val →
      arg5.view.read (Elt F) (arg5.view.writes (Elt F) G
        (pb_k1_t2 (F := F) 𝒱 c bd i arg2 harg2 arg3 harg3 arg4 harg4 arg5 harg5 arg6 harg6 v9 v12 G n)) y
        = arg5.view.read (Elt F) G y)
  | 0, _ => ⟨fun k hk => absurd hk (Nat.not_lt_zero _), fun y _ => rfl⟩
  | n + 1, hn => by
    have hn' : n < k1_t2_loop.trips := hn
    obtain ⟨ih1, ih2⟩ := read_pb2 n (Nat.le_of_succ_le hn)
    have hs := pb_k1_t2_succ (F := F) 𝒱 c bd i arg2 harg2 arg3 harg3 arg4 harg4 arg5 harg5 arg6 harg6 v9 v12 G ⟨n, hn'⟩
    dsimp only at hs
    -- what trip n loads from its band is what G held there: the earlier bands lie below row 2000n
    have hload : View.readAt (Elt F) arg5.view (outRect ⟨n, hn'⟩).toLoadRect (arg5.view.writes (Elt F) G
        (pb_k1_t2 (F := F) 𝒱 c bd i arg2 harg2 arg3 harg3 arg4 harg4 arg5 harg5 arg6 harg6 v9 v12 G n))
        = View.ld (arg5.view.read (Elt F) G) (outRect ⟨n, hn'⟩) := by
      funext x
      rw [View.readAt_apply]
      refine ih2 _ ?_
      have := outRect_emb_row ⟨n, hn'⟩ x
      show 2000 * n ≤ (((outRect ⟨n, hn'⟩).emb x) 1).val
      rw [this]; exact Nat.le_add_right _ _
    rw [hs, tripL2_eq, List.singleton_append, hload]
    refine ⟨fun k hk x => ?_, fun y hy => ?_⟩
    · by_cases hkn : k.val = n
      · obtain rfl : k = ⟨n, hn'⟩ := Fin.ext hkn
        exact View.read_writes_cons_emb _ _ _ _ _ x
      · have hk' : k.val < n := by omega
        rw [View.writes_cons, View.read_slice_write_of_not_mem _ _ _ _ (by
          rw [Rect.map_emb_univ, mem_outRect]
          have := outRect_emb_row k x
          have hx : (x 1).val < 2000 := (x 1).isLt
          show ¬(2000 * n ≤ (((outRect k).emb x) 1).val ∧ _)
          rw [this]; omega)]
        exact ih1 k hk' x
    · rw [View.writes_cons, View.read_slice_write_of_not_mem _ _ _ _ (by
        rw [Rect.map_emb_univ, mem_outRect]
        show ¬(2000 * n ≤ (y 1).val ∧ (y 1).val < 2000 * n + 2000)
        omega)]
      exact ih2 y (by omega)

end Walk2

/-! ## The two cases of a grid point -/

theorem readWhole1 (arg3 : Memref sig .tc .vmem S1x256x1 .i32) (harg3 : arg3.IsWhole) (x1 : Vec F S1x256x1 .i32) :
    View.readAt (Elt F) arg3.view (Rect.unit ![0, 0, 0] S1x256x1.size inb_S1x256x1_S1x256x1_0_0_0).toLoadRect (harg3.unread x1) = x1 := by
  rw [View.readAt_eq_ld, harg3.read_unread, View.ld_unit_zero (S := S1x256x1) hz3]

theorem readWhole0 (arg2 : Memref sig .tc .vmem S1x1x256 .i32) (harg2 : arg2.IsWhole) (x0 : Vec F S1x1x256 .i32) :
    View.readAt (Elt F) arg2.view (Rect.unit ![0, 0, 0] S1x1x256.size inb_S1x1x256_S1x1x256_0_0_0).toLoadRect (harg2.unread x0) = x0 := by
  rw [View.readAt_eq_ld, harg2.read_unread, View.ld_unit_zero (S := S1x1x256) hz3]

/-- The accumulator the second walk reads, in the case that keeps the block: `gath` after all chunks. -/
theorem v12_B (c : Dev nD) (i : grid1.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (x1 : Vec F S1x256x1 .i32) (x2 : Vec F S50000x32 .bf16) :
    kernelRun1_B.sl.v12 c i arg2 harg2 arg3 harg3 arg4 harg4 arg5 harg5 arg6 harg6 x1 x2 = gath x1 x2 k1_t1_loop.trips := by
  unfold kernelRun1_B.sl.v12
  sl_unfold_words
  rw [View.writes_append, View.readAt_eq_ld, View.ld_unit_zero (S := S256x32) hz2, readWhole1,
    read_pb1 _ _ _ _ _ _ _ _ _ _ _ _ _ _ _ _ _ _ (Nat.le_refl _)]
  exact acc1_eq_gath arg4 arg6 x1 _ _
    (by rw [View.read_writes_eq_canon _ _ _ (fun y => ⟨_, List.mem_singleton_self _, View.mem_set_unit_zero hz2 inb_S256x32_S256x32_0_0 y⟩),
          View.canon_unit_zero hz2]) x2 (harg4.read_unread x2) _

/-- The same in the case that zeroes the block first. -/
theorem v12_A (c : Dev nD) (i : grid1.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (x1 : Vec F S1x256x1 .i32) (x2 : Vec F S50000x32 .bf16) :
    kernelRun1_A.sl.v12 c i arg2 harg2 arg3 harg3 arg4 harg4 arg5 harg5 arg6 harg6 x1 x2 = gath x1 x2 k1_t1_loop.trips := by
  unfold kernelRun1_A.sl.v12
  sl_unfold_words
  rw [View.writes_append, View.readAt_eq_ld, View.ld_unit_zero (S := S256x32) hz2, readWhole1,
    read_pb1 _ _ _ _ _ _ _ _ _ _ _ _ _ _ _ _ _ _ (Nat.le_refl _)]
  exact acc1_eq_gath arg4 arg6 x1 _ _
    (by rw [View.read_writes_eq_canon _ _ _ (fun y => ⟨_, List.mem_singleton_self _, View.mem_set_unit_zero hz2 inb_S256x32_S256x32_0_0 y⟩),
          View.canon_unit_zero hz2]) x2 (harg4.read_unread x2) _

/-- A point that keeps the block (every point but the first of a half): band `k` ends at its update of the band's
    previous contents. -/
theorem out_B_apply (c : Dev nD) (i : grid1.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (hc0 : ¬cond1_0 i)
    (x0 : Vec F S1x1x256 .i32) (x1 : Vec F S1x256x1 .i32) (x2 : Vec F S50000x32 .bf16) (xo3 : Vec F S1x50000x32 .f32)
    (k : Fin k1_t2_loop.trips) (x : (outRect k).shape.Idx) :
    out1_B_3 c i arg2 harg2 arg3 harg3 arg4 harg4 arg5 harg5 arg6 harg6 hc0 x0 x1 x2 xo3 ((outRect k).emb x)
      = k1_pay4 x0 (gath x1 x2 k1_t1_loop.trips) k (View.ld xo3 (outRect k)) x := by
  unfold out1_B_3
  rw [View.read_writes_apply_eq VO1_3 _ arg5.view (harg5.unread xo3) _ _
    (cover1_B_3 c i arg2 harg2 arg3 harg3 arg4 harg4 arg5 harg5 arg6 harg6 hc0 x0 x1 x2 xo3 _)]
  unfold kernelRun1_B
  dsimp only
  rw [readWhole0, v12_B]
  have h := (read_pb2 (F := F) Variants.none none c i arg2 harg2 arg3 harg3 arg4 harg4 arg5 harg5 arg6 harg6 x0 (gath x1 x2 k1_t1_loop.trips) (harg5.unread xo3)
    _ (Nat.le_refl _)).1 k k.isLt x
  rw [harg5.read_unread] at h
  exact h

/-- The first point of a half: the block is zeroed, then band `k` ends at its update of zeros. -/
theorem out_A_apply (c : Dev nD) (i : grid1.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (hc0 : cond1_0 i)
    (x0 : Vec F S1x1x256 .i32) (x1 : Vec F S1x256x1 .i32) (x2 : Vec F S50000x32 .bf16)
    (k : Fin k1_t2_loop.trips) (x : (outRect k).shape.Idx) :
    out1_A_3 c i arg2 harg2 arg3 harg3 arg4 harg4 arg5 harg5 arg6 harg6 hc0 x0 x1 x2 ((outRect k).emb x)
      = k1_pay4 x0 (gath x1 x2 k1_t1_loop.trips) k (View.ld k1_pay1 (outRect k)) x := by
  unfold out1_A_3
  rw [View.read_writes_apply_eq VO1_3 _ arg5.view arg5.view.junk _ _
    (cover1_A_3 c i arg2 harg2 arg3 harg3 arg4 harg4 arg5 harg5 arg6 harg6 hc0 x0 x1 x2 _)]
  unfold kernelRun1_A
  dsimp only
  rw [readWhole0, v12_A]
  unfold kernelRun1_A.sl.H3_1
  rw [View.writes_append]
  have h := (read_pb2 (F := F) Variants.none none c i arg2 harg2 arg3 harg3 arg4 harg4 arg5 harg5 arg6 harg6 x0 (gath x1 x2 k1_t1_loop.trips)
    (arg5.view.writes (Elt F) arg5.view.junk [⟨Rect.unit ![0, 0, 0] S1x50000x32.size inb_S1x50000x32_S1x50000x32_0_0_0, k1_pay1⟩])
    _ (Nat.le_refl _)).1 k k.isLt x
  rw [View.read_writes_eq_canon _ _ _ (fun y => ⟨_, List.mem_singleton_self _, View.mem_set_unit_zero hz3 inb_S1x50000x32_S1x50000x32_0_0_0 y⟩),
    View.canon_unit_zero hz3] at h
  exact h

end Cert.KernelIdeal.Step1

end
-- ==== Proof.Points1.lean ====
/-
  The second segment-sum launch, point by point, and what its result array holds at the end.

  The grid is 2 halves of 3125 edge blocks. At the point (h, b) the body reads the 256 target words and the 256
  source words of block b of half h and the whole source table, and adds to row n of the half's output block the
  sum over the block's edges p of [target word of p is node n] times the source-table row the source word of p
  names; the first point of a half starts from zeros. So after point (h, b) the block holds, at (n, d), the sum
  over the blocks b' ≤ b of those terms, and the half's block is written back once, after its last point: the
  result array holds at (h, n, d) the sum over all 3125 blocks of half h.

  The gathered row is a sum over the 50000 nodes, 25 chunks of 2000, of [node is the source word] times the
  node's row: when the source word names a node that is the node's row (no finiteness is needed: 0 · x = 0 and
  1 · x = x on the extended reals).
-/
import proofs.«407926_j28819230556490_3_alg».proof.Proof.Step1
import proofs.«407926_j28819230556490_3_alg».proof.Proof.Pay
import proofs.«407926_j28819230556490_3_alg».proof.Proof.Algebra
import Idealize.ShloMosaic.Lib.Pipeline.Value
import Idealize.ShloMosaic.Lib.ValueIdx

set_option maxRecDepth 16384

noncomputable section

namespace Cert.KernelIdeal.Points1

open Cert.KernelIdeal Cert.KernelIdeal.Gen Cert.KernelIdeal.Step1 Cert.KernelIdeal.Pay Cert.NbrNorm
open Idealize.ShloMosaic Idealize.ShloMosaic.TcCoe Idealize.ShloMosaic.ValueIdx Idealize.SL.Sem
open Idealize.ShloMosaic.Pipeline (Dat)

/-- The row of the source table a source word names: the word read signed and clamped into the table. -/
def srcRow (w : BitVec 32) : Fin 50000 := ⟨min w.toInt.toNat 49999, by omega⟩

/-- A source word in range reads the same signed and unsigned, and names its own row. -/
theorem srcRow_of_inRange (w : BitVec 32) (hw : 0 ≤ w.toInt ∧ w.toInt < 50000) :
    ∃ h : w.toNat < 50000, (⟨w.toNat, h⟩ : Fin 50000) = srcRow w := by
  have e : w.toInt = (w.toNat : ℤ) := by
    have h1 := hw.1
    rw [BitVec.toInt_eq_toNat_cond] at h1 ⊢
    have := w.isLt
    split at h1 <;> rename_i hc
    · rw [if_pos hc]
    · omega
  have hlt : w.toNat < 50000 := by omega
  refine ⟨hlt, Fin.ext ?_⟩
  show w.toNat = min w.toInt.toNat 49999
  rw [e]; simp only [Int.toNat_natCast]; omega

/-! ## One point's update at an index -/

section Step

variable (x0 : Vec Ideal S1x1x256 .i32) (x1 : Vec Ideal S1x256x1 .i32) (x2 : Vec Ideal S50000x32 .bf16)

theorem srcRect_idx (k : Fin k1_t1_loop.trips) (j : Fin 2000) (d : Fin 32) (h : 2000 * k.val + j.val < 50000) :
    (srcRect k).idx (ix2 j d) = ix2 (⟨2000 * k.val + j.val, h⟩ : Fin 50000) d := by
  have e0 : k1_off1 k 0 = 2000 * k.val := by rw [k1_off1_eq]; rfl
  have e1 : k1_off1 k 1 = 0 := by rw [k1_off1_eq]; rfl
  funext a
  apply Fin.ext
  rw [LoadRect.idx_apply]
  match a with
  | ⟨0, _⟩ => show k1_off1 k 0 + 1 * j.val = 2000 * k.val + j.val; rw [e0]; omega
  | ⟨1, _⟩ => show k1_off1 k 1 + 1 * d.val = d.val; rw [e1]; omega

theorem outRect_idx (k : Fin k1_t2_loop.trips) (j : Fin 2000) (d : Fin 32) (h : 2000 * k.val + j.val < 50000) :
    (outRect k).idx (ix3 (0 : Fin 1) j d) = ix3 (0 : Fin 1) (⟨2000 * k.val + j.val, h⟩ : Fin 50000) d := by
  have e0 : k1_off2 k 0 = 0 := by rw [k1_off2_eq]; rfl
  have e1 : k1_off2 k 1 = 2000 * k.val := by rw [k1_off2_eq]; rfl
  have e2 : k1_off2 k 2 = 0 := by rw [k1_off2_eq]; rfl
  funext a
  apply Fin.ext
  rw [LoadRect.idx_apply]
  match a with
  | ⟨0, _⟩ => show k1_off2 k 0 + 1 * 0 = 0; rw [e0]
  | ⟨1, _⟩ => show k1_off2 k 1 + 1 * j.val = 2000 * k.val + j.val; rw [e1]; omega
  | ⟨2, _⟩ => show k1_off2 k 2 + 1 * d.val = d.val; rw [e2]; omega

/-- The accumulator after `n` chunks, at (p, d): the sum over the chunks' nodes of the indicator times the node's row. -/
theorem gath_apply (p : Fin 256) (d : Fin 32) : ∀ n : ℕ, n ≤ k1_t1_loop.trips →
    gath x1 x2 n (ix2 p d) = ∑ k ∈ Finset.range n, ∑ j : Fin 2000,
      hot (BitVec.ofNat 32 (2000 * k + j.val)) (x1 (ix3 (0 : Fin 1) p (0 : Fin 1)))
        * (if h : 2000 * k + j.val < 50000 then x2 (ix2 (⟨2000 * k + j.val, h⟩ : Fin 50000) d) else 0)
  | 0, _ => by rw [gath, Finset.sum_range_zero]; exact pay2_apply' _
  | k + 1, hk => by
    have hk' : k < k1_t1_loop.trips := hk
    have h25 : k < 25 := by rw [← Step1.trips1]; exact hk'
    rw [gath, dif_pos hk', Finset.sum_range_succ, ← gath_apply p d k (Nat.le_of_succ_le hk)]
    refine (pay3_apply' x1 ⟨k, hk'⟩ (View.ld x2 (srcRect ⟨k, hk'⟩)) (gath x1 x2 k) p d).trans ?_
    congr 1
    refine Finset.sum_congr rfl (fun j _ => ?_)
    have hj : j.val < 2000 := j.isLt
    have hb : 2000 * k + j.val < 50000 := by omega
    rw [dif_pos hb]
    congr 1
    show x2 ((srcRect ⟨k, hk'⟩).idx (ix2 j d)) = _
    rw [srcRect_idx ⟨k, hk'⟩ j d hb]

/-- After all chunks the accumulator holds, at (p, d), the row the source word of edge p names. -/
theorem gath_full (p : Fin 256) (d : Fin 32)
    (hw : 0 ≤ (x1 (ix3 (0 : Fin 1) p (0 : Fin 1))).toInt ∧ (x1 (ix3 (0 : Fin 1) p (0 : Fin 1))).toInt < 50000) :
    gath x1 x2 k1_t1_loop.trips (ix2 p d) = x2 (ix2 (srcRow (x1 (ix3 (0 : Fin 1) p (0 : Fin 1)))) d) := by
  obtain ⟨hlt, hrow⟩ := srcRow_of_inRange _ hw
  rw [gath_apply x1 x2 p d _ (Nat.le_refl _), Step1.trips1, Finset.sum_range (n := 25), ← hrow]
  rw [← sum_hot_chunks (x1 (ix3 (0 : Fin 1) p (0 : Fin 1))) hlt (fun r => x2 (ix2 r d))]
  refine Finset.sum_congr rfl (fun k _ => Finset.sum_congr rfl (fun j _ => ?_))
  have hk : k.val < 25 := k.isLt
  have hj : j.val < 2000 := j.isLt
  rw [dif_pos (by omega)]

/-- A row index as (band, row inside the band). -/
theorem row_split (n : Fin 50000) : ∃ (k : Fin k1_t2_loop.trips) (j : Fin 2000) (h : 2000 * k.val + j.val < 50000),
    (⟨2000 * k.val + j.val, h⟩ : Fin 50000) = n := by
  have hn := n.isLt
  refine ⟨⟨n.val / 2000, by rw [Step1.trips2]; omega⟩, ⟨n.val % 2000, Nat.mod_lt _ (by norm_num)⟩, ?_, ?_⟩
  · show 2000 * (n.val / 2000) + n.val % 2000 < 50000
    rw [Nat.div_add_mod]; exact hn
  · apply Fin.ext
    show 2000 * (n.val / 2000) + n.val % 2000 = n.val
    exact Nat.div_add_mod _ _

variable (hJ : ∀ p : Fin 256, 0 ≤ (x1 (ix3 (0 : Fin 1) p (0 : Fin 1))).toInt ∧ (x1 (ix3 (0 : Fin 1) p (0 : Fin 1))).toInt < 50000)
include hJ

/-- One band update at an index: what the band held plus the block's contribution to row 2000k + j. -/
theorem band_apply (xo : Vec Ideal S1x50000x32 .f32) (k : Fin k1_t2_loop.trips) (j : Fin 2000) (d : Fin 32)
    (h : 2000 * k.val + j.val < 50000) :
    k1_pay4 x0 (gath x1 x2 k1_t1_loop.trips) k (View.ld xo (outRect k)) (ix3 (0 : Fin 1) j d)
      = xo (ix3 (0 : Fin 1) (⟨2000 * k.val + j.val, h⟩ : Fin 50000) d)
        + ∑ p : Fin 256, hot (BitVec.ofNat 32 (2000 * k.val + j.val)) (x0 (ix3 (0 : Fin 1) (0 : Fin 1) p))
            * x2 (ix2 (srcRow (x1 (ix3 (0 : Fin 1) p (0 : Fin 1)))) d) := by
  refine (pay4_apply' x0 (gath x1 x2 k1_t1_loop.trips) k (View.ld xo (outRect k)) j d).trans ?_
  congr 1
  · show xo ((outRect k).idx (ix3 (0 : Fin 1) j d)) = _
    rw [outRect_idx k j d h]
  · refine Finset.sum_congr rfl (fun p _ => ?_)
    rw [gath_full x1 x2 p d (hJ p)]

/-- A point that keeps the block, at (n, d). -/
theorem outB_at (c : Dev nD) (i : grid1.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (hc0 : ¬cond1_0 i) (xo : Vec Ideal S1x50000x32 .f32) (n : Fin 50000) (d : Fin 32) :
    out1_B_3 (F := Ideal) c i arg2 harg2 arg3 harg3 arg4 harg4 arg5 harg5 arg6 harg6 hc0 x0 x1 x2 xo (ix3 (0 : Fin 1) n d)
      = xo (ix3 (0 : Fin 1) n d)
        + ∑ p : Fin 256, hot (BitVec.ofNat 32 n.val) (x0 (ix3 (0 : Fin 1) (0 : Fin 1) p))
            * x2 (ix2 (srcRow (x1 (ix3 (0 : Fin 1) p (0 : Fin 1)))) d) := by
  obtain ⟨k, j, h, rfl⟩ := row_split n
  have e : ix3 (0 : Fin 1) (⟨2000 * k.val + j.val, h⟩ : Fin 50000) d = (outRect k).emb (ix3 (0 : Fin 1) j d) :=
    (outRect_idx k j d h).symm
  rw [e, out_B_apply, ← e]
  exact band_apply x0 x1 x2 hJ xo k j d h

/-- The first point of a half, at (n, d): the same from zeros. -/
theorem outA_at (c : Dev nD) (i : grid1.Coords) (arg2 : Memref sig .tc .vmem S1x1x256 .i32) (harg2 : arg2.IsWhole) (arg3 : Memref sig .tc .vmem S1x256x1 .i32) (harg3 : arg3.IsWhole) (arg4 : Memref sig .tc .vmem S50000x32 .bf16) (harg4 : arg4.IsWhole) (arg5 : Memref sig .tc .vmem S1x50000x32 .f32) (harg5 : arg5.IsWhole) (arg6 : Memref sig .tc .vmem S256x32 .f32) (harg6 : arg6.IsWhole) (hc0 : cond1_0 i) (n : Fin 50000) (d : Fin 32) :
    out1_A_3 (F := Ideal) c i arg2 harg2 arg3 harg3 arg4 harg4 arg5 harg5 arg6 harg6 hc0 x0 x1 x2 (ix3 (0 : Fin 1) n d)
      = ∑ p : Fin 256, hot (BitVec.ofNat 32 n.val) (x0 (ix3 (0 : Fin 1) (0 : Fin 1) p))
            * x2 (ix2 (srcRow (x1 (ix3 (0 : Fin 1) p (0 : Fin 1)))) d) := by
  obtain ⟨k, j, h, rfl⟩ := row_split n
  have e : ix3 (0 : Fin 1) (⟨2000 * k.val + j.val, h⟩ : Fin 50000) d = (outRect k).emb (ix3 (0 : Fin 1) j d) :=
    (outRect_idx k j d h).symm
  rw [e, out_A_apply]
  refine (band_apply x0 x1 x2 hJ (k1_pay1 (F := Ideal)) k j d h).trans ?_
  rw [pay1_apply', zero_add]

end Step

/-! ## The points of the grid -/

section Points

variable (V : (c : Dev nD) → (b : Ref sig .tc) → Buf (Elt Ideal) ((c : Thread nD τ).loc b))

/-- The launch's arrays as the region finds them: target words [2, 1, 800000], source words [2, 800000, 1], the
    source table [50000, 32]. -/
abbrev A0 (c : Dev nD) : IVec S2x1x800000 32 := V c (Pipeline.arrRef spec1 0)
abbrev A1 (c : Dev nD) : IVec S2x800000x1 32 := V c (Pipeline.arrRef spec1 1)
abbrev A2 (c : Dev nD) : FVec Ideal S50000x32 .bf16 := V c (Pipeline.arrRef spec1 2)

/-- The input blocks at a point, at their literal types. -/
abbrev blk0 (c : Dev nD) (t : Fin cfg1.N) : Vec Ideal S1x1x256 .i32 := iblk1 V c 0 t
abbrev blk1 (c : Dev nD) (t : Fin cfg1.N) : Vec Ideal S1x256x1 .i32 := iblk1 V c 1 t
abbrev blk2 (c : Dev nD) (t : Fin cfg1.N) : Vec Ideal S50000x32 .bf16 := iblk1 V c 2 t

/-- The block indices at a point: half `t / 3125`, edge block `t % 3125`. -/
theorem idx0 : ∀ t : Fin cfg1.N, win1_0.index t 0 = t.val / 3125 ∧ win1_0.index t 1 = 0 ∧ win1_0.index t 2 = t.val % 3125 :=
  (by decide +kernel : ∀ t : Fin grid1.N, win1_0.index t 0 = t.val / 3125 ∧ win1_0.index t 1 = 0 ∧ win1_0.index t 2 = t.val % 3125)
theorem idx1 : ∀ t : Fin cfg1.N, win1_1.index t 0 = t.val / 3125 ∧ win1_1.index t 1 = t.val % 3125 ∧ win1_1.index t 2 = 0 :=
  (by decide +kernel : ∀ t : Fin grid1.N, win1_1.index t 0 = t.val / 3125 ∧ win1_1.index t 1 = t.val % 3125 ∧ win1_1.index t 2 = 0)
theorem idx2 : ∀ t : Fin cfg1.N, win1_2.index t 0 = 0 ∧ win1_2.index t 1 = 0 :=
  (by decide +kernel : ∀ t : Fin grid1.N, win1_2.index t 0 = 0 ∧ win1_2.index t 1 = 0)
theorem idx3 : ∀ t : Fin cfg1.N, win1_3.index t 0 = t.val / 3125 ∧ win1_3.index t 1 = 0 ∧ win1_3.index t 2 = 0 :=
  (by decide +kernel : ∀ t : Fin grid1.N, win1_3.index t 0 = t.val / 3125 ∧ win1_3.index t 1 = 0 ∧ win1_3.index t 2 = 0)

theorem N6250 : cfg1.N = 6250 := N_1

/-- Edge p of the point's target block is edge 256 b + p of half h. -/
theorem blk0_apply (c : Dev nD) (t : Fin cfg1.N) (p : Fin 256) (hh : t.val / 3125 < 2) (he : 256 * (t.val % 3125) + p.val < 800000) :
    blk0 V c t (ix3 (0 : Fin 1) (0 : Fin 1) p)
      = A0 V c (ix3 (⟨t.val / 3125, hh⟩ : Fin 2) (0 : Fin 1) (⟨256 * (t.val % 3125) + p.val, he⟩ : Fin 800000)) := by
  obtain ⟨i0, i1, i2⟩ := idx0 t
  unfold blk0 iblk1
  rw [View.read_apply]
  show V c (Pipeline.arrRef spec1 0) _ = V c (Pipeline.arrRef spec1 0) _
  congr 1
  funext a
  apply Fin.ext
  match a with
  | ⟨0, _⟩ => show win1_0.index t 0 * 1 + 1 * 0 = t.val / 3125; rw [i0]; omega
  | ⟨1, _⟩ => show win1_0.index t 1 * 1 + 1 * 0 = 0; rw [i1]
  | ⟨2, _⟩ => show win1_0.index t 2 * 256 + 1 * p.val = 256 * (t.val % 3125) + p.val; rw [i2]; omega

theorem blk1_apply (c : Dev nD) (t : Fin cfg1.N) (p : Fin 256) (hh : t.val / 3125 < 2) (he : 256 * (t.val % 3125) + p.val < 800000) :
    blk1 V c t (ix3 (0 : Fin 1) p (0 : Fin 1))
      = A1 V c (ix3 (⟨t.val / 3125, hh⟩ : Fin 2) (⟨256 * (t.val % 3125) + p.val, he⟩ : Fin 800000) (0 : Fin 1)) := by
  obtain ⟨i0, i1, i2⟩ := idx1 t
  unfold blk1 iblk1
  rw [View.read_apply]
  show V c (Pipeline.arrRef spec1 1) _ = V c (Pipeline.arrRef spec1 1) _
  congr 1
  funext a
  apply Fin.ext
  match a with
  | ⟨0, _⟩ => show win1_1.index t 0 * 1 + 1 * 0 = t.val / 3125; rw [i0]; omega
  | ⟨1, _⟩ => show win1_1.index t 1 * 256 + 1 * p.val = 256 * (t.val % 3125) + p.val; rw [i1]; omega
  | ⟨2, _⟩ => show win1_1.index t 2 * 1 + 1 * 0 = 0; rw [i2]

theorem blk2_apply (c : Dev nD) (t : Fin cfg1.N) (r : Fin 50000) (d : Fin 32) :
    blk2 V c t (ix2 r d) = A2 V c (ix2 r d) := by
  obtain ⟨i0, i1⟩ := idx2 t
  unfold blk2 iblk1
  rw [View.read_apply]
  show V c (Pipeline.arrRef spec1 2) _ = V c (Pipeline.arrRef spec1 2) _
  congr 1
  funext a
  apply Fin.ext
  match a with
  | ⟨0, _⟩ => show win1_2.index t 0 * 50000 + 1 * r.val = r.val; rw [i0]; omega
  | ⟨1, _⟩ => show win1_2.index t 1 * 32 + 1 * d.val = d.val; rw [i1]; omega

variable (c : Dev nD)
  (hJ : ∀ (h : Fin 2) (e : Fin 800000), 0 ≤ (A1 V c (ix3 h e (0 : Fin 1))).toInt ∧ (A1 V c (ix3 h e (0 : Fin 1))).toInt < 50000)

/-- Edge block `b` of half `h`: its contribution to row `n`, column `d`. -/
def term (h b : ℕ) (n : Fin 50000) (d : Fin 32) : EReal :=
  if hb : h < 2 ∧ b < 3125 then
    ∑ p : Fin 256, hot (BitVec.ofNat 32 n.val) (A0 V c (ix3 (⟨h, hb.1⟩ : Fin 2) (0 : Fin 1) (⟨256 * b + p.val, by have := p.isLt; omega⟩ : Fin 800000)))
      * A2 V c (ix2 (srcRow (A1 V c (ix3 (⟨h, hb.1⟩ : Fin 2) (⟨256 * b + p.val, by have := p.isLt; omega⟩ : Fin 800000) (0 : Fin 1)))) d)
  else 0

include hJ in
/-- What a point adds at (n, d) is its edge block's term. -/
theorem point_term (t : Fin cfg1.N) (n : Fin 50000) (d : Fin 32) (hh : t.val / 3125 < 2) :
    (∑ p : Fin 256, hot (BitVec.ofNat 32 n.val) (blk0 V c t (ix3 (0 : Fin 1) (0 : Fin 1) p))
        * blk2 V c t (ix2 (srcRow (blk1 V c t (ix3 (0 : Fin 1) p (0 : Fin 1)))) d))
      = term V c (t.val / 3125) (t.val % 3125) n d := by
  have hb : t.val % 3125 < 3125 := Nat.mod_lt _ (by norm_num)
  rw [term, dif_pos ⟨hh, hb⟩]
  refine Finset.sum_congr rfl (fun p _ => ?_)
  have hp : p.val < 256 := p.isLt
  rw [blk0_apply V c t p hh (by omega), blk1_apply V c t p hh (by omega), blk2_apply]

include hJ in
/-- The source words of a point's block are in range. -/
theorem blk1_inRange (t : Fin cfg1.N) (p : Fin 256) :
    0 ≤ (blk1 V c t (ix3 (0 : Fin 1) p (0 : Fin 1))).toInt ∧ (blk1 V c t (ix3 (0 : Fin 1) p (0 : Fin 1))).toInt < 50000 := by
  have hN : t.val < 6250 := lt_of_lt_of_eq t.isLt N6250
  have hp : p.val < 256 := p.isLt
  rw [blk1_apply V c t p (by omega) (by omega)]
  exact hJ _ _

include hJ in
/-- After point `n` the output block holds, at (r, d), the terms of the half's edge blocks up to the point's. -/
theorem outs_eq : ∀ (n : ℕ) (hn : n < cfg1.N) (r : Fin 50000) (d : Fin 32),
    outsAt1 V c n hn (ix3 (0 : Fin 1) r d)
      = ∑ b ∈ Finset.range (n % 3125 + 1), term V c (n / 3125) b r d
  | 0, hn, r, d => by
    rw [outsAt1_A V c ⟨0, hn⟩ rfl]
    rw [outA_at (blk0 V c ⟨0, hn⟩) (blk1 V c ⟨0, hn⟩) (blk2 V c ⟨0, hn⟩) (blk1_inRange V c hJ ⟨0, hn⟩)]
    rw [point_term V c hJ ⟨0, hn⟩ r d (by norm_num), Finset.sum_range_one]
    rfl
  | n + 1, hn, r, d => by
    have hN : n + 1 < 6250 := lt_of_lt_of_eq hn N6250
    by_cases h0 : (n + 1) % 3125 = 0
    · rw [outsAt1_A V c ⟨n + 1, hn⟩ h0]
      rw [outA_at (blk0 V c ⟨n + 1, hn⟩) (blk1 V c ⟨n + 1, hn⟩) (blk2 V c ⟨n + 1, hn⟩) (blk1_inRange V c hJ ⟨n + 1, hn⟩)]
      rw [point_term V c hJ ⟨n + 1, hn⟩ r d (by show (n + 1) / 3125 < 2; omega)]
      show term V c ((n + 1) / 3125) ((n + 1) % 3125) r d = _
      rw [h0, Finset.sum_range_one]
    · rw [outsAt1_B V c ⟨n + 1, hn⟩ h0]
      rw [outB_at (blk0 V c ⟨n + 1, hn⟩) (blk1 V c ⟨n + 1, hn⟩) (blk2 V c ⟨n + 1, hn⟩) (blk1_inRange V c hJ ⟨n + 1, hn⟩)]
      rw [point_term V c hJ ⟨n + 1, hn⟩ r d (by show (n + 1) / 3125 < 2; omega)]
      have ih := outs_eq n (Nat.lt_of_succ_lt hn) r d
      show outsAt1 V c (n + 1 - 1) _ (ix3 (0 : Fin 1) r d) + term V c ((n + 1) / 3125) ((n + 1) % 3125) r d = _
      simp only [Nat.add_sub_cancel]
      rw [ih]
      have e1 : (n + 1) % 3125 = n % 3125 + 1 := by omega
      have e2 : (n + 1) / 3125 = n / 3125 := by omega
      rw [e1, e2, Finset.sum_range_succ (fun b => term V c (n / 3125) b r d) (n % 3125 + 1)]

include hJ in
/-- The same at any index of the block. -/
theorem outs_at (t : Fin cfg1.N) (z : S1x50000x32.Idx) :
    outsAt1 V c t.val t.isLt z
      = ∑ b ∈ Finset.range (t.val % 3125 + 1), term V c (t.val / 3125) b ⟨(z 1).val, (z 1).isLt⟩ ⟨(z 2).val, (z 2).isLt⟩ := by
  have e : z = ix3 (0 : Fin 1) (⟨(z 1).val, (z 1).isLt⟩ : Fin 50000) (⟨(z 2).val, (z 2).isLt⟩ : Fin 32) := by
    funext a
    apply Fin.ext
    match a with
    | ⟨0, _⟩ => show (z 0).val = 0; have : (z 0).val < 1 := (z 0).isLt; omega
    | ⟨1, _⟩ => rfl
    | ⟨2, _⟩ => rfl
  exact (congrArg (outsAt1 V c t.val t.isLt) e).trans (outs_eq V c hJ t.val t.isLt _ _)

end Points

/-! ## The result array -/

section Final

variable (V : (c : Dev nD) → (b : Ref sig .tc) → Buf (Elt Ideal) ((c : Thread nD τ).loc b)) (c : Dev nD)
  (hJ : ∀ (h : Fin 2) (e : Fin 800000), 0 ≤ (A1 V c (ix3 h e (0 : Fin 1))).toInt ∧ (A1 V c (ix3 h e (0 : Fin 1))).toInt < 50000)

/-- What the result array ends holding: at (h, n, d) the terms of all 3125 edge blocks of half h. -/
def Gfun (h : ℕ) (n : Fin 50000) (d : Fin 32) : EReal := ∑ b ∈ Finset.range 3125, term V c h b n d

def G : Buf (Elt Ideal) ((c : Thread nD τ).loc main_v25) :=
  fun i => Gfun V c (i 0).val ⟨(i 1).val, (i 1).isLt⟩ ⟨(i 2).val, (i 2).isLt⟩

include hJ in
/-- The write-back after the last point of a half writes the half's block of `G`. -/
theorem flushed_eq (t : Fin cfg1.N) (hf : (cfg1.win 3).flush t = true) :
    (dat1 V c).flushed 3 t = ((cfg1.win 3).blk t).view.read (Elt Ideal) (G V c) := by
  have h3124 : t.val % 3125 = 3124 := (flush1_3 t).mp hf
  have hN : t.val < 6250 := lt_of_lt_of_eq t.isLt N6250
  obtain ⟨i0, i1, i2⟩ := idx3 t
  funext y
  show (cfg1.win 3).cut (cfg1.grid.coords t) ((dat1 V c).after 3 t) y = _
  rw [after1_3, View.read_apply]
  show outsAt1 V c t.val t.isLt ((cfg1.win 3).xinj (cfg1.grid.coords t) y) = G V c (((cfg1.win 3).blk t).view.emb y)
  rw [outs_at V c hJ t _, h3124]
  unfold G Gfun
  refine Finset.sum_congr rfl (fun b _ => ?_)
  congr 1
  · show t.val / 3125 = win1_3.index t 0 * 1 + 1 * (y 0).val
    have : (y 0).val < 1 := (y 0).isLt
    rw [i0]; omega
  · apply Fin.ext
    show (y 1).val = win1_3.index t 1 * 50000 + 1 * (y 1).val
    rw [i1]; omega
  · apply Fin.ext
    show (y 2).val = win1_3.index t 2 * 32 + 1 * (y 2).val
    rw [i2]; omega

/-- The two write-backs cover the result array: half h is written after point 3125 h + 3124. -/
theorem cover (i : ((cfg1.win 3).arr.view.loc (c.tc : Thread nD τ)).2.ty.Idx) :
    ∃ t : Fin cfg1.N, (cfg1.win 3).flush t = true ∧ i ∈ ((cfg1.win 3).blk t).view.set := by
  have h0 : (i 0).val < 2 := (i 0).isLt
  have h1 : (i 1).val < 50000 := (i 1).isLt
  have h2 : (i 2).val < 32 := (i 2).isLt
  have ht : 3125 * (i 0).val + 3124 < cfg1.N := by rw [N6250]; omega
  refine ⟨⟨3125 * (i 0).val + 3124, ht⟩, (flush1_3 _).mpr (by show (3125 * (i 0).val + 3124) % 3125 = 3124; omega), ?_⟩
  obtain ⟨i0, i1, i2⟩ := idx3 ⟨3125 * (i 0).val + 3124, ht⟩
  show i ∈ ((View.whole main_v25).slice (win1_3.rect ⟨3125 * (i 0).val + 3124, ht⟩)).set
  rw [View.set_slice_whole, Rect.mem_set_unit]
  intro a
  match a with
  | ⟨0, _⟩ =>
    show win1_3.index _ 0 * 1 ≤ (i 0).val ∧ (i 0).val < win1_3.index _ 0 * 1 + 1
    rw [i0]; dsimp only; omega
  | ⟨1, _⟩ =>
    show win1_3.index _ 1 * 50000 ≤ (i 1).val ∧ (i 1).val < win1_3.index _ 1 * 50000 + 50000
    rw [i1]; omega
  | ⟨2, _⟩ =>
    show win1_3.index _ 2 * 32 ≤ (i 2).val ∧ (i 2).val < win1_3.index _ 2 * 32 + 32
    rw [i2]; omega

include hJ in
/-- THE LAUNCH'S VALUE: the result array holds, at (h, n, d), the sum over the 800000 edges of half h of
    [target word is node n] times the source-table row the edge's source word names, at column d. -/
theorem region_value (h : Fin 2) (n : Fin 50000) (d : Fin 32) :
    (dat1 V c).arrAt 3 cfg1.N (ix3 h n d)
      = ∑ e : Fin 800000, hot (BitVec.ofNat 32 n.val) (A0 V c (ix3 h (0 : Fin 1) e))
          * A2 V c (ix2 (srcRow (A1 V c (ix3 h e (0 : Fin 1)))) d) := by
  rw [(dat1 V c).arrAt_eq_of_cover 3 (G V c) (flushed_eq V c hJ) (cover c)]
  show Gfun V c h.val n d = _
  unfold Gfun
  rw [Finset.sum_range (n := 3125)]
  have hh : h.val < 2 := h.isLt
  have step : ∀ b : Fin 3125, term V c h.val b.val n d
      = ∑ p : Fin 256, (fun e : Fin (3125 * 256) => hot (BitVec.ofNat 32 n.val) (A0 V c (ix3 h (0 : Fin 1) (⟨e.val, e.isLt⟩ : Fin 800000)))
          * A2 V c (ix2 (srcRow (A1 V c (ix3 h (⟨e.val, e.isLt⟩ : Fin 800000) (0 : Fin 1)))) d))
          ⟨256 * b.val + p.val, by have := b.isLt; have := p.isLt; omega⟩ := by
    intro b
    rw [term, dif_pos ⟨hh, b.isLt⟩]
  rw [Finset.sum_congr rfl (fun b _ => step b)]
  have hsum := sum_blocks (M := EReal) 3125 256 (fun e : Fin (3125 * 256) =>
    hot (BitVec.ofNat 32 n.val) (A0 V c (ix3 h (0 : Fin 1) (⟨e.val, e.isLt⟩ : Fin 800000)))
      * A2 V c (ix2 (srcRow (A1 V c (ix3 h (⟨e.val, e.isLt⟩ : Fin 800000) (0 : Fin 1)))) d))
  exact hsum.trans (Fintype.sum_equiv (finCongr (by norm_num)) _ _ (fun e => rfl))

end Final

end Cert.KernelIdeal.Points1

end
-- ==== Proof.KHost.lean ====
/-
  The host operations around the two launches of the kernel program, as values.

  Before the first launch the host computes the degree column (a count of each node's incoming edges, at least 1),
  lays the target and source words out as [2, 1, 800000] and [2, 800000, 1], and hands the launch the table x.
  Between the launches it adds the two halves of the first result, divides by the degree, and squares the deviation
  of x from that mean: the second launch's table. After the second launch it adds the halves again, divides by the
  degree, adds the small constant, takes the square root, divides x by it and replaces infinities by x. No stretch
  writes an argument, and a launch writes only its own result array, so each buffer read at a later boundary is
  the value computed for it, as a function of the two arguments and the launches' results.
-/
import proofs.«407926_j28819230556490_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
set_option maxRecDepth 16384
noncomputable section
namespace Cert.KernelIdeal.KHost
open Cert.KernelIdeal Cert.KernelIdeal.Gen Idealize.ShloMosaic Idealize.ShloMosaic.TcCoe Idealize.ShloMosaic.ValueIdx Idealize.SL.Sem
variable {F : FTy → Type} [FloatOps F]
variable (m : (ℓ : Loc nD τ sig) → Buf (Elt F) ℓ) (ρ : Dev nD → PrngReg)

/-- the degree column: the number of edges whose first endpoint is each node, at least one, as a column -/
def kdeg (E : IVec S2x1600000 32) : FVec F S50000x1 .f32 := broadcastInDim S50000x1 ![0] bcast_S50000_S50000x1_0 (maximumf (Host.scatterAdd scatter_S50000_S1600000x1_S1600000_n_0_0_1 (broadcastInDim S50000 ![] bcast_S_S50000 (constant S_ .f32 0x00000000#32)) (broadcastInDim S1600000x1 ![0] bcast_S1600000_S1600000x1_0 (shapeCast _ (extractStridedSlice S1x1600000 ![0, 0] E slices_S2x1600000_S1x1600000_0_0) shapeCasts_S1x1600000_S1600000)) (broadcastInDim S1600000 ![] bcast_S_S1600000 (constant S_ .f32 0x3F800000#32))) (broadcastInDim S50000 ![] bcast_S_S50000 (constant S_ .f32 0x3F800000#32)))

/-- the two halves of a region's result added -/
def kpair (O : FVec F S2x50000x32 .f32) : FVec F S50000x32 .f32 := addf (shapeCast _ (extractStridedSlice S1x50000x32 ![0, 0, 0] O slices_S2x50000x32_S1x50000x32_0_0_0) shapeCasts_S1x50000x32_S50000x32) (shapeCast _ (extractStridedSlice S1x50000x32 ![1, 0, 0] O slices_S2x50000x32_S1x50000x32_1_0_0) shapeCasts_S1x50000x32_S50000x32)

/-- squared deviation from the neighbourhood mean -/
def kmid (x : FVec F S50000x32 .f32) (dg : FVec F S50000x1 .f32) (s : FVec F S50000x32 .f32) : FVec F S50000x32 .f32 := mulf (subf x (Host.divf s (broadcastInDim S50000x32 ![0, 1] bcast_S50000x1_S50000x32_0_1 dg))) (subf x (Host.divf s (broadcastInDim S50000x32 ![0, 1] bcast_S50000x1_S50000x32_0_1 dg)))

/-- the normalisation by the square root of the mean squared deviation plus a small constant, and the infinity guard:
    where the quotient is infinite in absolute value the input is returned instead -/
def kfinal (x : FVec F S50000x32 .f32) (dg : FVec F S50000x1 .f32) (s : FVec F S50000x32 .f32) : FVec F S50000x32 .f32 :=
  select (cmpf .oeq (Host.absf (Host.divf (mulf (broadcastInDim S50000x32 ![] bcast_S_S50000x32 (constant S_ .f32 0x3F800000#32)) x) (Host.sqrt (addf (Host.divf s (broadcastInDim S50000x32 ![0, 1] bcast_S50000x1_S50000x32_0_1 dg)) (broadcastInDim S50000x32 ![] bcast_S_S50000x32 (constant S_ .f32 0x2B8CBCCC#32)))))) (broadcastInDim S50000x32 ![] bcast_S_S50000x32 (constant S_ .f32 0x7F800000#32))) x (Host.divf (mulf (broadcastInDim S50000x32 ![] bcast_S_S50000x32 (constant S_ .f32 0x3F800000#32)) x) (Host.sqrt (addf (Host.divf s (broadcastInDim S50000x32 ![0, 1] bcast_S50000x1_S50000x32_0_1 dg)) (broadcastInDim S50000x32 ![] bcast_S_S50000x32 (constant S_ .f32 0x2B8CBCCC#32)))))

/-- region 0's result array -/
abbrev O1 (c : Dev nD) := (dat0 (V1 m ρ) c).arrAt 3 cfg0.N
/-- region 1's result array -/
abbrev O2 (c : Dev nD) := (dat1 (V3 m ρ) c).arrAt 3 cfg1.N

/-- the quotient before the infinity guard: the input over the square root of the mean squared deviation plus a small constant -/
def knorm (x : FVec F S50000x32 .f32) (dg : FVec F S50000x1 .f32) (s : FVec F S50000x32 .f32) : FVec F S50000x32 .f32 :=
  Host.divf (mulf (broadcastInDim S50000x32 ![] bcast_S_S50000x32 (constant S_ .f32 0x3F800000#32)) x) (Host.sqrt (addf (Host.divf s (broadcastInDim S50000x32 ![0, 1] bcast_S50000x1_S50000x32_0_1 dg)) (broadcastInDim S50000x32 ![] bcast_S_S50000x32 (constant S_ .f32 0x2B8CBCCC#32))))

/-- the guarded result is the guard applied to the quotient -/
theorem kfinal_eq (x : FVec F S50000x32 .f32) (dg : FVec F S50000x1 .f32) (s : FVec F S50000x32 .f32) :
    kfinal x dg s = select (cmpf .oeq (Host.absf (knorm x dg s)) (broadcastInDim S50000x32 ![] bcast_S_S50000x32 (constant S_ .f32 0x7F800000#32))) x (knorm x dg s) := rfl

/-! ## Each stretch of host operations, from any contents `W` of the buffers -/

section Stretches
variable (W : Valuation τ sig (Elt F))

theorem host0_v10 : StableHlo.after hostOps0 W (Proc.devRef .tc main_v10) = kdeg (W (Proc.devRef .tc main_arg1)) := by
  after_results
  rfl

theorem host0_v11 : StableHlo.after hostOps0 W (Proc.devRef .tc main_v11) = shapeCast _ (shapeCast _ (extractStridedSlice S1x1600000 ![0, 0] (W (Proc.devRef .tc main_arg1)) slices_S2x1600000_S1x1600000_0_0) shapeCasts_S1x1600000_S1600000) shapeCasts_S1600000_S2x1x800000 := by
  after_results
  rfl

theorem host0_v12 : StableHlo.after hostOps0 W (Proc.devRef .tc main_v12) = shapeCast _ (shapeCast _ (extractStridedSlice S1x1600000 ![1, 0] (W (Proc.devRef .tc main_arg1)) slices_S2x1600000_S1x1600000_1_0) shapeCasts_S1x1600000_S1600000) shapeCasts_S1600000_S2x800000x1 := by
  after_results
  rfl

theorem host0_v13 : StableHlo.after hostOps0 W (Proc.devRef .tc main_v13) = truncf .bf16 (W (Proc.devRef .tc main_arg0)) bitsLt_bf16_f32 := by
  after_results

theorem host0_arg0 : StableHlo.after hostOps0 W (Proc.devRef .tc main_arg0) = W (Proc.devRef .tc main_arg0) := by
  after_results

theorem host1_v24 : StableHlo.after hostOps1 W (Proc.devRef .tc main_v24) = truncf .bf16 (kmid (W (Proc.devRef .tc main_arg0)) (W (Proc.devRef .tc main_v10)) (kpair (W (Proc.devRef .tc main_v14)))) bitsLt_bf16_f32 := by
  after_results
  rfl

theorem host1_arg0 : StableHlo.after hostOps1 W (Proc.devRef .tc main_arg0) = W (Proc.devRef .tc main_arg0) := by
  after_results

theorem host1_v10 : StableHlo.after hostOps1 W (Proc.devRef .tc main_v10) = W (Proc.devRef .tc main_v10) := by
  after_results

theorem host1_v11 : StableHlo.after hostOps1 W (Proc.devRef .tc main_v11) = W (Proc.devRef .tc main_v11) := by
  after_results

theorem host1_v12 : StableHlo.after hostOps1 W (Proc.devRef .tc main_v12) = W (Proc.devRef .tc main_v12) := by
  after_results

theorem host2_v38 : StableHlo.after hostOps2 W (Proc.devRef .tc main_v38) = knorm (W (Proc.devRef .tc main_arg0)) (W (Proc.devRef .tc main_v10)) (kpair (W (Proc.devRef .tc main_v25))) := by
  after_results
  rfl

theorem host2_arg0 : StableHlo.after hostOps2 W (Proc.devRef .tc main_arg0) = W (Proc.devRef .tc main_arg0) := by
  after_results

theorem host2_1_v39 : StableHlo.after hostOps2_1 W (Proc.devRef .tc main_v39) = cmpf .oeq (Host.absf (W (Proc.devRef .tc main_v38))) (broadcastInDim S50000x32 ![] bcast_S_S50000x32 (constant S_ .f32 0x7F800000#32)) := by
  after_results
  rfl

theorem host2_1_v38 : StableHlo.after hostOps2_1 W (Proc.devRef .tc main_v38) = W (Proc.devRef .tc main_v38) := by
  after_results

theorem host2_1_arg0 : StableHlo.after hostOps2_1 W (Proc.devRef .tc main_arg0) = W (Proc.devRef .tc main_arg0) := by
  after_results

theorem host2_2_v40 : StableHlo.after hostOps2_2 W (Proc.devRef .tc main_v40) = select (W (Proc.devRef .tc main_v39)) (W (Proc.devRef .tc main_arg0)) (W (Proc.devRef .tc main_v38)) := by
  after_results
  rfl

end Stretches

/-! ## The buffers read at each boundary of the run -/

theorem W1_arg0 (c : Dev nD) : W1 m ρ c (Proc.devRef .tc main_arg0) = m ((c : Thread nD τ).loc main_arg0) :=
  (host0_arg0 (W0 m ρ c)).trans rfl

theorem W1_v10 (c : Dev nD) : W1 m ρ c (Proc.devRef .tc main_v10) = kdeg (m ((c : Thread nD τ).loc main_arg1)) :=
  (host0_v10 (W0 m ρ c)).trans rfl

theorem V1_v11 (c : Dev nD) : V1 m ρ c main_v11 = shapeCast _ (shapeCast _ (extractStridedSlice S1x1600000 ![0, 0] (m ((c : Thread nD τ).loc main_arg1)) slices_S2x1600000_S1x1600000_0_0) shapeCasts_S1x1600000_S1600000) shapeCasts_S1600000_S2x1x800000 :=
  (host0_v11 (W0 m ρ c)).trans rfl

theorem V1_v12 (c : Dev nD) : V1 m ρ c main_v12 = shapeCast _ (shapeCast _ (extractStridedSlice S1x1600000 ![1, 0] (m ((c : Thread nD τ).loc main_arg1)) slices_S2x1600000_S1x1600000_1_0) shapeCasts_S1x1600000_S1600000) shapeCasts_S1600000_S2x800000x1 :=
  (host0_v12 (W0 m ρ c)).trans rfl

theorem V1_v13 (c : Dev nD) : V1 m ρ c main_v13 = truncf .bf16 (m ((c : Thread nD τ).loc main_arg0)) bitsLt_bf16_f32 :=
  (host0_v13 (W0 m ρ c)).trans rfl

/-- region 0 leaves the input and the degree column as they were, and its result in its own array -/
theorem W2_arg0 (c : Dev nD) : W2 m ρ c (Proc.devRef .tc main_arg0) = m ((c : Thread nD τ).loc main_arg0) :=
  (W2_of_ne m ρ c main_arg0 (by decide)).trans (W1_arg0 m ρ c)

theorem W2_v10 (c : Dev nD) : W2 m ρ c (Proc.devRef .tc main_v10) = kdeg (m ((c : Thread nD τ).loc main_arg1)) :=
  (W2_of_ne m ρ c main_v10 (by decide)).trans (W1_v10 m ρ c)

theorem W2_v14 (c : Dev nD) : W2 m ρ c (Proc.devRef .tc main_v14) = O1 m ρ c := W2_arr m ρ c 3

/-- an array region 0 only reads is what it was when the region was entered -/
theorem W2_v11 (c : Dev nD) : W2 m ρ c (Proc.devRef .tc main_v11) = V1 m ρ c main_v11 :=
  (W2_arr m ρ c 0).trans (((dat0 (V1 m ρ) c).arrAt_in 0 rfl cfg0.N).trans (A_eq0 (V1 m ρ) c 0))

theorem W2_v12 (c : Dev nD) : W2 m ρ c (Proc.devRef .tc main_v12) = V1 m ρ c main_v12 :=
  (W2_arr m ρ c 1).trans (((dat0 (V1 m ρ) c).arrAt_in 1 rfl cfg0.N).trans (A_eq0 (V1 m ρ) c 1))

theorem V3_v11 (c : Dev nD) : V3 m ρ c main_v11 = V1 m ρ c main_v11 :=
  (host1_v11 (W2 m ρ c)).trans (W2_v11 m ρ c)

theorem V3_v12 (c : Dev nD) : V3 m ρ c main_v12 = V1 m ρ c main_v12 :=
  (host1_v12 (W2 m ρ c)).trans (W2_v12 m ρ c)

theorem V3_v24 (c : Dev nD) : V3 m ρ c main_v24 = truncf .bf16 (kmid (m ((c : Thread nD τ).loc main_arg0)) (kdeg (m ((c : Thread nD τ).loc main_arg1))) (kpair (O1 m ρ c))) bitsLt_bf16_f32 := by
  refine (host1_v24 (W2 m ρ c)).trans ?_
  rw [W2_arg0, W2_v10, W2_v14]

theorem W3_arg0 (c : Dev nD) : W3 m ρ c (Proc.devRef .tc main_arg0) = m ((c : Thread nD τ).loc main_arg0) :=
  (host1_arg0 (W2 m ρ c)).trans (W2_arg0 m ρ c)

theorem W3_v10 (c : Dev nD) : W3 m ρ c (Proc.devRef .tc main_v10) = kdeg (m ((c : Thread nD τ).loc main_arg1)) :=
  (host1_v10 (W2 m ρ c)).trans (W2_v10 m ρ c)

theorem W4_arg0 (c : Dev nD) : W4 m ρ c (Proc.devRef .tc main_arg0) = m ((c : Thread nD τ).loc main_arg0) :=
  (W4_of_ne m ρ c main_arg0 (by decide)).trans (W3_arg0 m ρ c)

theorem W4_v10 (c : Dev nD) : W4 m ρ c (Proc.devRef .tc main_v10) = kdeg (m ((c : Thread nD τ).loc main_arg1)) :=
  (W4_of_ne m ρ c main_v10 (by decide)).trans (W3_v10 m ρ c)

theorem W4_v25 (c : Dev nD) : W4 m ρ c (Proc.devRef .tc main_v25) = O2 m ρ c := W4_arr m ρ c 3

theorem W5_v38 (c : Dev nD) : W5 m ρ c (Proc.devRef .tc main_v38) = knorm (m ((c : Thread nD τ).loc main_arg0)) (kdeg (m ((c : Thread nD τ).loc main_arg1))) (kpair (O2 m ρ c)) := by
  refine (host2_v38 (W4 m ρ c)).trans ?_
  rw [W4_arg0, W4_v10, W4_v25]

theorem W5_arg0 (c : Dev nD) : W5 m ρ c (Proc.devRef .tc main_arg0) = m ((c : Thread nD τ).loc main_arg0) :=
  (host2_arg0 (W4 m ρ c)).trans (W4_arg0 m ρ c)

theorem W6_v38 (c : Dev nD) : W6 m ρ c (Proc.devRef .tc main_v38) = knorm (m ((c : Thread nD τ).loc main_arg0)) (kdeg (m ((c : Thread nD τ).loc main_arg1))) (kpair (O2 m ρ c)) :=
  (host2_1_v38 (W5 m ρ c)).trans (W5_v38 m ρ c)

theorem W6_arg0 (c : Dev nD) : W6 m ρ c (Proc.devRef .tc main_arg0) = m ((c : Thread nD τ).loc main_arg0) :=
  (host2_1_arg0 (W5 m ρ c)).trans (W5_arg0 m ρ c)

theorem W6_v39 (c : Dev nD) : W6 m ρ c (Proc.devRef .tc main_v39) = cmpf .oeq (Host.absf (knorm (m ((c : Thread nD τ).loc main_arg0)) (kdeg (m ((c : Thread nD τ).loc main_arg1))) (kpair (O2 m ρ c)))) (broadcastInDim S50000x32 ![] bcast_S_S50000x32 (constant S_ .f32 0x7F800000#32)) := by
  refine (host2_1_v39 (W5 m ρ c)).trans ?_
  rw [W5_v38]

theorem W7_v40 (c : Dev nD) : W7 m ρ c (Proc.devRef .tc main_v40) = kfinal (m ((c : Thread nD τ).loc main_arg0)) (kdeg (m ((c : Thread nD τ).loc main_arg1))) (kpair (O2 m ρ c)) := by
  refine (host2_2_v40 (W6 m ρ c)).trans ?_
  rw [kfinal_eq, W6_v39, W6_arg0, W6_v38]

/-! ## The layout operations read at an index -/

theorem v11_apply (E : IVec S2x1600000 32) (h : Fin 2) (e : Fin 800000) : (shapeCast _ (shapeCast _ (extractStridedSlice S1x1600000 ![0, 0] E slices_S2x1600000_S1x1600000_0_0) shapeCasts_S1x1600000_S1600000) shapeCasts_S1600000_S2x1x800000 : IVec S2x1x800000 32) (ix3 h (0 : Fin 1) e) = E (ix2 (0 : Fin 2) (⟨800000 * h.val + e.val, by have := h.isLt; have := e.isLt; omega⟩ : Fin 1600000)) := by
  have hh := h.isLt
  have he := e.isLt
  refine (shapeCast_apply _ shapeCasts_S1600000_S2x1x800000 (ix3 h (0 : Fin 1) e) (ix1 (⟨800000 * h.val + e.val, by omega⟩ : Fin 1600000)) ?_).trans ?_
  · rewrite [Shape.rowMajor_val_one, Shape.rowMajor_val_three]
    show 800000 * h.val + e.val = (h.val * 1 + 0) * 800000 + e.val
    omega
  refine (shapeCast_apply _ shapeCasts_S1x1600000_S1600000 (ix1 (⟨800000 * h.val + e.val, by omega⟩ : Fin 1600000)) (ix2 (0 : Fin 1) (⟨800000 * h.val + e.val, by omega⟩ : Fin 1600000)) ?_).trans ?_
  · rewrite [Shape.rowMajor_val_two, Shape.rowMajor_val_one]
    show 0 * 1600000 + (800000 * h.val + e.val) = 800000 * h.val + e.val
    omega
  exact extractStridedSlice_apply ![0, 0] E slices_S2x1600000_S1x1600000_0_0 (ix2 (0 : Fin 1) (⟨800000 * h.val + e.val, by omega⟩ : Fin 1600000)) (ix2 (0 : Fin 2) (⟨800000 * h.val + e.val, by omega⟩ : Fin 1600000)) (fun a => match a with
    | ⟨0, _⟩ => by show 0 = 0 + 0; omega
    | ⟨1, _⟩ => by show 800000 * h.val + e.val = 0 + (800000 * h.val + e.val); omega)

theorem v12_apply (E : IVec S2x1600000 32) (h : Fin 2) (e : Fin 800000) : (shapeCast _ (shapeCast _ (extractStridedSlice S1x1600000 ![1, 0] E slices_S2x1600000_S1x1600000_1_0) shapeCasts_S1x1600000_S1600000) shapeCasts_S1600000_S2x800000x1 : IVec S2x800000x1 32) (ix3 h e (0 : Fin 1)) = E (ix2 (1 : Fin 2) (⟨800000 * h.val + e.val, by have := h.isLt; have := e.isLt; omega⟩ : Fin 1600000)) := by
  have hh := h.isLt
  have he := e.isLt
  refine (shapeCast_apply _ shapeCasts_S1600000_S2x800000x1 (ix3 h e (0 : Fin 1)) (ix1 (⟨800000 * h.val + e.val, by omega⟩ : Fin 1600000)) ?_).trans ?_
  · rewrite [Shape.rowMajor_val_one, Shape.rowMajor_val_three]
    show 800000 * h.val + e.val = (h.val * 800000 + e.val) * 1 + 0
    omega
  refine (shapeCast_apply _ shapeCasts_S1x1600000_S1600000 (ix1 (⟨800000 * h.val + e.val, by omega⟩ : Fin 1600000)) (ix2 (0 : Fin 1) (⟨800000 * h.val + e.val, by omega⟩ : Fin 1600000)) ?_).trans ?_
  · rewrite [Shape.rowMajor_val_two, Shape.rowMajor_val_one]
    show 0 * 1600000 + (800000 * h.val + e.val) = 800000 * h.val + e.val
    omega
  exact extractStridedSlice_apply ![1, 0] E slices_S2x1600000_S1x1600000_1_0 (ix2 (0 : Fin 1) (⟨800000 * h.val + e.val, by omega⟩ : Fin 1600000)) (ix2 (1 : Fin 2) (⟨800000 * h.val + e.val, by omega⟩ : Fin 1600000)) (fun a => match a with
    | ⟨0, _⟩ => by show 1 = 1 + 0; omega
    | ⟨1, _⟩ => by show 800000 * h.val + e.val = 0 + (800000 * h.val + e.val); omega)

/-- one half of a two-part array, at a row and a column -/
theorem half_apply (O : FVec Ideal S2x50000x32 .f32) (n : Fin 50000) (d : Fin 32) :
    (shapeCast S50000x32 (extractStridedSlice S1x50000x32 ![0, 0, 0] O slices_S2x50000x32_S1x50000x32_0_0_0) shapeCasts_S1x50000x32_S50000x32) (ix2 n d) = O (ix3 (0 : Fin 2) n d)
    ∧ (shapeCast S50000x32 (extractStridedSlice S1x50000x32 ![1, 0, 0] O slices_S2x50000x32_S1x50000x32_1_0_0) shapeCasts_S1x50000x32_S50000x32) (ix2 n d) = O (ix3 (1 : Fin 2) n d) := by
  constructor
  · refine (shapeCast_apply _ shapeCasts_S1x50000x32_S50000x32 (ix2 n d) (ix3 (0 : Fin 1) n d) ?_).trans ?_
    · rewrite [Shape.rowMajor_val_three, Shape.rowMajor_val_two]
      show (0 * 50000 + n.val) * 32 + d.val = n.val * 32 + d.val
      omega
    exact extractStridedSlice_apply ![0, 0, 0] O slices_S2x50000x32_S1x50000x32_0_0_0 (ix3 (0 : Fin 1) n d) (ix3 (0 : Fin 2) n d) (fun a => match a with
      | ⟨0, _⟩ => by show 0 = 0 + 0; omega
      | ⟨1, _⟩ => by show n.val = 0 + n.val; omega
      | ⟨2, _⟩ => by show d.val = 0 + d.val; omega)
  · refine (shapeCast_apply _ shapeCasts_S1x50000x32_S50000x32 (ix2 n d) (ix3 (0 : Fin 1) n d) ?_).trans ?_
    · rewrite [Shape.rowMajor_val_three, Shape.rowMajor_val_two]
      show (0 * 50000 + n.val) * 32 + d.val = n.val * 32 + d.val
      omega
    exact extractStridedSlice_apply ![1, 0, 0] O slices_S2x50000x32_S1x50000x32_1_0_0 (ix3 (0 : Fin 1) n d) (ix3 (1 : Fin 2) n d) (fun a => match a with
      | ⟨0, _⟩ => by show 1 = 1 + 0; omega
      | ⟨1, _⟩ => by show n.val = 0 + n.val; omega
      | ⟨2, _⟩ => by show d.val = 0 + d.val; omega)

theorem kpair_apply (O : FVec Ideal S2x50000x32 .f32) (n : Fin 50000) (d : Fin 32) : kpair (F := Ideal) O (ix2 n d) = O (ix3 (0 : Fin 2) n d) + O (ix3 (1 : Fin 2) n d) := by
  unfold kpair
  rw [addf_apply, (half_apply O n d).1, (half_apply O n d).2]

end Cert.KernelIdeal.KHost
-- ==== Proof.Spec.lean ====
/-
  The neighbourhood sum both programs compute twice: at node `n` and feature `d`, the sum, over the edges whose
  target word reads (signed) as `n`, of the table's entry at the edge's source row and column `d`. The source
  row is the edge's source word read signed and clamped into the table, the way a row lookup reads it; a
  target word that names no node contributes to no sum.
-/
import Idealize.ShloMosaic.Lib.ValueIdx
import Idealize.ShloMosaic.PureOps.Ideal
import proofs.«407926_j28819230556490_3_alg».proof.Proof.Algebra

noncomputable section

namespace Cert.NbrNorm

open Idealize.ShloMosaic Idealize.ShloMosaic.ValueIdx

/-- The neighbourhood sum of the table `X` over the edge list `E` (row 0: target words, row 1: source words). -/
def segSum (E : IVec ⟨2, ![2, 1600000]⟩ 32) (X : FVec Ideal ⟨2, ![50000, 32]⟩ .f32) : FVec Ideal ⟨2, ![50000, 32]⟩ .f32 :=
  fun y => ∑ e ∈ Finset.univ.filter (fun e : Fin 1600000 => (E (ix2 (0 : Fin 2) e)).toInt = ((y 0).val : ℤ)),
    X (ix2 (⟨min (E (ix2 (1 : Fin 2) e)).toInt.toNat 49999, by omega⟩ : Fin 50000) (y 1))

end Cert.NbrNorm

end
-- ==== Proof.KValue.lean ====
/-
  The kernel program's result as a function of its two arguments.

  Each launch leaves, in its [2, 50000, 32] result, the two halves of the neighbourhood sum of the table it was
  given: half h sums over the edges 800000 h .. 800000 h + 799999. The host adds the halves, so the pair is the
  neighbourhood sum over all 1600000 edges: a sum of [target word of e is node n] times the source row of e is the
  sum over the edges whose target is n. The first launch's table is the input x; the second's is the squared
  deviation of x from the first sum divided by the degree. The result is the host tail applied to the second sum.
-/
import proofs.«407926_j28819230556490_3_alg».proof.Proof.Points0
import proofs.«407926_j28819230556490_3_alg».proof.Proof.Points1
import proofs.«407926_j28819230556490_3_alg».proof.Proof.KHost
import proofs.«407926_j28819230556490_3_alg».proof.Proof.Spec
import proofs.«407926_j28819230556490_3_alg».proof.Proof.Algebra

set_option maxRecDepth 16384

noncomputable section

namespace Cert.KernelIdeal.KValue

open Cert.KernelIdeal Cert.KernelIdeal.Gen Cert.KernelIdeal.KHost Cert.NbrNorm
open Idealize.ShloMosaic Idealize.ShloMosaic.TcCoe Idealize.ShloMosaic.ValueIdx Idealize.SL.Sem

/-- Edge e' of half h is edge 800000 h + e'. -/
abbrev edge (h : Fin 2) (e : Fin 800000) : Fin 1600000 := ⟨800000 * h.val + e.val, by have := h.isLt; have := e.isLt; omega⟩

/-- The two halves added are the neighbourhood sum, when each half holds its edges' terms. -/
theorem pair_eq_segSum (O : FVec Ideal S2x50000x32 .f32) (Etab : IVec S2x1600000 32) (X : FVec Ideal S50000x32 .f32)
    (hO : ∀ (h : Fin 2) (n : Fin 50000) (d : Fin 32), O (ix3 h n d)
      = ∑ e : Fin 800000, hot (BitVec.ofNat 32 n.val) (Etab (ix2 (0 : Fin 2) (edge h e)))
          * X (ix2 (Points0.srcRow (Etab (ix2 (1 : Fin 2) (edge h e)))) d)) :
    kpair (F := Ideal) O = segSum Etab X := by
  funext y
  obtain ⟨n, d, rfl⟩ : ∃ (n : Fin 50000) (d : Fin 32), y = ix2 n d := ⟨y 0, y 1, eq_ix2 y⟩
  rw [kpair_apply, hO, hO]
  have hsum := sum_blocks (M := EReal) 2 800000 (fun e : Fin (2 * 800000) =>
    hot (BitVec.ofNat 32 n.val) (Etab (ix2 (0 : Fin 2) (⟨e.val, e.isLt⟩ : Fin 1600000)))
      * X (ix2 (Points0.srcRow (Etab (ix2 (1 : Fin 2) (⟨e.val, e.isLt⟩ : Fin 1600000)))) d))
  rw [Fin.sum_univ_two] at hsum
  refine hsum.trans ?_
  have hn : n.val < 2 ^ 31 := by have := n.isLt; omega
  have hf := sum_hot_filter n.val hn (fun e : Fin 1600000 => Etab (ix2 (0 : Fin 2) e))
    (fun e : Fin 1600000 => X (ix2 (Points0.srcRow (Etab (ix2 (1 : Fin 2) e))) d))
  exact (Fintype.sum_equiv (finCongr (by norm_num)) _ _ (fun e => rfl)).trans hf

/-- The target words laid out for the launches: [2, 1, 800000]. -/
abbrev tgtArr (E : IVec S2x1600000 32) : IVec S2x1x800000 32 :=
  shapeCast _ (shapeCast _ (extractStridedSlice S1x1600000 ![0, 0] E slices_S2x1600000_S1x1600000_0_0) shapeCasts_S1x1600000_S1600000) shapeCasts_S1600000_S2x1x800000
/-- The source words laid out for the launches: [2, 800000, 1]. -/
abbrev srcArr (E : IVec S2x1600000 32) : IVec S2x800000x1 32 :=
  shapeCast _ (shapeCast _ (extractStridedSlice S1x1600000 ![1, 0] E slices_S2x1600000_S1x1600000_1_0) shapeCasts_S1x1600000_S1600000) shapeCasts_S1600000_S2x800000x1

theorem tgtArr_apply (E : IVec S2x1600000 32) (h : Fin 2) (e : Fin 800000) :
    tgtArr E (ix3 h (0 : Fin 1) e) = E (ix2 (0 : Fin 2) (edge h e)) := v11_apply E h e
theorem srcArr_apply (E : IVec S2x1600000 32) (h : Fin 2) (e : Fin 800000) :
    srcArr E (ix3 h e (0 : Fin 1)) = E (ix2 (1 : Fin 2) (edge h e)) := v12_apply E h e

section Regions

variable (V : (c : Dev nD) → (b : Ref sig .tc) → Buf (Elt Ideal) ((c : Thread nD τ).loc b)) (c : Dev nD)
  (E : IVec S2x1600000 32) (X : FVec Ideal S50000x32 .f32)
  (hJ : ∀ e : Fin 1600000, 0 ≤ (E (ix2 (1 : Fin 2) e)).toInt ∧ (E (ix2 (1 : Fin 2) e)).toInt < 50000)

include hJ in
/-- The first launch at entry contents holding the edge words and the table `X`: half h of its result holds the
    terms of the edges of half h. -/
theorem region0_terms (h11 : V c main_v11 = tgtArr E) (h12 : V c main_v12 = srcArr E)
    (h13 : V c main_v13 = truncf .bf16 X bitsLt_bf16_f32) (h : Fin 2) (n : Fin 50000) (d : Fin 32) :
    (dat0 V c).arrAt 3 cfg0.N (ix3 h n d)
      = ∑ e : Fin 800000, hot (BitVec.ofNat 32 n.val) (E (ix2 (0 : Fin 2) (edge h e)))
          * X (ix2 (Points0.srcRow (E (ix2 (1 : Fin 2) (edge h e)))) d) := by
  have e0 : Points0.A0 V c = tgtArr E := h11
  have e1 : Points0.A1 V c = srcArr E := h12
  have e2 : Points0.A2 V c = truncf .bf16 X bitsLt_bf16_f32 := h13
  have hJ' : ∀ (h : Fin 2) (e : Fin 800000), 0 ≤ (Points0.A1 V c (ix3 h e (0 : Fin 1))).toInt
      ∧ (Points0.A1 V c (ix3 h e (0 : Fin 1))).toInt < 50000 := by
    intro h e
    rw [e1, srcArr_apply]
    exact hJ _
  rw [Points0.region_value V c hJ' h n d]
  refine Finset.sum_congr (M := EReal) rfl (fun e _ => ?_)
  rw [e0, e1, e2, tgtArr_apply, srcArr_apply]
  rfl

include hJ in
/-- The same for the second launch. -/
theorem region1_terms (h11 : V c main_v11 = tgtArr E) (h12 : V c main_v12 = srcArr E)
    (h24 : V c main_v24 = truncf .bf16 X bitsLt_bf16_f32) (h : Fin 2) (n : Fin 50000) (d : Fin 32) :
    (dat1 V c).arrAt 3 cfg1.N (ix3 h n d)
      = ∑ e : Fin 800000, hot (BitVec.ofNat 32 n.val) (E (ix2 (0 : Fin 2) (edge h e)))
          * X (ix2 (Points0.srcRow (E (ix2 (1 : Fin 2) (edge h e)))) d) := by
  have e0 : Points1.A0 V c = tgtArr E := h11
  have e1 : Points1.A1 V c = srcArr E := h12
  have e2 : Points1.A2 V c = truncf .bf16 X bitsLt_bf16_f32 := h24
  have hJ' : ∀ (h : Fin 2) (e : Fin 800000), 0 ≤ (Points1.A1 V c (ix3 h e (0 : Fin 1))).toInt
      ∧ (Points1.A1 V c (ix3 h e (0 : Fin 1))).toInt < 50000 := by
    intro h e
    rw [e1, srcArr_apply]
    exact hJ _
  rw [Points1.region_value V c hJ' h n d]
  refine Finset.sum_congr (M := EReal) rfl (fun e _ => ?_)
  rw [e0, e1, e2, tgtArr_apply, srcArr_apply]
  rfl

end Regions

section Run

variable (m : (ℓ : Loc nD τ sig) → Buf (Elt Ideal) ℓ) (ρ : Dev nD → PrngReg) (c : Dev nD)
  (hJ : ∀ e : Fin 1600000, 0 ≤ ((m ((c : Thread nD τ).loc main_arg1)) (ix2 (1 : Fin 2) e)).toInt
      ∧ ((m ((c : Thread nD τ).loc main_arg1)) (ix2 (1 : Fin 2) e)).toInt < 50000)

include hJ in
/-- The first launch: the halves of the neighbourhood sum of x. -/
theorem pair1 : kpair (F := Ideal) (O1 m ρ c) = segSum (m ((c : Thread nD τ).loc main_arg1)) (m ((c : Thread nD τ).loc main_arg0)) :=
  pair_eq_segSum (O1 m ρ c) (m ((c : Thread nD τ).loc main_arg1)) (m ((c : Thread nD τ).loc main_arg0))
    (region0_terms (V1 m ρ) c (m ((c : Thread nD τ).loc main_arg1)) (m ((c : Thread nD τ).loc main_arg0)) hJ
      (V1_v11 m ρ c) (V1_v12 m ρ c) (V1_v13 m ρ c))

include hJ in
/-- The second launch: the halves of the neighbourhood sum of the squared deviations. -/
theorem pair2 : kpair (F := Ideal) (O2 m ρ c)
    = segSum (m ((c : Thread nD τ).loc main_arg1))
        (kmid (m ((c : Thread nD τ).loc main_arg0)) (kdeg (m ((c : Thread nD τ).loc main_arg1))) (kpair (O1 m ρ c))) :=
  pair_eq_segSum (O2 m ρ c) (m ((c : Thread nD τ).loc main_arg1))
    (kmid (m ((c : Thread nD τ).loc main_arg0)) (kdeg (m ((c : Thread nD τ).loc main_arg1))) (kpair (O1 m ρ c)))
    (region1_terms (V3 m ρ) c (m ((c : Thread nD τ).loc main_arg1))
      (kmid (m ((c : Thread nD τ).loc main_arg0)) (kdeg (m ((c : Thread nD τ).loc main_arg1))) (kpair (O1 m ρ c))) hJ
      ((V3_v11 m ρ c).trans (V1_v11 m ρ c)) ((V3_v12 m ρ c).trans (V1_v12 m ρ c)) (V3_v24 m ρ c))

include hJ in
/-- THE KERNEL PROGRAM'S RESULT. -/
theorem result_eq : W7 m ρ c (Proc.devRef .tc main_v40)
    = kfinal (m ((c : Thread nD τ).loc main_arg0)) (kdeg (m ((c : Thread nD τ).loc main_arg1)))
        (segSum (m ((c : Thread nD τ).loc main_arg1))
          (kmid (m ((c : Thread nD τ).loc main_arg0)) (kdeg (m ((c : Thread nD τ).loc main_arg1)))
            (segSum (m ((c : Thread nD τ).loc main_arg1)) (m ((c : Thread nD τ).loc main_arg0))))) := by
  rw [W7_v40, pair2 m ρ c hJ, pair1 m ρ c hJ]

end Run

end Cert.KernelIdeal.KValue

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.RefSeg.lean ====
/-
  On the reference's side, the two accumulating scatters of looked-up rows are the neighbourhood sum.

  The reference lays the target words out as a column, wraps a negative source word by the table's height, looks the
  table's rows up at the wrapped source words, and scatters the looked-up rows, adding, into a zero table at the target
  words. Read at node `n` and feature `k` this is `0` plus the sum, over the edges whose target word reads as `n`, of
  the table at the edge's source row and column `k`. When every source word lies in `[0, 50000)` the wrap leaves it as
  it is, so the row is the one the neighbourhood sum names. Both of the reference's scatters are instances of this one
  statement, over the input table and over the table of squared deviations.
-/
import proofs.«407926_j28819230556490_3_alg».proof.Proof.Gen.ReferenceIdeal.Read
import proofs.«407926_j28819230556490_3_alg».proof.Proof.LibIndexed
import proofs.«407926_j28819230556490_3_alg».proof.Proof.Spec
import Idealize.ShloMosaic.Lib.StableHlo.Predicate

noncomputable section

namespace Cert.ReferenceIdeal.RefSeg

open Cert.ReferenceIdeal Cert.ReferenceIdeal.Gen Cert.ReferenceIdeal.Read Idealize.ShloMosaic Idealize.ShloMosaic.ValueIdx

/-- The neighbourhood sum read at `(n, k)`. -/
theorem segSum_apply (E : IVec S2x1600000 32) (X : FVec Ideal S50000x32 .f32) (n : Fin 50000) (k : Fin 32) :
    Cert.NbrNorm.segSum E X (ix2 n k)
      = ∑ e ∈ Finset.univ.filter (fun e : Fin 1600000 => (E (ix2 (0 : Fin 2) e)).toInt = (n.val : ℤ)),
          X (ix2 (⟨min (E (ix2 (1 : Fin 2) e)).toInt.toNat 49999, by omega⟩ : Fin 50000) k) := rfl

/-- The target column at `(e, 0)` is the edge list's row 0 at `e`: a slice of row 0, flattened, laid as a column. -/
theorem tgt_col (E : IVec S2x1600000 32) (e : Fin 1600000) :
    val_main_v19 (F := Ideal) E (ix2 e (0 : Fin 1)) = E (ix2 (0 : Fin 2) e) := by
  rw [val_main_v19_apply, val_main_v1_apply, val_main_v0_apply]
  congr 1
  funext a
  refine Fin.ext ?_
  match a with
  | ⟨0, _⟩ => rfl
  | ⟨1, _⟩ => exact Nat.mod_eq_of_lt e.isLt

/-- The flattened source words at `e` are the edge list's row 1 at `e`. -/
theorem src_vec (E : IVec S2x1600000 32) (i : S1600000.Idx) :
    val_main_v3 (F := Ideal) E i = E (ix2 (1 : Fin 2) (i 0)) := by
  rw [val_main_v3_apply, val_main_v2_apply]
  congr 1
  funext a
  refine Fin.ext ?_
  match a with
  | ⟨0, _⟩ => rfl
  | ⟨1, _⟩ => exact Nat.mod_eq_of_lt (i 0).isLt

/-- A word that reads signed as a non-negative number is not below the zero word in the signed order. -/
theorem slt_zero_of_nonneg (w : BitVec 32) (h : 0 ≤ w.toInt) : IntOp.cmpi .slt w 0#32 = 0#1 := by
  refine eq_zero_of_ne_one (fun h1 => ?_)
  unfold IntOp.cmpi at h1
  rw [StableHlo.Predicate.ofBool_eq_one_iff] at h1
  have h0 : (0#32 : BitVec 32).toInt = 0 := by decide
  simp only [BitVec.slt, h0, decide_eq_true_eq] at h1
  omega

/-- The wrapped source column at `(e, 0)`: a source word that is not negative is left as it is. -/
theorem src_col (E : IVec S2x1600000 32) (e : Fin 1600000) (h : 0 ≤ (E (ix2 (1 : Fin 2) e)).toInt) :
    val_main_v16 (F := Ideal) E (ix2 e (0 : Fin 1)) = E (ix2 (1 : Fin 2) e) := by
  rw [val_main_v16_apply, val_main_v15_apply, val_main_v12_apply, src_vec, val_main_v11_apply, val_main_c_apply]
  show Scalar.select (IntOp.cmpi .slt (E (ix2 (1 : Fin 2) e)) 0#32) _ (E (ix2 (1 : Fin 2) e)) = _
  rw [slt_zero_of_nonneg _ h, select_zero]

/-- THE SCATTER OF LOOKED-UP ROWS IS THE NEIGHBOURHOOD SUM, over any table `X`. -/
theorem scatter_gather_eq_segSum (X : FVec Ideal S50000x32 .f32) (E : IVec S2x1600000 32)
    (hJ : ∀ e : Fin 1600000, 0 ≤ (E (ix2 (1 : Fin 2) e)).toInt ∧ (E (ix2 (1 : Fin 2) e)).toInt < 50000) :
    Host.scatterAdd (F := Ideal) scatter_S50000x32_S1600000x1_S1600000x32_1_0_0_1 (val_main_v18 (F := Ideal))
        (val_main_v19 (F := Ideal) E)
        (Host.gather gather_S50000x32_S1600000x1_S1600000x32_1_0_n_n_0_1_132 X (val_main_v16 (F := Ideal) E))
      = Cert.NbrNorm.segSum E X := by
  funext y
  obtain ⟨n, k, rfl⟩ : ∃ (n : Fin 50000) (k : Fin 32), y = ix2 n k := ⟨y 0, y 1, eq_ix2 y⟩
  rw [segSum_apply,
    Cert.Rgcn.Lib.scatterAdd_rows_apply scatter_S50000x32_S1600000x1_S1600000x32_1_0_0_1
      scatter_S50000x32_S1600000x1_S1600000x32_1_0_0_1.wf rfl,
    val_main_v18_apply, val_main_cst_3_apply]
  -- the operand is the zero table
  show Ideal.ofBits .f32 0x00000000#32 + _ = _
  rw [Ideal.ofBits_zero_f32, zero_add]
  -- the same edges are summed over, and each summand is the same entry of the table
  refine Finset.sum_congr (Finset.filter_congr (fun e _ => by rw [tgt_col])) (fun e _ => ?_)
  rw [Cert.Rgcn.Lib.gather_rows_apply (by decide) gather_S50000x32_S1600000x1_S1600000x32_1_0_n_n_0_1_132
      gather_S50000x32_S1600000x1_S1600000x32_1_0_n_n_0_1_132.wf rfl]
  -- the looked-up row is named by the wrapped source word, which is the source word itself
  refine congrArg X (congrArg (fun r : Fin 50000 => ix2 r k) (Fin.ext ?_))
  show min (val_main_v16 (F := Ideal) E (ix2 e (0 : Fin 1))).toInt.toNat (50000 - 1)
    = min (E (ix2 (1 : Fin 2) e)).toInt.toNat 49999
  rw [src_col E e (hJ e).1]

/-- The reference's first scatter is the neighbourhood sum of the input table. -/
theorem seg1 (x0 : FVec Ideal S50000x32 .f32) (E : IVec S2x1600000 32)
    (hJ : ∀ e : Fin 1600000, 0 ≤ (E (ix2 (1 : Fin 2) e)).toInt ∧ (E (ix2 (1 : Fin 2) e)).toInt < 50000) :
    val_main_v20 (F := Ideal) x0 E = Cert.NbrNorm.segSum E x0 :=
  scatter_gather_eq_segSum x0 E hJ

/-- The reference's second scatter is the neighbourhood sum of the table of squared deviations. -/
theorem seg2 (x0 : FVec Ideal S50000x32 .f32) (E : IVec S2x1600000 32)
    (hJ : ∀ e : Fin 1600000, 0 ≤ (E (ix2 (1 : Fin 2) e)).toInt ∧ (E (ix2 (1 : Fin 2) e)).toInt < 50000) :
    val_main_v34 (F := Ideal) x0 E = Cert.NbrNorm.segSum E (val_main_v24 (F := Ideal) x0 E) :=
  scatter_gather_eq_segSum (val_main_v24 (F := Ideal) x0 E) E hJ

end Cert.ReferenceIdeal.RefSeg

end
-- ==== Proof.PreDecode.lean ====
/-
  Reading the precondition: when it holds, every source word of the edge table reads, signed, as a node number.

  The precondition is the conjunction of "every entry of x is finite" and "every entry of row 1 of the edge table is
  at least 0 and below 50000", each an all-reduction of a mask by `and`. A conjunction equal to the bit 1 has both
  conjuncts 1; an all-reduction equal to 1 has every mask bit 1; and a mask bit is the `and` of the two signed
  comparisons of the word against 0 and 50000.
-/
import proofs.«407926_j28819230556490_3_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value
noncomputable section
namespace Cert.Pre_finite_inputs.Decode
open Cert.Pre_finite_inputs Idealize.ShloMosaic Idealize.ShloMosaic.ValueIdx

/-- The scalar shape has exactly one index. -/
instance : Subsingleton S_.Idx := ⟨fun _ _ => funext fun d => d.elim0⟩

/-- Row 1 of the edge table read through the slice `[1:2, 0:1600000]`: column `e` of the slice is entry `(1, e)`. -/
theorem slice_row1 (E : IVec S2x1600000 32) (hs : S2x1600000.Slices ![1, 0] S1x1600000) (e : Fin 1600000) :
    extractStridedSlice S1x1600000 ![1, 0] E hs (ix2 (0 : Fin 1) e) = E (ix2 (1 : Fin 2) e) := by
  refine extractStridedSlice_apply _ E hs _ _ fun a => ?_
  match a with
  | ⟨0, _⟩ => rfl
  | ⟨1, _⟩ => show e.val = 0 + e.val; omega

/-- A scalar constant broadcast over the sliced row reads the constant at every column. -/
theorem bcast_const (hb : S_.BroadcastsInDim S1x1600000 (![] : Fin 0 → Fin S1x1600000.rank)) (c : BitVec 32)
    (j : S1x1600000.Idx) : broadcastInDim S1x1600000 ![] hb (constantI S_ 32 c) j = c := rfl

/-- The precondition holding says every source index `E[1, e]` lies in `[0, 50000)`. The printed predicate is the
    conjunction of two `all`s; its second conjunct is the reduction by `and` of the mask
    `(0 ≤ E[1, ·]) ∧ (E[1, ·] < 50000)` over the whole sliced row, so the mask is 1 at every column, and the two
    signed comparisons read back as order facts on the signed values. -/
theorem src_in_range {F : FTy → Type} [FloatOps F] (x : FVec F S50000x32 .f32) (E : IVec S2x1600000 32)
    (h : Cert.Pre_finite_inputs.fn (F := F) x E = fun _ => 1#1) :
    ∀ e : Fin 1600000, 0 ≤ (E (ix2 (1 : Fin 2) e)).toInt ∧ (E (ix2 (1 : Fin 2) e)).toInt < 50000 := by
  intro e
  have h0 := congrFun h ValueIdx.ix0
  dsimp only [fn] at h0
  -- the outer conjunction: its second half is the reduction over the sliced row
  have hall := (IntOp.andi_eq_one.1 h0).2
  -- a reduction by `and` over every axis that is 1 had a 1 at every column
  have hm := Host.reduce_andi_all _ _ _ _ _ hall (ix2 (0 : Fin 1) e)
  obtain ⟨hge, hlt⟩ := IntOp.andi_eq_one.1 hm
  have hge' := IntOp.cmpi_sge.1 hge
  have hlt' := IntOp.cmpi_slt.1 hlt
  rw [slice_row1, bcast_const] at hge' hlt'
  have z0 : (0#32 : BitVec 32).toInt = 0 := by decide
  have z1 : (50000#32 : BitVec 32).toInt = 50000 := by decide
  rw [z0] at hge'
  rw [z1] at hlt'
  exact ⟨hge', hlt'⟩

end Cert.Pre_finite_inputs.Decode
-- ==== Proof.lean ====
/-
  Neighbourhood normalisation on a graph: out = x / sqrt(var + eps), where var is the mean, over a node's
  incoming edges, of the squared deviation of the source rows from the neighbourhood mean of x (degree clamped
  to 1), and infinities are replaced by x.

  The kernel program computes each of the two neighbourhood sums by a launch that builds one-hot matrices of the
  edge words against the node numbers and multiplies: a gather of source rows, then a scatter into target rows,
  block by block over the edges; the reference computes them by a row lookup followed by an accumulating
  scatter. At the exact values both are the sum, over the edges whose target word is the node, of the source
  row — provided every source word names a node, which is the added precondition (the reference's lookup indexes
  out of range otherwise, and clamps, where the one-hot product yields zero). Everything after the sums is the
  same chain of host operations in both programs.
-/
import proofs.«407926_j28819230556490_3_alg».proof.Defs
import proofs.«407926_j28819230556490_3_alg».proof.Proof.Gen.Kernel
import proofs.«407926_j28819230556490_3_alg».proof.Proof.Gen.Kernel.Frame
import proofs.«407926_j28819230556490_3_alg».proof.Proof.Gen.KernelIdeal
import proofs.«407926_j28819230556490_3_alg».proof.Proof.Gen.KernelIdeal.Frame
import proofs.«407926_j28819230556490_3_alg».proof.Proof.Gen.ReferenceIdeal
import proofs.«407926_j28819230556490_3_alg».proof.Proof.Gen.ReferenceIdeal.Run
import proofs.«407926_j28819230556490_3_alg».proof.Proof.Gen.ReferenceIdeal.Read
import proofs.«407926_j28819230556490_3_alg».proof.Proof.Gen.Pre_finite_inputs
import proofs.«407926_j28819230556490_3_alg».proof.Proof.KRun
import proofs.«407926_j28819230556490_3_alg».proof.Proof.KValue
import proofs.«407926_j28819230556490_3_alg».proof.Proof.RefSeg
import proofs.«407926_j28819230556490_3_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The reference's result is the shared host tail applied to the second neighbourhood sum. -/
theorem ref_result (x0 : FVec Ideal Cert.ReferenceIdeal.S50000x32 .f32) (E : IVec Cert.ReferenceIdeal.S2x1600000 32)
    (hJ : ∀ e : Fin 1600000, 0 ≤ (E (ix2 (1 : Fin 2) e)).toInt ∧ (E (ix2 (1 : Fin 2) e)).toInt < 50000) :
    Cert.ReferenceIdeal.Read.val_main_v44 (F := Ideal) x0 E
      = Cert.KernelIdeal.KHost.kfinal (F := Ideal) x0 (Cert.KernelIdeal.KHost.kdeg (F := Ideal) E)
          (Cert.NbrNorm.segSum E (Cert.KernelIdeal.KHost.kmid (F := Ideal) x0 (Cert.KernelIdeal.KHost.kdeg (F := Ideal) E)
            (Cert.NbrNorm.segSum E x0))) := by
  have h1 : Cert.ReferenceIdeal.Read.val_main_v44 (F := Ideal) x0 E
      = Cert.KernelIdeal.KHost.kfinal (F := Ideal) x0 (Cert.KernelIdeal.KHost.kdeg (F := Ideal) E)
          (Cert.ReferenceIdeal.Read.val_main_v34 (F := Ideal) x0 E) := rfl
  have h2 : Cert.ReferenceIdeal.Read.val_main_v24 (F := Ideal) x0 E
      = Cert.KernelIdeal.KHost.kmid (F := Ideal) x0 (Cert.KernelIdeal.KHost.kdeg (F := Ideal) E)
          (Cert.ReferenceIdeal.Read.val_main_v20 (F := Ideal) x0 E) := rfl
  rw [h1, Cert.ReferenceIdeal.RefSeg.seg2 x0 E hJ, h2, Cert.ReferenceIdeal.RefSeg.seg1 x0 E hJ]

theorem frame_k [Cert.Kernel.Facts] [Cert.Pre_finite_inputs.Facts] : Cert.frame_Kernel := fun m ρ _ => Cert.Kernel.Gen.frame m ρ
theorem frame_ki [Cert.KernelIdeal.Facts] [Cert.Pre_finite_inputs.Facts] : Cert.frame_KernelIdeal := fun m ρ _ => Cert.KernelIdeal.Gen.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the same result. -/
theorem algebraic : Cert.algebraic_KernelIdeal_ReferenceIdeal := by
  intro m ρ m' ρ' hpre hagree
  have hJ : ∀ c : Dev Cert.KernelIdeal.nD, ∀ e : Fin 1600000,
      0 ≤ ((m ((c.tc : Thread Cert.KernelIdeal.nD Cert.KernelIdeal.τ).loc Cert.KernelIdeal.main_arg1)) (ix2 (1 : Fin 2) e)).toInt
      ∧ ((m ((c.tc : Thread Cert.KernelIdeal.nD Cert.KernelIdeal.τ).loc Cert.KernelIdeal.main_arg1)) (ix2 (1 : Fin 2) e)).toInt < 50000 :=
    fun c => Cert.Pre_finite_inputs.Decode.src_in_range _ _ (hpre c)
  refine ⟨fun c => Cert.KernelIdeal.Gen.W7 m ρ c (Proc.devRef .tc Cert.KernelIdeal.main_v40),
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2]
  show _ = Cert.KernelIdeal.Gen.W7 m ρ c (Proc.devRef .tc Cert.KernelIdeal.main_v40)
  rw [Cert.KernelIdeal.KValue.result_eq m ρ c (hJ c)]
  exact ref_result _ _ (hJ c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
